-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x512 : Shape := ⟨3, ![64, 128, 512]⟩
abbrev S64x256x512 : Shape := ⟨3, ![64, 256, 512]⟩
abbrev S64x128 : Shape := ⟨2, ![64, 128]⟩
abbrev S_ : Shape := ⟨0, ![]⟩

class Facts : Prop where
  bcast_S_S64x128x512 : S_.BroadcastsInDim S64x128x512 (![] : Fin 0 → Fin S64x128x512.rank)
  reducesTo_S64x128x512_S_d0_1_2 : S64x128x512.ReducesTo [0, 1, 2] S_
  h_S_ : 0 < S_.numel
  bcast_S_S64x256x512 : S_.BroadcastsInDim S64x256x512 (![] : Fin 0 → Fin S64x256x512.rank)
  reducesTo_S64x256x512_S_d0_1_2 : S64x256x512.ReducesTo [0, 1, 2] S_

variable [Facts]

def fn {F : FTy → Type} [FloatOps F] (main_arg0 : FVec F S64x128x512 .f32) (main_arg1 : FVec F S64x256x512 .f32) (main_arg2 : IVec S64x128 32) : IVec S_ 1 :=
  let main_v0 : FVec F S64x128x512 .f32 := Host.absf main_arg0
  let main_cst : FVec F S_ .f32 := constant S_ .f32 0x7F800000#32
  let main_v1 : FVec F S64x128x512 .f32 := broadcastInDim S64x128x512 ![] bcast_S_S64x128x512 main_cst
  let main_v2 : IVec S64x128x512 1 := cmpf .olt main_v0 main_v1
  let main_c : IVec S_ 1 := constantI S_ 1 1#1
  let main_v3 : IVec S_ 1 := (fun x v => Host.reduce IntOp.andi x v reducesTo_S64x128x512_S_d0_1_2 h_S_) main_v2 main_c
  let main_v4 : FVec F S64x256x512 .f32 := Host.absf main_arg1
  let main_cst_0 : FVec F S_ .f32 := constant S_ .f32 0x7F800000#32
  let main_v5 : FVec F S64x256x512 .f32 := broadcastInDim S64x256x512 ![] bcast_S_S64x256x512 main_cst_0
  let main_v6 : IVec S64x256x512 1 := cmpf .olt main_v4 main_v5
  let main_c_1 : IVec S_ 1 := constantI S_ 1 1#1
  let main_v7 : IVec S_ 1 := (fun x v => Host.reduce IntOp.andi x v reducesTo_S64x256x512_S_d0_1_2 h_S_) main_v6 main_c_1
  let main_v8 : IVec S_ 1 := andi main_v3 main_v7
  main_v8
-- ==== Kernel.lean ====
abbrev S64x128x512 : Shape := ⟨3, ![64, 128, 512]⟩
abbrev S64x256x512 : Shape := ⟨3, ![64, 256, 512]⟩
abbrev S64x128 : Shape := ⟨2, ![64, 128]⟩
abbrev S64x64 : Shape := ⟨2, ![64, 64]⟩
abbrev S1x1 : Shape := ⟨2, ![1, 1]⟩
abbrev S8x128x512 : Shape := ⟨3, ![8, 128, 512]⟩
abbrev S8x128 : Shape := ⟨2, ![8, 128]⟩
abbrev S8x64 : Shape := ⟨2, ![8, 64]⟩
abbrev S4x256x512 : Shape := ⟨3, ![4, 256, 512]⟩
abbrev S_ : Shape := ⟨0, ![]⟩
abbrev S4x256 : Shape := ⟨2, ![4, 256]⟩
abbrev S4x256x1 : Shape := ⟨3, ![4, 256, 1]⟩
abbrev S8x128x1 : Shape := ⟨3, ![8, 128, 1]⟩
abbrev S1024x512 : Shape := ⟨2, ![1024, 512]⟩
abbrev S8 : Shape := ⟨1, ![8]⟩
abbrev S8x1 : Shape := ⟨2, ![8, 1]⟩
abbrev S1024x1024 : Shape := ⟨2, ![1024, 1024]⟩
abbrev S1024x4x256 : Shape := ⟨3, ![1024, 4, 256]⟩
abbrev S1024x4 : Shape := ⟨2, ![1024, 4]⟩
abbrev S8x128x4 : Shape := ⟨3, ![8, 128, 4]⟩
abbrev S8x4 : Shape := ⟨2, ![8, 4]⟩
abbrev S1024 : Shape := ⟨1, ![1024]⟩
abbrev S1024x1 : Shape := ⟨2, ![1024, 1]⟩
abbrev S1 : Shape := ⟨1, ![1]⟩
abbrev S64 : Shape := ⟨1, ![64]⟩
abbrev S64x1 : Shape := ⟨2, ![64, 1]⟩
abbrev S64x2 : Shape := ⟨2, ![64, 2]⟩

abbrev nBuf : Space → Nat
  | .hbm => 88
  | .vmem => 9
  | .smem => 0
  | _ => 0

abbrev bufTy : (tb : Table) → Fin (tcTables nBuf tb) → BufTy
  | .hbm, ⟨0, _⟩ => ⟨S64x128x512, .f32⟩
  | .hbm, ⟨1, _⟩ => ⟨S64x256x512, .f32⟩
  | .hbm, ⟨2, _⟩ => ⟨S64x128, .i32⟩
  | .hbm, ⟨3, _⟩ => ⟨S64x64, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .i32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S_, .f32⟩
  | .hbm, ⟨21, _⟩ => ⟨S64, .f32⟩
  | .hbm, ⟨22, _⟩ => ⟨S64x1, .f32⟩
  | .hbm, ⟨23, _⟩ => ⟨S64x1, .f32⟩
  | .hbm, ⟨24, _⟩ => ⟨S64x64, .f32⟩
  | .hbm, ⟨25, _⟩ => ⟨S64x64, .f32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S64x1, .i32⟩
  | .hbm, ⟨41, _⟩ => ⟨S64x1, .i32⟩
  | .hbm, ⟨42, _⟩ => ⟨S64x2, .i32⟩
  | .hbm, ⟨43, _⟩ => ⟨S64, .f32⟩
  | .hbm, ⟨44, _⟩ => ⟨S64, .f32⟩
  | .hbm, ⟨45, _⟩ => ⟨S64x64, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64x1, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S_, .f32⟩
  | .hbm, ⟨56, _⟩ => ⟨S64, .f32⟩
  | .hbm, ⟨57, _⟩ => ⟨S64x1, .f32⟩
  | .hbm, ⟨58, _⟩ => ⟨S64x1, .f32⟩
  | .hbm, ⟨59, _⟩ => ⟨S64x64, .f32⟩
  | .hbm, ⟨60, _⟩ => ⟨S64x64, .f32⟩
  | .hbm, ⟨61, _⟩ => ⟨S_, .i32⟩
  | .hbm, ⟨62, _⟩ => ⟨S64, .i32⟩
  | .hbm, ⟨63, _⟩ => ⟨S64, .i1⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S64, .i32⟩
  | .hbm, ⟨68, _⟩ => ⟨S_, .i32⟩
  | .hbm, ⟨69, _⟩ => ⟨S64, .i32⟩
  | .hbm, ⟨70, _⟩ => ⟨S64, .i1⟩
  | .hbm, ⟨71, _⟩ => ⟨S_, .i32⟩
  | .hbm, ⟨72, _⟩ => ⟨S64, .i32⟩
  | .hbm, ⟨73, _⟩ => ⟨S64, .i32⟩
  | .hbm, ⟨74, _⟩ => ⟨S64, .i32⟩
  | .hbm, ⟨75, _⟩ => ⟨S64x1, .i32⟩
  | .hbm, ⟨76, _⟩ => ⟨S64x1, .i32⟩
  | .hbm, ⟨77, _⟩ => ⟨S64x2, .i32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S8x128x512, .f32⟩
  | .local _ .vmem, ⟨1, _⟩ => ⟨S8x128x512, .f32⟩
  | .local _ .vmem, ⟨2, _⟩ => ⟨S8x128, .i32⟩
  | .local _ .vmem, ⟨3, _⟩ => ⟨S8x128, .i32⟩
  | .local _ .vmem, ⟨4, _⟩ => ⟨S8x64, .f32⟩
  | .local _ .vmem, ⟨5, _⟩ => ⟨S8x64, .f32⟩
  | .local _ .vmem, ⟨6, _⟩ => ⟨S1x1, .f32⟩
  | .local _ .vmem, ⟨7, _⟩ => ⟨S64x256x512, .bf16⟩
  | .local _ .vmem, ⟨8, _⟩ => ⟨S4x256x512, .f32⟩
  | _, _ => ⟨S64x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_2 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call1_cst : Ref sig .tc := ⟨.hbm, 46, rfl⟩
abbrev main_call1_v0 : Ref sig .tc := ⟨.hbm, 47, rfl⟩
abbrev main_call1_cst_0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_cst_1 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_v22 : Ref sig .tc := ⟨.hbm, 60, rfl⟩
abbrev main_c_4 : Ref sig .tc := ⟨.hbm, 61, rfl⟩
abbrev main_v23 : Ref sig .tc := ⟨.hbm, 62, rfl⟩
abbrev main_v24 : Ref sig .tc := ⟨.hbm, 63, rfl⟩
abbrev main_c_5 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_c_6 : Ref sig .tc := ⟨.hbm, 68, rfl⟩
abbrev main_v28 : Ref sig .tc := ⟨.hbm, 69, rfl⟩
abbrev main_v29 : Ref sig .tc := ⟨.hbm, 70, rfl⟩
abbrev main_c_7 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_8 : Ref sig .tc := ⟨.hbm, 81, rfl⟩
abbrev main_v39 : Ref sig .tc := ⟨.hbm, 82, rfl⟩
abbrev main_cst_9 : Ref sig .tc := ⟨.hbm, 83, rfl⟩
abbrev main_v40 : Ref sig .tc := ⟨.hbm, 84, rfl⟩
abbrev main_cst_10 : Ref sig .tc := ⟨.hbm, 85, rfl⟩
abbrev main_v41 : Ref sig .tc := ⟨.hbm, 86, rfl⟩
abbrev main_v42 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S64x256x512_S4x256x512_0_0_0 : ∀ a, (![0, 0, 0] : Fin 3 → Nat) a + S4x256x512.size a ≤ S64x256x512.size a
  inb_S4x256x512_S4x256x512_0_0_0 : ∀ a, (![0, 0, 0] : Fin 3 → Nat) a + S4x256x512.size a ≤ S4x256x512.size a
  h_S4x256x512 : 0 < S4x256x512.numel
  reduces_S4x256x512_S4x256 : S4x256x512.Reduces [2] S4x256
  shapeCasts_S4x256_S4x256x1 : S4x256.ShapeCasts S4x256x1
  broadcasts_S4x256x1_S4x256x512 : S4x256x1.Broadcasts S4x256x512
  bitsLt_bf16_f32 : FTy.bits .bf16 < FTy.bits .f32
  shapeCasts_S4x256x512_S4x256x512 : S4x256x512.ShapeCasts S4x256x512
  packedbf16_S64x256x512_S4x256x512_0_0_0 : (Rect.unit (s := S64x256x512) ![0, 0, 0] S4x256x512.size inb_S64x256x512_S4x256x512_0_0_0).PackedRows (EltTy.packing .bf16)
  inb_S64x256x512_S4x256x512_4_0_0 : ∀ a, (![4, 0, 0] : Fin 3 → Nat) a + S4x256x512.size a ≤ S64x256x512.size a
  packedbf16_S64x256x512_S4x256x512_4_0_0 : (Rect.unit (s := S64x256x512) ![4, 0, 0] S4x256x512.size inb_S64x256x512_S4x256x512_4_0_0).PackedRows (EltTy.packing .bf16)
  inb_S64x256x512_S4x256x512_8_0_0 : ∀ a, (![8, 0, 0] : Fin 3 → Nat) a + S4x256x512.size a ≤ S64x256x512.size a
  packedbf16_S64x256x512_S4x256x512_8_0_0 : (Rect.unit (s := S64x256x512) ![8, 0, 0] S4x256x512.size inb_S64x256x512_S4x256x512_8_0_0).PackedRows (EltTy.packing .bf16)
  inb_S64x256x512_S4x256x512_12_0_0 : ∀ a, (![12, 0, 0] : Fin 3 → Nat) a + S4x256x512.size a ≤ S64x256x512.size a
  packedbf16_S64x256x512_S4x256x512_12_0_0 : (Rect.unit (s := S64x256x512) ![12, 0, 0] S4x256x512.size inb_S64x256x512_S4x256x512_12_0_0).PackedRows (EltTy.packing .bf16)
  inb_S64x256x512_S4x256x512_16_0_0 : ∀ a, (![16, 0, 0] : Fin 3 → Nat) a + S4x256x512.size a ≤ S64x256x512.size a
  packedbf16_S64x256x512_S4x256x512_16_0_0 : (Rect.unit (s := S64x256x512) ![16, 0, 0] S4x256x512.size inb_S64x256x512_S4x256x512_16_0_0).PackedRows (EltTy.packing .bf16)
  inb_S64x256x512_S4x256x512_20_0_0 : ∀ a, (![20, 0, 0] : Fin 3 → Nat) a + S4x256x512.size a ≤ S64x256x512.size a
  packedbf16_S64x256x512_S4x256x512_20_0_0 : (Rect.unit (s := S64x256x512) ![20, 0, 0] S4x256x512.size inb_S64x256x512_S4x256x512_20_0_0).PackedRows (EltTy.packing .bf16)
  inb_S64x256x512_S4x256x512_24_0_0 : ∀ a, (![24, 0, 0] : Fin 3 → Nat) a + S4x256x512.size a ≤ S64x256x512.size a
  packedbf16_S64x256x512_S4x256x512_24_0_0 : (Rect.unit (s := S64x256x512) ![24, 0, 0] S4x256x512.size inb_S64x256x512_S4x256x512_24_0_0).PackedRows (EltTy.packing .bf16)
  inb_S64x256x512_S4x256x512_28_0_0 : ∀ a, (![28, 0, 0] : Fin 3 → Nat) a + S4x256x512.size a ≤ S64x256x512.size a
  packedbf16_S64x256x512_S4x256x512_28_0_0 : (Rect.unit (s := S64x256x512) ![28, 0, 0] S4x256x512.size inb_S64x256x512_S4x256x512_28_0_0).PackedRows (EltTy.packing .bf16)
  inb_S64x256x512_S4x256x512_32_0_0 : ∀ a, (![32, 0, 0] : Fin 3 → Nat) a + S4x256x512.size a ≤ S64x256x512.size a
  packedbf16_S64x256x512_S4x256x512_32_0_0 : (Rect.unit (s := S64x256x512) ![32, 0, 0] S4x256x512.size inb_S64x256x512_S4x256x512_32_0_0).PackedRows (EltTy.packing .bf16)
  inb_S64x256x512_S4x256x512_36_0_0 : ∀ a, (![36, 0, 0] : Fin 3 → Nat) a + S4x256x512.size a ≤ S64x256x512.size a
  packedbf16_S64x256x512_S4x256x512_36_0_0 : (Rect.unit (s := S64x256x512) ![36, 0, 0] S4x256x512.size inb_S64x256x512_S4x256x512_36_0_0).PackedRows (EltTy.packing .bf16)
  inb_S64x256x512_S4x256x512_40_0_0 : ∀ a, (![40, 0, 0] : Fin 3 → Nat) a + S4x256x512.size a ≤ S64x256x512.size a
  packedbf16_S64x256x512_S4x256x512_40_0_0 : (Rect.unit (s := S64x256x512) ![40, 0, 0] S4x256x512.size inb_S64x256x512_S4x256x512_40_0_0).PackedRows (EltTy.packing .bf16)
  inb_S64x256x512_S4x256x512_44_0_0 : ∀ a, (![44, 0, 0] : Fin 3 → Nat) a + S4x256x512.size a ≤ S64x256x512.size a
  packedbf16_S64x256x512_S4x256x512_44_0_0 : (Rect.unit (s := S64x256x512) ![44, 0, 0] S4x256x512.size inb_S64x256x512_S4x256x512_44_0_0).PackedRows (EltTy.packing .bf16)
  inb_S64x256x512_S4x256x512_48_0_0 : ∀ a, (![48, 0, 0] : Fin 3 → Nat) a + S4x256x512.size a ≤ S64x256x512.size a
  packedbf16_S64x256x512_S4x256x512_48_0_0 : (Rect.unit (s := S64x256x512) ![48, 0, 0] S4x256x512.size inb_S64x256x512_S4x256x512_48_0_0).PackedRows (EltTy.packing .bf16)
  inb_S64x256x512_S4x256x512_52_0_0 : ∀ a, (![52, 0, 0] : Fin 3 → Nat) a + S4x256x512.size a ≤ S64x256x512.size a
  packedbf16_S64x256x512_S4x256x512_52_0_0 : (Rect.unit (s := S64x256x512) ![52, 0, 0] S4x256x512.size inb_S64x256x512_S4x256x512_52_0_0).PackedRows (EltTy.packing .bf16)
  inb_S64x256x512_S4x256x512_56_0_0 : ∀ a, (![56, 0, 0] : Fin 3 → Nat) a + S4x256x512.size a ≤ S64x256x512.size a
  packedbf16_S64x256x512_S4x256x512_56_0_0 : (Rect.unit (s := S64x256x512) ![56, 0, 0] S4x256x512.size inb_S64x256x512_S4x256x512_56_0_0).PackedRows (EltTy.packing .bf16)
  inb_S64x256x512_S4x256x512_60_0_0 : ∀ a, (![60, 0, 0] : Fin 3 → Nat) a + S4x256x512.size a ≤ S64x256x512.size a
  packedbf16_S64x256x512_S4x256x512_60_0_0 : (Rect.unit (s := S64x256x512) ![60, 0, 0] S4x256x512.size inb_S64x256x512_S4x256x512_60_0_0).PackedRows (EltTy.packing .bf16)
  inb_S8x128x512_S8x128x512_0_0_0 : ∀ a, (![0, 0, 0] : Fin 3 → Nat) a + S8x128x512.size a ≤ S8x128x512.size a
  h_S8x128x512 : 0 < S8x128x512.numel
  reduces_S8x128x512_S8x128 : S8x128x512.Reduces [2] S8x128
  shapeCasts_S8x128_S8x128x1 : S8x128.ShapeCasts S8x128x1
  broadcasts_S8x128x1_S8x128x512 : S8x128x1.Broadcasts S8x128x512
  shapeCasts_S8x128x512_S1024x512 : S8x128x512.ShapeCasts S1024x512
  inb_S8x128_S8x128_0_0 : ∀ a, (![0, 0] : Fin 2 → Nat) a + S8x128.size a ≤ S8x128.size a
  h_S8x128 : 0 < S8x128.numel
  reduces_S8x128_S8 : S8x128.Reduces [1] S8
  shapeCasts_S8_S8x1 : S8.ShapeCasts S8x1
  shapeCasts_S4x256x512_S1024x512 : S4x256x512.ShapeCasts S1024x512
  shapeCasts_S1024x1024_S1024x4x256 : S1024x1024.ShapeCasts S1024x4x256
  reduces_S1024x4x256_S1024x4 : S1024x4x256.Reduces [2] S1024x4
  shapeCasts_S1024x4_S8x128x4 : S1024x4.ShapeCasts S8x128x4
  broadcasts_S8x128x1_S8x128x4 : S8x128x1.Broadcasts S8x128x4
  reduces_S8x128x4_S8x4 : S8x128x4.Reduces [1] S8x4
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  concatenates_S8x4_S8x4_S8x4_S8x4_S8x4_S8x4_S8x4_S8x4_S8x4_S8x4_S8x4_S8x4_S8x4_S8x4_S8x4_S8x4_S8x64_d1 : Shape.Concatenates [S8x4, S8x4, S8x4, S8x4, S8x4, S8x4, S8x4, S8x4, S8x4, S8x4, S8x4, S8x4, S8x4, S8x4, S8x4, S8x4] S8x64 1
  broadcasts_S8x1_S8x64 : S8x1.Broadcasts S8x64
  inb_S8x64_S8x64_0_0 : ∀ a, (![0, 0] : Fin 2 → Nat) a + S8x64.size a ≤ S8x64.size a
  h_S8x64 : 0 < S8x64.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  reducesTo_S64x64_S64_d1 : S64x64.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  concatenates_S64x1_S64x1_S64x2_d1 : Shape.Concatenates [S64x1, S64x1] S64x2 1
  transposes_S64x64_S64x64_1_0 : S64x64.Transposes [1, 0] S64x64
  reducesTo_S64_S_d0 : S64.ReducesTo [0] S_
  dot_S1024x512_S1024x512_S1024x1024_1_1_0_0_n_n_wf : DotDims.WF S1024x512 S1024x512 S1024x1024 [1] [1] [0] [0] [] []
  gather_S64x64_S64x2_S64_n_01_n_n_01_1_11_wf : GatherDims.WF S64x64 S64x2 S64 [] [0, 1] [] [0, 1] [] 1 ![1, 1]
  hcc0_scratch2 : 7 + S_.numel ≤ 8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S64x128x512.size a
  hwx0_0 : ∀ i : grid0.Coords, EltTy.bits .f32 = 32 ∨ (Rect.block (s := S64x128x512) S8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S8x128.size a ≤ S64x128.size a
  hwx0_1 : ∀ i : grid0.Coords, EltTy.bits .i32 = 32 ∨ (Rect.block (s := S64x128) S8x128.size (cc0_transform_2 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S8x64.size a ≤ S64x64.size a
  hwx0_2 : ∀ i : grid0.Coords, EltTy.bits .f32 = 32 ∨ (Rect.block (s := S64x64) S8x64.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x1.size a ≤ S1x1.size a
  hwx0_3 : ∀ i : grid0.Coords, EltTy.bits .f32 = 32 ∨ (Rect.block (s := S1x1) S1x1.size (cc0_transform_4 i) (hinb0_3 i)).WholeWords (EltTy.packing .f32)

variable [Facts₀]

abbrev cc0_scratch2 : DmaSems sig S_ := SemArray.consecutive 7 S_ hcc0_scratch2
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def gather_S64x64_S64x2_S64_n_01_n_n_01_1_11 : GatherDims S64x64 S64x2 S64 where
  offsetDims := []
  collapsedSliceDims := [0, 1]
  operandBatchingDims := []
  startIndicesBatchingDims := []
  startIndexMap := [0, 1]
  indexVectorDim := 1
  sliceSizes := ![1, 1]
  wf := gather_S64x64_S64x2_S64_n_01_n_n_01_1_11_wf

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x128.size cc0_transform_2 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x64.size cc0_transform_3 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_4 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x128x512 : Shape := ⟨3, ![64, 128, 512]⟩
abbrev S64x256x512 : Shape := ⟨3, ![64, 256, 512]⟩
abbrev S64x128 : Shape := ⟨2, ![64, 128]⟩
abbrev S_ : Shape := ⟨0, ![]⟩
abbrev S64x128x1 : Shape := ⟨3, ![64, 128, 1]⟩
abbrev S64x256 : Shape := ⟨2, ![64, 256]⟩
abbrev S64x256x1 : Shape := ⟨3, ![64, 256, 1]⟩
abbrev S64x256x64x128 : Shape := ⟨4, ![64, 256, 64, 128]⟩
abbrev S64x64x128x256 : Shape := ⟨4, ![64, 64, 128, 256]⟩
abbrev S64x64x128 : Shape := ⟨3, ![64, 64, 128]⟩
abbrev S64x1x128 : Shape := ⟨3, ![64, 1, 128]⟩
abbrev S64x64 : Shape := ⟨2, ![64, 64]⟩
abbrev S64x1 : Shape := ⟨2, ![64, 1]⟩
abbrev S64 : Shape := ⟨1, ![64]⟩
abbrev S64x2 : Shape := ⟨2, ![64, 2]⟩

abbrev nBuf : Space → Nat
  | .hbm => 136
  | .vmem => 0
  | .smem => 0
  | _ => 0

abbrev hbmTy0_0 (i : Nat) : BufTy := match i % 128 with
  | 0 => ⟨S64x128x512, .f32⟩
  | 1 => ⟨S64x256x512, .f32⟩
  | 2 => ⟨S64x128, .i32⟩
  | 3 => ⟨S64x128x512, .f32⟩
  | 4 => ⟨S_, .f32⟩
  | 5 => ⟨S64x128, .f32⟩
  | 6 => ⟨S64x128x1, .f32⟩
  | 7 => ⟨S64x128x1, .f32⟩
  | 8 => ⟨S_, .f32⟩
  | 9 => ⟨S_, .f32⟩
  | 10 => ⟨S64x128x1, .f32⟩
  | 11 => ⟨S64x128x1, .f32⟩
  | 12 => ⟨S64x128x512, .f32⟩
  | 13 => ⟨S64x128x512, .f32⟩
  | 14 => ⟨S64x256x512, .f32⟩
  | 15 => ⟨S_, .f32⟩
  | 16 => ⟨S64x256, .f32⟩
  | 17 => ⟨S64x256x1, .f32⟩
  | 18 => ⟨S64x256x1, .f32⟩
  | 19 => ⟨S_, .f32⟩
  | 20 => ⟨S_, .f32⟩
  | 21 => ⟨S64x256x1, .f32⟩
  | 22 => ⟨S64x256x1, .f32⟩
  | 23 => ⟨S64x256x512, .f32⟩
  | 24 => ⟨S64x256x512, .f32⟩
  | 25 => ⟨S64x256x64x128, .f32⟩
  | 26 => ⟨S64x64x128x256, .f32⟩
  | 27 => ⟨S_, .f32⟩
  | 28 => ⟨S64x64x128, .f32⟩
  | 29 => ⟨S64x128, .f32⟩
  | 30 => ⟨S64x1x128, .f32⟩
  | 31 => ⟨S64x64x128, .f32⟩
  | 32 => ⟨S64x64x128, .f32⟩
  | 33 => ⟨S_, .f32⟩
  | 34 => ⟨S64x64, .f32⟩
  | 35 => ⟨S_, .f32⟩
  | 36 => ⟨S64x1, .f32⟩
  | 37 => ⟨S_, .f32⟩
  | 38 => ⟨S_, .f32⟩
  | 39 => ⟨S64x1, .f32⟩
  | 40 => ⟨S64x1, .f32⟩
  | 41 => ⟨S64x64, .f32⟩
  | 42 => ⟨S64x64, .f32⟩
  | 43 => ⟨S64, .i32⟩
  | 44 => ⟨S_, .f32⟩
  | 45 => ⟨S64, .f32⟩
  | 46 => ⟨S_, .f32⟩
  | 47 => ⟨S64, .f32⟩
  | 48 => ⟨S64, .f32⟩
  | 49 => ⟨S64x1, .f32⟩
  | 50 => ⟨S64x64, .f32⟩
  | 51 => ⟨S64x64, .f32⟩
  | 52 => ⟨S64x64, .f32⟩
  | 53 => ⟨S_, .f32⟩
  | 54 => ⟨S64, .f32⟩
  | 55 => ⟨S64x1, .f32⟩
  | 56 => ⟨S64x1, .f32⟩
  | 57 => ⟨S64x64, .f32⟩
  | 58 => ⟨S64x64, .f32⟩
  | 59 => ⟨S_, .i32⟩
  | 60 => ⟨S64, .i32⟩
  | 61 => ⟨S64, .i1⟩
  | 62 => ⟨S_, .i32⟩
  | 63 => ⟨S64, .i32⟩
  | 64 => ⟨S64, .i32⟩
  | 65 => ⟨S64, .i32⟩
  | 66 => ⟨S_, .i32⟩
  | 67 => ⟨S64, .i32⟩
  | 68 => ⟨S64, .i1⟩
  | 69 => ⟨S_, .i32⟩
  | 70 => ⟨S64, .i32⟩
  | 71 => ⟨S64, .i32⟩
  | 72 => ⟨S64, .i32⟩
  | 73 => ⟨S64x1, .i32⟩
  | 74 => ⟨S64x1, .i32⟩
  | 75 => ⟨S64x2, .i32⟩
  | 76 => ⟨S64, .f32⟩
  | 77 => ⟨S64, .f32⟩
  | 78 => ⟨S64x64, .f32⟩
  | 79 => ⟨S_, .f32⟩
  | 80 => ⟨S64, .f32⟩
  | 81 => ⟨S_, .f32⟩
  | 82 => ⟨S64, .f32⟩
  | 83 => ⟨S64, .f32⟩
  | 84 => ⟨S64x1, .f32⟩
  | 85 => ⟨S64x64, .f32⟩
  | 86 => ⟨S64x64, .f32⟩
  | 87 => ⟨S64x64, .f32⟩
  | 88 => ⟨S_, .f32⟩
  | 89 => ⟨S64, .f32⟩
  | 90 => ⟨S64x1, .f32⟩
  | 91 => ⟨S64x1, .f32⟩
  | 92 => ⟨S64x64, .f32⟩
  | 93 => ⟨S64x64, .f32⟩
  | 94 => ⟨S_, .i32⟩
  | 95 => ⟨S64, .i32⟩
  | 96 => ⟨S64, .i1⟩
  | 97 => ⟨S_, .i32⟩
  | 98 => ⟨S64, .i32⟩
  | 99 => ⟨S64, .i32⟩
  | 100 => ⟨S64, .i32⟩
  | 101 => ⟨S_, .i32⟩
  | 102 => ⟨S64, .i32⟩
  | 103 => ⟨S64, .i1⟩
  | 104 => ⟨S_, .i32⟩
  | 105 => ⟨S64, .i32⟩
  | 106 => ⟨S64, .i32⟩
  | 107 => ⟨S64, .i32⟩
  | 108 => ⟨S64x1, .i32⟩
  | 109 => ⟨S64x1, .i32⟩
  | 110 => ⟨S64x2, .i32⟩
  | 111 => ⟨S64, .f32⟩
  | 112 => ⟨S64, .f32⟩
  | 113 => ⟨S64, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S64x64x128x256, .f32⟩
  | 124 => ⟨S64x64x128x256, .f32⟩
  | 125 => ⟨S_, .f32⟩
  | 126 => ⟨S64x64x128x256, .f32⟩
  | 127 => ⟨S64x64x128x256, .f32⟩
  | _ => ⟨S64x128x512, .f32⟩

abbrev hbmTy0_1 (i : Nat) : BufTy := match i % 128 with
  | 0 => ⟨S64x64x128x256, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S64x128x512, .f32⟩

abbrev hbmTy (i : Nat) : BufTy := match i / 128 with
  | 0 => hbmTy0_0 i
  | 1 => hbmTy0_1 i
  | _ => ⟨S64x128x512, .f32⟩

abbrev bufTy : (tb : Table) → Fin (tcTables nBuf tb) → BufTy
  | .hbm, ⟨i, _⟩ => hbmTy i
  | _, _ => ⟨S64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call2_v0 : Ref sig .tc := ⟨.hbm, 14, rfl⟩
abbrev main_call2_cst : Ref sig .tc := ⟨.hbm, 15, rfl⟩
abbrev main_call2_v1 : Ref sig .tc := ⟨.hbm, 16, rfl⟩
abbrev main_call2_v2 : Ref sig .tc := ⟨.hbm, 17, rfl⟩
abbrev main_v4 : Ref sig .tc := ⟨.hbm, 18, rfl⟩
abbrev main_cst_0 : Ref sig .tc := ⟨.hbm, 19, rfl⟩
abbrev main_call3_v0 : Ref sig .tc := ⟨.hbm, 20, rfl⟩
abbrev main_call3_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_cst_4 : Ref sig .tc := ⟨.hbm, 37, rfl⟩
abbrev main_call4_v0 : Ref sig .tc := ⟨.hbm, 38, rfl⟩
abbrev main_call4_v1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_call5_cst : Ref sig .tc := ⟨.hbm, 44, rfl⟩
abbrev main_call5_v0 : Ref sig .tc := ⟨.hbm, 45, rfl⟩
abbrev main_call5_cst_0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_call5_v5 : Ref sig .tc := ⟨.hbm, 51, rfl⟩
abbrev main_call5_v6 : Ref sig .tc := ⟨.hbm, 52, rfl⟩
abbrev main_call5_cst_1 : Ref sig .tc := ⟨.hbm, 53, rfl⟩
abbrev main_call5_v7 : Ref sig .tc := ⟨.hbm, 54, rfl⟩
abbrev main_call5_v8 : Ref sig .tc := ⟨.hbm, 55, rfl⟩
abbrev main_call5_v9 : Ref sig .tc := ⟨.hbm, 56, rfl⟩
abbrev main_call5_v10 : Ref sig .tc := ⟨.hbm, 57, rfl⟩
abbrev main_v21 : Ref sig .tc := ⟨.hbm, 58, rfl⟩
abbrev main_c : Ref sig .tc := ⟨.hbm, 59, rfl⟩
abbrev main_v22 : Ref sig .tc := ⟨.hbm, 60, rfl⟩
abbrev main_v23 : Ref sig .tc := ⟨.hbm, 61, rfl⟩
abbrev main_c_5 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_c_6 : Ref sig .tc := ⟨.hbm, 66, rfl⟩
abbrev main_v27 : Ref sig .tc := ⟨.hbm, 67, rfl⟩
abbrev main_v28 : Ref sig .tc := ⟨.hbm, 68, rfl⟩
abbrev main_c_7 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call6_cst : Ref sig .tc := ⟨.hbm, 79, rfl⟩
abbrev main_call6_v0 : Ref sig .tc := ⟨.hbm, 80, rfl⟩
abbrev main_call6_cst_0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_cst_1 : Ref sig .tc := ⟨.hbm, 88, rfl⟩
abbrev main_call6_v7 : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_v38 : Ref sig .tc := ⟨.hbm, 93, rfl⟩
abbrev main_c_8 : Ref sig .tc := ⟨.hbm, 94, rfl⟩
abbrev main_v39 : Ref sig .tc := ⟨.hbm, 95, rfl⟩
abbrev main_v40 : Ref sig .tc := ⟨.hbm, 96, rfl⟩
abbrev main_c_9 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_c_10 : Ref sig .tc := ⟨.hbm, 101, rfl⟩
abbrev main_v44 : Ref sig .tc := ⟨.hbm, 102, rfl⟩
abbrev main_v45 : Ref sig .tc := ⟨.hbm, 103, rfl⟩
abbrev main_c_11 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_12 : Ref sig .tc := ⟨.hbm, 114, rfl⟩
abbrev main_v55 : Ref sig .tc := ⟨.hbm, 115, rfl⟩
abbrev main_cst_13 : Ref sig .tc := ⟨.hbm, 116, rfl⟩
abbrev main_v56 : Ref sig .tc := ⟨.hbm, 117, rfl⟩
abbrev main_cst_14 : Ref sig .tc := ⟨.hbm, 118, rfl⟩
abbrev main_v57 : Ref sig .tc := ⟨.hbm, 119, rfl⟩
abbrev main_cst_15 : Ref sig .tc := ⟨.hbm, 120, rfl⟩
abbrev main_cst_16 : Ref sig .tc := ⟨.hbm, 121, rfl⟩
abbrev main_call7_v0 : Ref sig .tc := ⟨.hbm, 122, rfl⟩
abbrev main_call7_v1 : Ref sig .tc := ⟨.hbm, 123, rfl⟩
abbrev main_call7_v2 : Ref sig .tc := ⟨.hbm, 124, rfl⟩
abbrev main_call7_v3 : Ref sig .tc := ⟨.hbm, 125, rfl⟩
abbrev main_call7_v4 : Ref sig .tc := ⟨.hbm, 126, rfl⟩
abbrev main_v58 : Ref sig .tc := ⟨.hbm, 127, rfl⟩
abbrev main_v59 : Ref sig .tc := ⟨.hbm, 128, rfl⟩
abbrev main_cst_17 : Ref sig .tc := ⟨.hbm, 129, rfl⟩
abbrev main_v60 : Ref sig .tc := ⟨.hbm, 130, rfl⟩
abbrev main_cst_18 : Ref sig .tc := ⟨.hbm, 131, rfl⟩
abbrev main_v61 : Ref sig .tc := ⟨.hbm, 132, rfl⟩
abbrev main_cst_19 : Ref sig .tc := ⟨.hbm, 133, rfl⟩
abbrev main_v62 : Ref sig .tc := ⟨.hbm, 134, rfl⟩
abbrev main_v63 : Ref sig .tc := ⟨.hbm, 135, rfl⟩

abbrev nD : Nat := 1
abbrev τ : Topo := Topo.v7x

variable {F : FTy → Type} [FloatOps F]

class Facts₀ : Prop where
  reducesTo_S64x128x512_S64x128_d2 : S64x128x512.ReducesTo [2] S64x128
  h_S_ : 0 < S_.numel
  bcast_S64x128_S64x128x1_0_1 : S64x128.BroadcastsInDim S64x128x1 (![0, 1] : Fin 2 → Fin S64x128x1.rank)
  bcast_S_S64x128x1 : S_.BroadcastsInDim S64x128x1 (![] : Fin 0 → Fin S64x128x1.rank)
  bcast_S64x128x1_S64x128x512_0_1_2 : S64x128x1.BroadcastsInDim S64x128x512 (![0, 1, 2] : Fin 3 → Fin S64x128x512.rank)
  reducesTo_S64x256x512_S64x256_d2 : S64x256x512.ReducesTo [2] S64x256
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x512_0_1_2 : S64x256x1.BroadcastsInDim S64x256x512 (![0, 1, 2] : Fin 3 → Fin S64x256x512.rank)
  transposes_S64x256x64x128_S64x64x128x256_2_0_3_1 : S64x256x64x128.Transposes [2, 0, 3, 1] S64x64x128x256
  reducesTo_S64x64x128x256_S64x64x128_d3 : S64x64x128x256.ReducesTo [3] S64x64x128
  bcast_S64x128_S64x1x128_0_2 : S64x128.BroadcastsInDim S64x1x128 (![0, 2] : Fin 2 → Fin S64x1x128.rank)
  bcast_S64x1x128_S64x64x128_0_1_2 : S64x1x128.BroadcastsInDim S64x64x128 (![0, 1, 2] : Fin 3 → Fin S64x64x128.rank)
  reducesTo_S64x64x128_S64x64_d2 : S64x64x128.ReducesTo [2] S64x64
  reducesTo_S64x1x128_S64x1_d2 : S64x1x128.ReducesTo [2] S64x1
  bcast_S_S64x1 : S_.BroadcastsInDim S64x1 (![] : Fin 0 → Fin S64x1.rank)
  bcast_S64x1_S64x64_0_1 : S64x1.BroadcastsInDim S64x64 (![0, 1] : Fin 2 → Fin S64x64.rank)
  reducesTo_S64x64_S64_d1 : S64x64.ReducesTo [1] S64
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  transposes_S64x64_S64x64_1_0 : S64x64.Transposes [1, 0] S64x64
  reducesTo_S64_S_d0 : S64.ReducesTo [0] S_
  bcast_S_S64x64x128x256 : S_.BroadcastsInDim S64x64x128x256 (![] : Fin 0 → Fin S64x64x128x256.rank)
  reducesTo_S64x64x128x256_S_d0_1_2_3 : S64x64x128x256.ReducesTo [0, 1, 2, 3] S_
  dot_S64x256x512_S64x128x512_S64x256x64x128_2_2_01_01_n_n_wf : DotDims.WF S64x256x512 S64x128x512 S64x256x64x128 [2] [2] [0, 1] [0, 1] [] []
  gather_S64x64_S64x2_S64_n_01_n_n_01_1_11_wf : GatherDims.WF S64x64 S64x2 S64 [] [0, 1] [] [0, 1] [] 1 ![1, 1]

variable [Facts₀]

def dot_S64x256x512_S64x128x512_S64x256x64x128_2_2_01_01_n_n : DotDims S64x256x512 S64x128x512 S64x256x64x128 where
  lhsContracting := [2]
  rhsContracting := [2]
  lhsNonContracting := [0, 1]
  rhsNonContracting := [0, 1]
  lhsBatch := []
  rhsBatch := []
  wf := dot_S64x256x512_S64x128x512_S64x256x64x128_2_2_01_01_n_n_wf
def gather_S64x64_S64x2_S64_n_01_n_n_01_1_11 : GatherDims S64x64 S64x2 S64 where
  offsetDims := []
  collapsedSliceDims := [0, 1]
  operandBatchingDims := []
  startIndicesBatchingDims := []
  startIndexMap := [0, 1]
  indexVectorDim := 1
  sliceSizes := ![1, 1]
  wf := gather_S64x64_S64x2_S64_n_01_n_n_01_1_11_wf

class Facts : Prop extends Facts₀ where

variable [Facts]
-- ==== Proof.KB.Names.lean ====
/-
  Names for what the kernel body is called with, at any float instance: the one branch condition the body tests twice
  (is this the first grid point?), decided over the grid; the fact that no window is ever idle; and, at a point, each
  window's current staging buffer, the two scratch buffers (the normalised visual features kept between points; the
  staging area of the body's own copies), the visual features in HBM, and the body's own transfer semaphore.
-/
import proofs.«143648_j70927089926536_1_alg».proof.Proof.Gen.Kernel.Launch
import proofs.«143648_j70927089926536_1_alg».proof.Proof.Gen.Kernel.Skeleton
import proofs.«143648_j70927089926536_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's branch condition -/

/-- Both conditionals of the body test the same thing: whether the grid coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- No window is idle anywhere. -/
theorem liveAt0 : ∀ (w : Fin cfg0.W) (t : Fin cfg0.N), cfg0.idle w (grid0.coords t) = false := by decide +kernel

/-! ## The memrefs the body is called with -/

abbrev VO2 : View sig .tc .vmem S8x64 .f32 := (Memref.whole cc0_stg2_0 : Memref sig .tc .vmem S8x64 .f32).view
abbrev VO3 : View sig .tc .vmem S1x1 .f32 := (Memref.whole cc0_stg3_0 : Memref sig .tc .vmem S1x1 .f32).view
abbrev ms0 (t : Fin cfg0.N) : Memref sig .tc .vmem S8x128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The normalised visual features, kept between points. -/
abbrev scM0 : Memref sig .tc .vmem S64x256x512 .bf16 := Memref.whole cc0_scratch0
/-- The staging area of the body's own copies. -/
abbrev scM1 : Memref sig .tc .vmem S4x256x512 .f32 := Memref.whole cc0_scratch1
abbrev VS0 : View sig .tc .vmem S64x256x512 .bf16 := scM0.view
/-- The visual features in HBM, whole. -/
abbrev hbM0 : Memref sig .tc .hbm S64x256x512 .f32 := Memref.whole main_arg1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphore: cell 7 of the pool, no window's. -/
abbrev osem0 : Fin 1 → SemLoc sig := fun j => (![SemLoc.dma 7] : Fin 1 → SemLoc sig) j
theorem ownSemFacts0 : Pipeline.OwnSemFacts spec0 osem0 := by decide

end Cert.Kernel.Fr

end
-- ==== Proof.KB.RunA.lean ====
/-
  The kernel body at the first grid point, at any float instance.

  At the first point the body's branch is taken: sixteen times over, four images of the visual features are copied from
  HBM into the staging scratch, waited for, loaded, divided row by row by the larger of the row's Euclidean norm and
  1e-12, and stored as one slab of the kept scratch. The sixteen slabs tile that scratch. The body then normalises the
  text block the same way, multiplies it against each slab of the kept scratch, and stores the 8 × 64 block of pair
  scores; it resets the one-entry accumulator to zero and adds the point's sum of squares to it.

  The run is a subtype: the lists of pieces each written buffer ends with are its witnesses, found by running the body
  symbolically over its parts; nothing the body computes is transcribed here.
-/
import proofs.«143648_j70927089926536_1_alg».proof.Proof.KB.Names

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- On whole staging buffers — the text and mask blocks at their contents, both outputs, both scratch buffers at
    anything, the body's semaphore at zero, the visual features held whole — the body at the first point runs to its end
    holding the inputs as they were, each output and the kept scratch with its pieces written, the staging scratch at
    some contents, the semaphore back at zero and the visual features as they were. -/
noncomputable def kernelRun0_A (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i)
    (x0 : Vec F S8x128x512 .f32) (x1 : Vec F S8x128 .i32) (fh0 : HbBuf0 (F := F) c hbM0) :
    Σ' (L2 : List (View.Piece (Elt F) S8x64 .f32)) (L3 : List (View.Piece (Elt F) S1x1 .f32)), { LS0 : List (View.Piece (Elt F) S64x256x512 .bf16) //
      ∀ (W : Waits sig Unit) (K : PUnit → sProp 𝕄),
        iprop(owns (c : Thread nD τ) arg1 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ semVal ((c : Thread nD τ), SemLoc.dma 7) 0 ∗ hbPt0 c hbM0 fh0 ∗ owes (c : Thread nD τ) 0 W
            ∗ (iprop(owns (c : Thread nD τ) arg1 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ d, owns (c : Thread nD τ) arg7 fullShare d) ∗ semVal ((c : Thread nD τ), SemLoc.dma 7) 0 ∗ hbPt0 c hbM0 fh0 ∗ (∃ W', owes (c : Thread nD τ) 0 W')) -∗ K ⟨⟩))
          ⊢ wp frame (wpE (defs₀ (F := F)) Variants.none c none) Set.univ (cc0__kernel i arg1 harg1 (Memref.whole main_arg1) (Memref.isWhole_whole _) arg3 harg3 arg4 harg4 arg5 harg5 arg6 harg6 arg7 harg7 cc0_scratch2) K } := by
  refine ⟨?_, ?_, ?_, fun W K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hq0, Hh0, HW, Hk⟩
    obtain rfl := harg1.eq_unread hf0; obtain rfl := harg3.eq_unread hf1
    sl_exec_parts (disch := exact hc)
    sl_step
    iapply Hk
    isplitl [H0]
    · iexists _; isplitr; · ipureintro; exact harg1.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]
    · iexists _, _; isplitr; swap; · iexact HS1
      ipureintro; rfl
    isplitl [Hq0]; · iexact Hq0
    isplitl [Hh0]; · iexact Hh0
    iexists _; iexact HW

end Cert.Kernel.Fr

end
-- ==== Proof.KB.RunB.lean ====
/-
  The kernel body at a later grid point, at any float instance.

  After the first point the body's branch is not taken: nothing is copied, and the kept scratch is read as the point
  before left it. The body normalises the text block row by row, multiplies it against each of the sixteen slabs of the
  kept scratch, stores the 8 × 64 block of pair scores, and adds the point's sum of squares to the one-entry accumulator
  it reads back from its output buffer.

  The run is a subtype: the lists of pieces each written buffer ends with are its witnesses, found by running the body
  symbolically over its parts.
-/
import proofs.«143648_j70927089926536_1_alg».proof.Proof.KB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- On whole staging buffers — the text and mask blocks at their contents, the score output at anything, the accumulator
    and the kept scratch at what the point before left, the staging scratch at anything — the body at a later point runs
    to its end holding the inputs and the kept scratch as they were and each output with its pieces written. -/
noncomputable def kernelRun0_B (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i)
    (x0 : Vec F S8x128x512 .f32) (x1 : Vec F S8x128 .i32) (xo3 : Vec F S1x1 .f32) (xs0 : Vec F S64x256x512 .bf16) (fh0 : HbBuf0 (F := F) c hbM0) :
    Σ' (L2 : List (View.Piece (Elt F) S8x64 .f32)), { L3 : List (View.Piece (Elt F) S1x1 .f32) //
      ∀ (W : Waits sig Unit) (K : PUnit → sProp 𝕄),
        iprop(owns (c : Thread nD τ) arg1 fullShare x0 ∗ owns (c : Thread nD τ) arg3 fullShare x1 ∗ (∃ d, owns (c : Thread nD τ) arg4 fullShare d) ∗ owns (c : Thread nD τ) arg5 fullShare xo3 ∗ owns (c : Thread nD τ) arg6 fullShare xs0 ∗ (∃ d, owns (c : Thread nD τ) arg7 fullShare d) ∗ semVal ((c : Thread nD τ), SemLoc.dma 7) 0 ∗ hbPt0 c hbM0 fh0 ∗ owes (c : Thread nD τ) 0 W
            ∗ (iprop(owns (c : Thread nD τ) arg1 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xs0 ∗ (∃ d, owns (c : Thread nD τ) arg7 fullShare d) ∗ semVal ((c : Thread nD τ), SemLoc.dma 7) 0 ∗ hbPt0 c hbM0 fh0 ∗ (∃ W', owes (c : Thread nD τ) 0 W')) -∗ K ⟨⟩))
          ⊢ wp frame (wpE (defs₀ (F := F)) Variants.none c none) Set.univ (cc0__kernel i arg1 harg1 (Memref.whole main_arg1) (Memref.isWhole_whole _) arg3 harg3 arg4 harg4 arg5 harg5 arg6 harg6 arg7 harg7 cc0_scratch2) K } := by
  refine ⟨?_, ?_, fun W K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%f3, %hf3, H3⟩, ⟨%fs0, %hfs0, HS0⟩, ⟨%ds1, %fs1, -, HS1⟩, Hq0, Hh0, HW, Hk⟩
    obtain rfl := harg1.eq_unread hf0; obtain rfl := harg3.eq_unread hf1; obtain rfl := harg5.eq_unread hf3; obtain rfl := harg6.eq_unread hfs0
    sl_exec_parts (disch := exact hc)
    sl_step
    iapply Hk
    isplitl [H0]
    · iexists _; isplitr; · ipureintro; exact harg1.read_unread _
      iexact H0
    isplitl [H1]
    · iexists _; isplitr; · ipureintro; exact harg3.read_unread _
      iexact H1
    isplitl [H2]; · iexists _; iexact H2
    isplitl [H3]; · iexists _; iexact H3
    isplitl [HS0]
    · iexists _; isplitr; · ipureintro; exact harg6.read_unread _
      iexact HS0
    isplitl [HS1]
    · iexists _, _; isplitr; swap; · iexact HS1
      ipureintro; rfl
    isplitl [Hq0]; · iexact Hq0
    isplitl [Hh0]; · iexact Hh0
    iexists _; iexact HW

end Cert.Kernel.Fr

end
-- ==== Proof.KB.Kit.lean ====
/-
  The launch side of the kernel's frame, at any float instance.

  The program is one grid of eight points followed by host operations only. At each point the pipeline stages a block of
  8 × 128 × 512 text features and the matching 8 × 128 block of the mask, and takes back an 8 × 64 block of pair scores
  and the one-entry running sum of squares (written back after the last point only). The visual features stay in HBM:
  at the first point the body copies them, four images at a time, into a staging scratch and from there, normalised,
  into a second scratch that every later point reads.

  This module fixes what the region is entered with (the launch contents: no host operation precedes the region), reduces
  the program to the region followed by its five stretches of host operations, and checks of those stretches what the
  launch theorem asks: they touch no operand the body copies, allocate nothing, and write none of the four staged arrays.
  It names each window's block at a point, reads the three argument arrays back to their launch contents after a run,
  decides the body's one branch condition (the first point) over the grid, and spells the region invariant conjunct by
  conjunct: the two scratch buffers, the generator register, the body's own transfer semaphore at zero, and the visual
  features at their launch contents.
-/
import proofs.«143648_j70927089926536_1_alg».proof.Proof.KB.Names
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around its region -/

/-- The buffers' contents when the region is entered, as a valuation: the launch contents (nothing runs before). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The five stretches of host operations after the region, in order. -/
abbrev tailOps : List (List (HloOp τ sig (Elt F))) := [hostOps1, hostOps1_1, hostOps1_2, hostOps1_3, hostOps1_4]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 8000000 in
/-- The program reduces to the region continued by the later stretches. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [] [hostOps1, hostOps1_1, hostOps1_2, hostOps1_3, hostOps1_4] (by simp only [List.Forall])
    (by simp only [List.Forall]) main_chain

/-- The operand the body copies by its own transfers: the visual features, left in HBM. -/
def H0 : Finset (Ref sig .tc) := {main_arg1}
theorem H0_sub : H0 ⊆ Pipeline.restRefs sig spec0 := by decide

set_option maxHeartbeats 8000000 in
/-- The later stretches touch only unscoped TensorCore buffers, and never the visual features. -/
theorem sfx_but : ∀ ops ∈ ([hostOps1, hostOps1_1, hostOps1_2, hostOps1_3, hostOps1_4] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl | rfl | rfl | rfl | rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_1_sub) op hop) (fun j => j.elim0) ?_
    simp only [hostOps1_1, List.mem_cons, List.mem_nil_iff, or_false] at hop
    rcases hop with rfl | rfl | rfl | rfl | rfl | rfl | rfl | rfl | rfl | rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_2_sub) op hop) (fun j => j.elim0) ?_
    simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_3_sub) op hop) (fun j => j.elim0) ?_
    simp only [hostOps1_3, List.mem_cons, List.mem_nil_iff, or_false] at hop
    rcases hop with rfl | rfl | rfl | rfl | rfl | rfl | rfl | rfl | rfl | rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_4_sub) op hop) (fun j => j.elim0) ?_
    simp only [hostOps1_4, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 8000000 in
/-- And write none of the four staged arrays: each writes its own result buffer only. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The text window's staging buffer holds its block at every point, for any proof data over these contents whose body
    leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the mask window. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

set_option maxHeartbeats 8000000 in
/-- No host operation after the region writes the visual features: they end as launched. -/
theorem W_main_arg1 (dats : (p : Fin 1) → (c : Dev nD) → Dat τ (Elt F) Unit ℕ (Pipeline.UD sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- From a frame run to the frame claim's post: the text and the mask are staged inputs, whose arrays a run leaves as
    it found them; the visual features bypass the pipeline and no later line writes them. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).1 1).trans (((dats 0 c).arrAt_in 1 rfl _).trans ((hA c 1).trans (V_main_arg2 m c)))⟩) h

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0) := by
  rw [Pipeline.ownSems0_eq_of_list c osem0 [0] (by decide) (by decide)]; rfl
theorem hbmPts0_eq (c : Dev nD) :
    (bigSep H0 (fun b => ((c : Thread nD τ).loc b) ↦{fullShare} V m c b) : sProp 𝕄) = iprop(hbPt0 c hbM0 (V m c main_arg1)) := by
  rw [BI.bigSep_eq_bigSepL_of_eq [main_arg1] (by decide) (by decide)]; rfl

/-- The region invariant of a body with transfers of its own, conjunct by conjunct. -/
theorem PhiD0_eq (c : Dev nD) :
    (Pipeline.ΦD osem0 spec0 H0 (V m) c : sProp 𝕄)
      = iprop(iprop((∃ d, owns (c : Thread nD τ) scM0 fullShare d) ∗ (∃ d, owns (c : Thread nD τ) scM1 fullShare d)) ∗ (∃ r, prngReg c r) ∗ iprop(semVal ((c : Thread nD τ), SemLoc.dma 7) 0) ∗ iprop(hbPt0 c hbM0 (V m c main_arg1))) := by
  rw [Pipeline.ΦD_eq, scopedRest0_eq, ownSems00_eq, hbmPts0_eq]; simp only [scM0, scM1, owns_whole]; try rfl

end Cert.Kernel.Fr

end
-- ==== Proof.KB.Frame.lean ====
/-
  The kernel's frame, at any float instance: every weakly fair execution of the program terminates, nothing faults, and
  the three argument arrays end as launched.

  What the buffers hold after each grid point. At the first point the body fills the kept scratch (sixteen slabs tiling
  it), stores the block of pair scores, and writes the accumulator twice (the reset, then the point's sum of squares).
  At every later point the kept scratch is untouched, the block of pair scores is stored whole, and the accumulator is
  what the point before left plus this point's sum of squares: its staging buffer is not written back between points
  (only after the last), so the body finds the previous value there. The contents are recorded point by point
  (`outsAt0`: the score block, the accumulator, the kept scratch), by recursion on the point.

  The region invariant holds, before the first point, the two scratch buffers at anything; after any point, the kept
  scratch at what that point left. Throughout it holds the generator register, the body's own transfer semaphore at
  zero and the visual features whole at their launch contents: each copy of the first point lends a block of them,
  lands in the staging scratch and is waited for before the body goes on.
-/
import proofs.«143648_j70927089926536_1_alg».proof.Proof.KB.RunB
import proofs.«143648_j70927089926536_1_alg».proof.Proof.KB.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each case leaves -/

/-- At the first point the stores into the score block tile it. -/
theorem cover_A_2 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) (y : S8x64.Idx) :
    ∃ pc ∈ (kernelRun0_A c i arg1 harg1 arg3 harg3 arg4 harg4 arg5 harg5 arg6 harg6 arg7 harg7 hc x0 x1 fh0).1, y ∈ pc.1.set :=
  View.cover_of_tiledL (kernelRun0_A c i arg1 harg1 arg3 harg3 arg4 harg4 arg5 harg5 arg6 harg6 arg7 harg7 hc x0 x1 fh0).1 S8x64.size (by sl_kernel_rfl) y
/-- The accumulator's one entry is stored (twice). -/
theorem cover_A_3 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) (y : S1x1.Idx) :
    ∃ pc ∈ (kernelRun0_A c i arg1 harg1 arg3 harg3 arg4 harg4 arg5 harg5 arg6 harg6 arg7 harg7 hc x0 x1 fh0).2.1, y ∈ pc.1.set :=
  View.cover_of_tiledL (kernelRun0_A c i arg1 harg1 arg3 harg3 arg4 harg4 arg5 harg5 arg6 harg6 arg7 harg7 hc x0 x1 fh0).2.1 S1x1.size (by sl_kernel_rfl) y
/-- The sixteen slabs tile the kept scratch. -/
theorem scover_A (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) (y : S64x256x512.Idx) :
    ∃ pc ∈ (kernelRun0_A c i arg1 harg1 arg3 harg3 arg4 harg4 arg5 harg5 arg6 harg6 arg7 harg7 hc x0 x1 fh0).2.2.1, y ∈ pc.1.set :=
  View.cover_of_tiledL (kernelRun0_A c i arg1 harg1 arg3 harg3 arg4 harg4 arg5 harg5 arg6 harg6 arg7 harg7 hc x0 x1 fh0).2.2.1 S4x256x512.size (by sl_kernel_rfl) y

/-- What the first point leaves in the score block's staging buffer. -/
def out_A_2 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) : Vec F S8x64 .f32 :=
  VO2.read (Elt F) (VO2.writes (Elt F) VO2.junk (kernelRun0_A c i arg1 harg1 arg3 harg3 arg4 harg4 arg5 harg5 arg6 harg6 arg7 harg7 hc x0 x1 fh0).1)
/-- What it leaves in the accumulator's. -/
def out_A_3 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) : Vec F S1x1 .f32 :=
  VO3.read (Elt F) (VO3.writes (Elt F) VO3.junk (kernelRun0_A c i arg1 harg1 arg3 harg3 arg4 harg4 arg5 harg5 arg6 harg6 arg7 harg7 hc x0 x1 fh0).2.1)
/-- What it leaves in the kept scratch. -/
def sout_A (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) : Vec F S64x256x512 .bf16 :=
  VS0.read (Elt F) (VS0.writes (Elt F) VS0.junk (kernelRun0_A c i arg1 harg1 arg3 harg3 arg4 harg4 arg5 harg5 arg6 harg6 arg7 harg7 hc x0 x1 fh0).2.2.1)

/-- At a later point the store into the score block covers it. -/
theorem cover_B_2 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i) (x0 : Vec F S8x128x512 .f32) (x1 : Vec F S8x128 .i32) (xo3 : Vec F S1x1 .f32) (xs0 : Vec F S64x256x512 .bf16) (fh0 : HbBuf0 (F := F) c hbM0) (y : S8x64.Idx) :
    ∃ pc ∈ (kernelRun0_B c i arg1 harg1 arg3 harg3 arg4 harg4 arg5 harg5 arg6 harg6 arg7 harg7 hc x0 x1 xo3 xs0 fh0).1, y ∈ pc.1.set :=
  View.cover_of_tiledL (kernelRun0_B c i arg1 harg1 arg3 harg3 arg4 harg4 arg5 harg5 arg6 harg6 arg7 harg7 hc x0 x1 xo3 xs0 fh0).1 S8x64.size (by sl_kernel_rfl) y
/-- The accumulator's one entry is stored. -/
theorem cover_B_3 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i) (x0 : Vec F S8x128x512 .f32) (x1 : Vec F S8x128 .i32) (xo3 : Vec F S1x1 .f32) (xs0 : Vec F S64x256x512 .bf16) (fh0 : HbBuf0 (F := F) c hbM0) (y : S1x1.Idx) :
    ∃ pc ∈ (kernelRun0_B c i arg1 harg1 arg3 harg3 arg4 harg4 arg5 harg5 arg6 harg6 arg7 harg7 hc x0 x1 xo3 xs0 fh0).2.1, y ∈ pc.1.set :=
  View.cover_of_tiledL (kernelRun0_B c i arg1 harg1 arg3 harg3 arg4 harg4 arg5 harg5 arg6 harg6 arg7 harg7 hc x0 x1 xo3 xs0 fh0).2.1 S1x1.size (by sl_kernel_rfl) y

/-- What a later point leaves in the score block's staging buffer. -/
def out_B_2 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i) (x0 : Vec F S8x128x512 .f32) (x1 : Vec F S8x128 .i32) (xo3 : Vec F S1x1 .f32) (xs0 : Vec F S64x256x512 .bf16) (fh0 : HbBuf0 (F := F) c hbM0) : Vec F S8x64 .f32 :=
  VO2.read (Elt F) (VO2.writes (Elt F) VO2.junk (kernelRun0_B c i arg1 harg1 arg3 harg3 arg4 harg4 arg5 harg5 arg6 harg6 arg7 harg7 hc x0 x1 xo3 xs0 fh0).1)
/-- What it leaves in the accumulator's. -/
def out_B_3 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i) (x0 : Vec F S8x128x512 .f32) (x1 : Vec F S8x128 .i32) (xo3 : Vec F S1x1 .f32) (xs0 : Vec F S64x256x512 .bf16) (fh0 : HbBuf0 (F := F) c hbM0) : Vec F S1x1 .f32 :=
  VO3.read (Elt F) (VO3.writes (Elt F) VO3.junk (kernelRun0_B c i arg1 harg1 arg3 harg3 arg4 harg4 arg5 harg5 arg6 harg6 arg7 harg7 hc x0 x1 xo3 xs0 fh0).2.1)

/-! ## What the buffers hold after each point -/

/-- After point `n`: the score block's staging buffer, the accumulator's, and the kept scratch. -/
def outsAt0 (c : Dev nD) : (n : ℕ) → n < cfg0.N → Vec F S8x64 .f32 × Vec F S1x1 .f32 × Vec F S64x256x512 .bf16
  | 0, hn => (out_A_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcond0 ⟨0, hn⟩).mpr rfl) (iblk m c 0 ⟨0, hn⟩) (iblk m c 1 ⟨0, hn⟩) (V m c main_arg1), out_A_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcond0 ⟨0, hn⟩).mpr rfl) (iblk m c 0 ⟨0, hn⟩) (iblk m c 1 ⟨0, hn⟩) (V m c main_arg1), sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcond0 ⟨0, hn⟩).mpr rfl) (iblk m c 0 ⟨0, hn⟩) (iblk m c 1 ⟨0, hn⟩) (V m c main_arg1))
  | n + 1, hn => (out_B_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => Nat.succ_ne_zero n ((hcond0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2 (V m c main_arg1), out_B_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => Nat.succ_ne_zero n ((hcond0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2 (V m c main_arg1), (outsAt0 c n (Nat.lt_of_succ_lt hn)).2.2)

/-- At the first point. -/
theorem outsAt0_zero (c : Dev nD) (t : Fin cfg0.N) (h0 : t.val = 0) :
    outsAt0 m c t.val t.isLt = (out_A_2 c (grid0.coords t) (ms0 t) (hs0 t) (ms1 t) (hs1 t) (ms2 t) (hs2 t) (ms3 t) (hs3 t) scM0 (Memref.isWhole_whole _) scM1 (Memref.isWhole_whole _) ((hcond0 t).mpr h0) (iblk m c 0 t) (iblk m c 1 t) (V m c main_arg1), out_A_3 c (grid0.coords t) (ms0 t) (hs0 t) (ms1 t) (hs1 t) (ms2 t) (hs2 t) (ms3 t) (hs3 t) scM0 (Memref.isWhole_whole _) scM1 (Memref.isWhole_whole _) ((hcond0 t).mpr h0) (iblk m c 0 t) (iblk m c 1 t) (V m c main_arg1), sout_A c (grid0.coords t) (ms0 t) (hs0 t) (ms1 t) (hs1 t) (ms2 t) (hs2 t) (ms3 t) (hs3 t) scM0 (Memref.isWhole_whole _) scM1 (Memref.isWhole_whole _) ((hcond0 t).mpr h0) (iblk m c 0 t) (iblk m c 1 t) (V m c main_arg1)) := by
  obtain ⟨n, hn⟩ := t
  cases n with
  | zero => exact rfl
  | succ n => exact absurd h0 (Nat.succ_ne_zero n)

/-- At a later point, over what the point before left. -/
theorem outsAt0_pos (c : Dev nD) (t : Fin cfg0.N) (h0 : ¬t.val = 0) :
    outsAt0 m c t.val t.isLt = (out_B_2 c (grid0.coords t) (ms0 t) (hs0 t) (ms1 t) (hs1 t) (ms2 t) (hs2 t) (ms3 t) (hs3 t) scM0 (Memref.isWhole_whole _) scM1 (Memref.isWhole_whole _) (fun h => h0 ((hcond0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg1), out_B_3 c (grid0.coords t) (ms0 t) (hs0 t) (ms1 t) (hs1 t) (ms2 t) (hs2 t) (ms3 t) (hs3 t) scM0 (Memref.isWhole_whole _) scM1 (Memref.isWhole_whole _) (fun h => h0 ((hcond0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg1), (outsAt0 m c (t.val - 1) (Nat.lt_of_le_of_lt (Nat.sub_le _ _) t.isLt)).2.2) := by
  obtain ⟨n, hn⟩ := t
  cases n with
  | zero => exact absurd rfl h0
  | succ n => exact rfl

/-- The region invariant before position `n`. -/
def PhiS (c : Dev nD) : (n : ℕ) → n ≤ cfg0.N → sProp 𝕄
  | 0, _ => Pipeline.ΦD osem0 spec0 H0 (V m) c
  | n + 1, hn => iprop(iprop(owns (c : Thread nD τ) scM0 fullShare ((outsAt0 m c n hn).2.2) ∗ (∃ d, owns (c : Thread nD τ) scM1 fullShare d)) ∗ (∃ r, prngReg c r) ∗ iprop(semVal ((c : Thread nD τ), SemLoc.dma 7) 0) ∗ iprop(hbPt0 c hbM0 (V m c main_arg1)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0 fullShare ((outsAt0 m c n hn).2.2) ∗ (∃ d, owns (c : Thread nD τ) scM1 fullShare d)) ∗ (∃ r, prngReg c r) ∗ iprop(semVal ((c : Thread nD τ), SemLoc.dma 7) 0) ∗ iprop(hbPt0 c hbM0 (V m c main_arg1))) := rfl

theorem PhiS_pos (c : Dev nD) (n : ℕ) (h : n ≤ cfg0.N) (hz : n ≠ 0) :
    PhiS m c n h = iprop(iprop(owns (c : Thread nD τ) scM0 fullShare ((outsAt0 m c (n - 1) (by omega)).2.2) ∗ (∃ d, owns (c : Thread nD τ) scM1 fullShare d)) ∗ (∃ r, prngReg c r) ∗ iprop(semVal ((c : Thread nD τ), SemLoc.dma 7) 0) ∗ iprop(hbPt0 c hbM0 (V m c main_arg1))) := by
  cases n with
  | zero => exact absurd rfl hz
  | succ n => rfl

/-! ## The pipeline's proof data -/

/-- The arrays as the region finds them; after the body at a point each input's buffer at its block and the outputs'
    at `outsAt0`'s components; the invariant `PhiS`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- After the first point the accumulator's staging buffer holds what the body left at the point before: it is written
    back only after the last point. -/
theorem before0_3 (c : Dev nD) (t : Fin cfg0.N) (h0 : ¬t.val = 0) (d) :
    (dats m 0 c).before 3 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 3 rfl t h0 (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the case is decided by whether the point is the first; the inputs' buffers hold their blocks,
    the accumulator's holds what the point before left; the invariant hands the body its scratch buffers, semaphore and
    the visual features and takes them back, the kept scratch at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).leavesExact 0 t = owns (c : Thread nD τ) (ms0 t) fullShare ((dats m 0 c).after 0 t) from by
      unfold Dat.leavesExact; rw [liveAt0 0 t], after0_0,
    show (dats m 0 c).leavesExact 1 t = owns (c : Thread nD τ) (ms1 t) fullShare ((dats m 0 c).after 1 t) from by
      unfold Dat.leavesExact; rw [liveAt0 1 t], after0_1,
    show (dats m 0 c).leavesExact 2 t = owns (c : Thread nD τ) (ms2 t) fullShare ((dats m 0 c).after 2 t) from by
      unfold Dat.leavesExact; rw [liveAt0 2 t], after0_2,
    show (dats m 0 c).leavesExact 3 t = owns (c : Thread nD τ) (ms3 t) fullShare ((dats m 0 c).after 3 t) from by
      unfold Dat.leavesExact; rw [liveAt0 3 t], after0_3]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  by_cases hz : t.val = 0
  · rw [outsAt0_zero m c t hz]
    unfold out_A_2 out_A_3 sout_A; (try dsimp only)
    rw [PhiS_castSucc m c t, PhiS_zero m c _ _ hz, PhiD0_eq]
    iintro ⟨⟨⟨HS0, HS1⟩, Hg, Hq0, Hh0⟩, ⟨%W, -, HW⟩, ⟨%d0, H0⟩, ⟨%d1, H1⟩, ⟨%d2, H2⟩, ⟨%d3, H3⟩⟩
    iapply ((kernelRun0_A c (grid0.coords t) _ _ _ _ _ _ _ _ _ _ _ _ ((hcond0 t).mpr hz) (iblk m c 0 t) (iblk m c 1 t) (V m c main_arg1)).2.2.2 W _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [Hq0]; · iexact Hq0
    isplitl [Hh0]; · iexact Hh0
    isplitl [HW]; · iexact HW
    iintro ⟨H0, H1, ⟨%e2, H2⟩, ⟨%e3, H3⟩, ⟨%es0, HS0⟩, HS1, Hq0, Hh0, ⟨%W', HW'⟩⟩
    isplitl [HS0 HS1 Hg Hq0 Hh0]
    · isplitl [HS0 HS1]
      · isplitl [HS0]
        · unfold owns; iexists _; isplitr
          swap; · iexact HS0
          ipureintro; exact View.read_writes_of_cover _ _ _ _ _ (scover_A c _ _ _ _ _ _ _ _ _ _ _ _ _ _ _ _ _)
        iexact HS1
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact View.read_writes_of_cover _ _ _ _ _ (cover_A_2 c _ _ _ _ _ _ _ _ _ _ _ _ _ _ _ _ _)
    unfold owns; iexists _; isplitr
    swap; · iexact H3
    ipureintro; exact View.read_writes_of_cover _ _ _ _ _ (cover_A_3 c _ _ _ _ _ _ _ _ _ _ _ _ _ _ _ _ _)
  · rw [outsAt0_pos m c t hz]
    unfold out_B_2 out_B_3; (try dsimp only)
    simp only [before0_3 m c t hz]
    rw [PhiS_castSucc m c t, PhiS_pos m c _ _ hz]
    iintro ⟨⟨⟨HS0, HS1⟩, Hg, Hq0, Hh0⟩, ⟨%W, -, HW⟩, ⟨%d0, H0⟩, ⟨%d1, H1⟩, ⟨%d2, H2⟩, ⟨%d3, H3⟩⟩
    iapply ((kernelRun0_B c (grid0.coords t) _ _ _ _ _ _ _ _ _ _ _ _ (fun h => hz ((hcond0 t).mp h)) (iblk m c 0 t) (iblk m c 1 t) _ _ (V m c main_arg1)).2.2 W _)
    isplitl [H0]; · iexact H0
    isplitl [H1]; · iexact H1
    isplitl [H2]; · iexists _; iexact H2
    isplitl [H3]; · iexact H3
    isplitl [HS0]; · iexact HS0
    isplitl [HS1]; · iexact HS1
    isplitl [Hq0]; · iexact Hq0
    isplitl [Hh0]; · iexact Hh0
    isplitl [HW]; · iexact HW
    iintro ⟨H0, H1, ⟨%e2, H2⟩, ⟨%e3, H3⟩, HS0, HS1, Hq0, Hh0, ⟨%W', HW'⟩⟩
    isplitl [HS0 HS1 Hg Hq0 Hh0]
    · isplitl [HS0 HS1]
      · isplitl [HS0]; · iexact HS0
        iexact HS1
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact View.read_writes_of_cover _ _ _ _ _ (cover_B_2 c _ _ _ _ _ _ _ _ _ _ _ _ _ _ _ _ _ _ _)
    unfold owns; iexists _; isplitr
    swap; · iexact H3
    ipureintro; exact View.read_writes_of_cover _ _ _ _ _ (cover_B_3 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the kept scratch's contents are forgotten. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiD0_eq]
  iintro ⟨⟨HS0, HS1⟩, Hg, Hq0, Hh0⟩
  isplitl [HS0 HS1]
  · isplitl [HS0]; · iexists _; iexact HS0
    iexact HS1
  isplitl [Hg]; · iexact Hg
  isplitl [Hq0]; · iexact Hq0
  iexact Hh0

/-! ## The run and the frame -/

set_option backward.isDefEq.respectTransparency.types false in
set_option maxHeartbeats 8000000 in
/-- Every weakly fair execution of the program terminates; every final state has each staged array at what the library
    computes from the proof data and every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_but) (hfresh := sfx_fresh) (hkeep := sfx_keeps)
    (hmain := hmain m Variants.none) (hA := A_eq m) (hin := hin m) (hout := hout m)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.KI.Names.lean ====
/-
  Names for what the kernel body is called with, at any float instance: the one branch condition the body tests twice
  (is this the first grid point?), decided over the grid; the fact that no window is ever idle; and, at a point, each
  window's current staging buffer, the two scratch buffers (the normalised visual features kept between points; the
  staging area of the body's own copies), the visual features in HBM, and the body's own transfer semaphore.
-/
import proofs.«143648_j70927089926536_1_alg».proof.Proof.Gen.KernelIdeal.Launch
import proofs.«143648_j70927089926536_1_alg».proof.Proof.Gen.KernelIdeal.Skeleton
import proofs.«143648_j70927089926536_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's branch condition -/

/-- Both conditionals of the body test the same thing: whether the grid coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- No window is idle anywhere. -/
theorem liveAt0 : ∀ (w : Fin cfg0.W) (t : Fin cfg0.N), cfg0.idle w (grid0.coords t) = false := by decide +kernel

/-! ## The memrefs the body is called with -/

abbrev VO2 : View sig .tc .vmem S8x64 .f32 := (Memref.whole cc0_stg2_0 : Memref sig .tc .vmem S8x64 .f32).view
abbrev VO3 : View sig .tc .vmem S1x1 .f32 := (Memref.whole cc0_stg3_0 : Memref sig .tc .vmem S1x1 .f32).view
abbrev ms0 (t : Fin cfg0.N) : Memref sig .tc .vmem S8x128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The normalised visual features, kept between points. -/
abbrev scM0 : Memref sig .tc .vmem S64x256x512 .bf16 := Memref.whole cc0_scratch0
/-- The staging area of the body's own copies. -/
abbrev scM1 : Memref sig .tc .vmem S4x256x512 .f32 := Memref.whole cc0_scratch1
abbrev VS0 : View sig .tc .vmem S64x256x512 .bf16 := scM0.view
/-- The visual features in HBM, whole. -/
abbrev hbM0 : Memref sig .tc .hbm S64x256x512 .f32 := Memref.whole main_arg1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphore: cell 7 of the pool, no window's. -/
abbrev osem0 : Fin 1 → SemLoc sig := fun j => (![SemLoc.dma 7] : Fin 1 → SemLoc sig) j
theorem ownSemFacts0 : Pipeline.OwnSemFacts spec0 osem0 := by decide

end Cert.KernelIdeal.Fr

end
-- ==== Proof.KI.RunA.lean ====
/-
  The kernel body at the first grid point, at any float instance.

  At the first point the body's branch is taken: sixteen times over, four images of the visual features are copied from
  HBM into the staging scratch, waited for, loaded, divided row by row by the larger of the row's Euclidean norm and
  1e-12, and stored as one slab of the kept scratch. The sixteen slabs tile that scratch. The body then normalises the
  text block the same way, multiplies it against each slab of the kept scratch, and stores the 8 × 64 block of pair
  scores; it resets the one-entry accumulator to zero and adds the point's sum of squares to it.

  The run is a subtype: the lists of pieces each written buffer ends with are its witnesses, found by running the body
  symbolically over its parts; nothing the body computes is transcribed here.
-/
import proofs.«143648_j70927089926536_1_alg».proof.Proof.KI.Names

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- On whole staging buffers — the text and mask blocks at their contents, both outputs, both scratch buffers at
    anything, the body's semaphore at zero, the visual features held whole — the body at the first point runs to its end
    holding the inputs as they were, each output and the kept scratch with its pieces written, the staging scratch at
    some contents, the semaphore back at zero and the visual features as they were. -/
noncomputable def kernelRun0_A (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i)
    (x0 : Vec F S8x128x512 .f32) (x1 : Vec F S8x128 .i32) (fh0 : HbBuf0 (F := F) c hbM0) :
    Σ' (L2 : List (View.Piece (Elt F) S8x64 .f32)) (L3 : List (View.Piece (Elt F) S1x1 .f32)), { LS0 : List (View.Piece (Elt F) S64x256x512 .bf16) //
      ∀ (W : Waits sig Unit) (K : PUnit → sProp 𝕄),
        iprop(owns (c : Thread nD τ) arg1 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ semVal ((c : Thread nD τ), SemLoc.dma 7) 0 ∗ hbPt0 c hbM0 fh0 ∗ owes (c : Thread nD τ) 0 W
            ∗ (iprop(owns (c : Thread nD τ) arg1 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ d, owns (c : Thread nD τ) arg7 fullShare d) ∗ semVal ((c : Thread nD τ), SemLoc.dma 7) 0 ∗ hbPt0 c hbM0 fh0 ∗ (∃ W', owes (c : Thread nD τ) 0 W')) -∗ K ⟨⟩))
          ⊢ wp frame (wpE (defs₀ (F := F)) Variants.none c none) Set.univ (cc0__kernel i arg1 harg1 (Memref.whole main_arg1) (Memref.isWhole_whole _) arg3 harg3 arg4 harg4 arg5 harg5 arg6 harg6 arg7 harg7 cc0_scratch2) K } := by
  refine ⟨?_, ?_, ?_, fun W K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hq0, Hh0, HW, Hk⟩
    obtain rfl := harg1.eq_unread hf0; obtain rfl := harg3.eq_unread hf1
    sl_exec_parts (disch := exact hc)
    sl_step
    iapply Hk
    isplitl [H0]
    · iexists _; isplitr; · ipureintro; exact harg1.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]
    · iexists _, _; isplitr; swap; · iexact HS1
      ipureintro; rfl
    isplitl [Hq0]; · iexact Hq0
    isplitl [Hh0]; · iexact Hh0
    iexists _; iexact HW

end Cert.KernelIdeal.Fr

end
-- ==== Proof.KI.RunB.lean ====
/-
  The kernel body at a later grid point, at any float instance.

  After the first point the body's branch is not taken: nothing is copied, and the kept scratch is read as the point
  before left it. The body normalises the text block row by row, multiplies it against each of the sixteen slabs of the
  kept scratch, stores the 8 × 64 block of pair scores, and adds the point's sum of squares to the one-entry accumulator
  it reads back from its output buffer.

  The run is a subtype: the lists of pieces each written buffer ends with are its witnesses, found by running the body
  symbolically over its parts.
-/
import proofs.«143648_j70927089926536_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 16000000 in
/-- On whole staging buffers — the text and mask blocks at their contents, the score output at anything, the accumulator
    and the kept scratch at what the point before left, the staging scratch at anything — the body at a later point runs
    to its end holding the inputs and the kept scratch as they were and each output with its pieces written. -/
noncomputable def kernelRun0_B (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i)
    (x0 : Vec F S8x128x512 .f32) (x1 : Vec F S8x128 .i32) (xo3 : Vec F S1x1 .f32) (xs0 : Vec F S64x256x512 .bf16) (fh0 : HbBuf0 (F := F) c hbM0) :
    Σ' (L2 : List (View.Piece (Elt F) S8x64 .f32)), { L3 : List (View.Piece (Elt F) S1x1 .f32) //
      ∀ (W : Waits sig Unit) (K : PUnit → sProp 𝕄),
        iprop(owns (c : Thread nD τ) arg1 fullShare x0 ∗ owns (c : Thread nD τ) arg3 fullShare x1 ∗ (∃ d, owns (c : Thread nD τ) arg4 fullShare d) ∗ owns (c : Thread nD τ) arg5 fullShare xo3 ∗ owns (c : Thread nD τ) arg6 fullShare xs0 ∗ (∃ d, owns (c : Thread nD τ) arg7 fullShare d) ∗ semVal ((c : Thread nD τ), SemLoc.dma 7) 0 ∗ hbPt0 c hbM0 fh0 ∗ owes (c : Thread nD τ) 0 W
            ∗ (iprop(owns (c : Thread nD τ) arg1 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xs0 ∗ (∃ d, owns (c : Thread nD τ) arg7 fullShare d) ∗ semVal ((c : Thread nD τ), SemLoc.dma 7) 0 ∗ hbPt0 c hbM0 fh0 ∗ (∃ W', owes (c : Thread nD τ) 0 W')) -∗ K ⟨⟩))
          ⊢ wp frame (wpE (defs₀ (F := F)) Variants.none c none) Set.univ (cc0__kernel i arg1 harg1 (Memref.whole main_arg1) (Memref.isWhole_whole _) arg3 harg3 arg4 harg4 arg5 harg5 arg6 harg6 arg7 harg7 cc0_scratch2) K } := by
  refine ⟨?_, ?_, fun W K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%f3, %hf3, H3⟩, ⟨%fs0, %hfs0, HS0⟩, ⟨%ds1, %fs1, -, HS1⟩, Hq0, Hh0, HW, Hk⟩
    obtain rfl := harg1.eq_unread hf0; obtain rfl := harg3.eq_unread hf1; obtain rfl := harg5.eq_unread hf3; obtain rfl := harg6.eq_unread hfs0
    sl_exec_parts (disch := exact hc)
    sl_step
    iapply Hk
    isplitl [H0]
    · iexists _; isplitr; · ipureintro; exact harg1.read_unread _
      iexact H0
    isplitl [H1]
    · iexists _; isplitr; · ipureintro; exact harg3.read_unread _
      iexact H1
    isplitl [H2]; · iexists _; iexact H2
    isplitl [H3]; · iexists _; iexact H3
    isplitl [HS0]
    · iexists _; isplitr; · ipureintro; exact harg6.read_unread _
      iexact HS0
    isplitl [HS1]
    · iexists _, _; isplitr; swap; · iexact HS1
      ipureintro; rfl
    isplitl [Hq0]; · iexact Hq0
    isplitl [Hh0]; · iexact Hh0
    iexists _; iexact HW

end Cert.KernelIdeal.Fr

end
-- ==== Proof.KI.Kit.lean ====
/-
  The launch side of the kernel's frame, at any float instance.

  The program is one grid of eight points followed by host operations only. At each point the pipeline stages a block of
  8 × 128 × 512 text features and the matching 8 × 128 block of the mask, and takes back an 8 × 64 block of pair scores
  and the one-entry running sum of squares (written back after the last point only). The visual features stay in HBM:
  at the first point the body copies them, four images at a time, into a staging scratch and from there, normalised,
  into a second scratch that every later point reads.

  This module fixes what the region is entered with (the launch contents: no host operation precedes the region), reduces
  the program to the region followed by its five stretches of host operations, and checks of those stretches what the
  launch theorem asks: they touch no operand the body copies, allocate nothing, and write none of the four staged arrays.
  It names each window's block at a point, reads the three argument arrays back to their launch contents after a run,
  decides the body's one branch condition (the first point) over the grid, and spells the region invariant conjunct by
  conjunct: the two scratch buffers, the generator register, the body's own transfer semaphore at zero, and the visual
  features at their launch contents.
-/
import proofs.«143648_j70927089926536_1_alg».proof.Proof.KI.Names
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around its region -/

/-- The buffers' contents when the region is entered, as a valuation: the launch contents (nothing runs before). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The five stretches of host operations after the region, in order. -/
abbrev tailOps : List (List (HloOp τ sig (Elt F))) := [hostOps1, hostOps1_1, hostOps1_2, hostOps1_3, hostOps1_4]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 8000000 in
/-- The program reduces to the region continued by the later stretches. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [] [hostOps1, hostOps1_1, hostOps1_2, hostOps1_3, hostOps1_4] (by simp only [List.Forall])
    (by simp only [List.Forall]) main_chain

/-- The operand the body copies by its own transfers: the visual features, left in HBM. -/
def H0 : Finset (Ref sig .tc) := {main_arg1}
theorem H0_sub : H0 ⊆ Pipeline.restRefs sig spec0 := by decide

set_option maxHeartbeats 8000000 in
/-- The later stretches touch only unscoped TensorCore buffers, and never the visual features. -/
theorem sfx_but : ∀ ops ∈ ([hostOps1, hostOps1_1, hostOps1_2, hostOps1_3, hostOps1_4] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl | rfl | rfl | rfl | rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_1_sub) op hop) (fun j => j.elim0) ?_
    simp only [hostOps1_1, List.mem_cons, List.mem_nil_iff, or_false] at hop
    rcases hop with rfl | rfl | rfl | rfl | rfl | rfl | rfl | rfl | rfl | rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_2_sub) op hop) (fun j => j.elim0) ?_
    simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_3_sub) op hop) (fun j => j.elim0) ?_
    simp only [hostOps1_3, List.mem_cons, List.mem_nil_iff, or_false] at hop
    rcases hop with rfl | rfl | rfl | rfl | rfl | rfl | rfl | rfl | rfl | rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_4_sub) op hop) (fun j => j.elim0) ?_
    simp only [hostOps1_4, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- They allocate nothing. -/
theorem sfx_fresh : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 8000000 in
/-- And write none of the four staged arrays: each writes its own result buffer only. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The text window's staging buffer holds its block at every point, for any proof data over these contents whose body
    leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the mask window. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

set_option maxHeartbeats 8000000 in
/-- No host operation after the region writes the visual features: they end as launched. -/
theorem W_main_arg1 (dats : (p : Fin 1) → (c : Dev nD) → Dat τ (Elt F) Unit ℕ (Pipeline.UD sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- From a frame run to the frame claim's post: the text and the mask are staged inputs, whose arrays a run leaves as
    it found them; the visual features bypass the pipeline and no later line writes them. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).1 1).trans (((dats 0 c).arrAt_in 1 rfl _).trans ((hA c 1).trans (V_main_arg2 m c)))⟩) h

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0) := by
  rw [Pipeline.ownSems0_eq_of_list c osem0 [0] (by decide) (by decide)]; rfl
theorem hbmPts0_eq (c : Dev nD) :
    (bigSep H0 (fun b => ((c : Thread nD τ).loc b) ↦{fullShare} V m c b) : sProp 𝕄) = iprop(hbPt0 c hbM0 (V m c main_arg1)) := by
  rw [BI.bigSep_eq_bigSepL_of_eq [main_arg1] (by decide) (by decide)]; rfl

/-- The region invariant of a body with transfers of its own, conjunct by conjunct. -/
theorem PhiD0_eq (c : Dev nD) :
    (Pipeline.ΦD osem0 spec0 H0 (V m) c : sProp 𝕄)
      = iprop(iprop((∃ d, owns (c : Thread nD τ) scM0 fullShare d) ∗ (∃ d, owns (c : Thread nD τ) scM1 fullShare d)) ∗ (∃ r, prngReg c r) ∗ iprop(semVal ((c : Thread nD τ), SemLoc.dma 7) 0) ∗ iprop(hbPt0 c hbM0 (V m c main_arg1))) := by
  rw [Pipeline.ΦD_eq, scopedRest0_eq, ownSems00_eq, hbmPts0_eq]; simp only [scM0, scM1, owns_whole]; try rfl

end Cert.KernelIdeal.Fr

end
-- ==== Proof.KI.Frame.lean ====
/-
  The kernel's frame, at any float instance: every weakly fair execution of the program terminates, nothing faults, and
  the three argument arrays end as launched.

  What the buffers hold after each grid point. At the first point the body fills the kept scratch (sixteen slabs tiling
  it), stores the block of pair scores, and writes the accumulator twice (the reset, then the point's sum of squares).
  At every later point the kept scratch is untouched, the block of pair scores is stored whole, and the accumulator is
  what the point before left plus this point's sum of squares: its staging buffer is not written back between points
  (only after the last), so the body finds the previous value there. The contents are recorded point by point
  (`outsAt0`: the score block, the accumulator, the kept scratch), by recursion on the point.

  The region invariant holds, before the first point, the two scratch buffers at anything; after any point, the kept
  scratch at what that point left. Throughout it holds the generator register, the body's own transfer semaphore at
  zero and the visual features whole at their launch contents: each copy of the first point lends a block of them,
  lands in the staging scratch and is waited for before the body goes on.
-/
import proofs.«143648_j70927089926536_1_alg».proof.Proof.KI.RunB
import proofs.«143648_j70927089926536_1_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each case leaves -/

/-- At the first point the stores into the score block tile it. -/
theorem cover_A_2 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) (y : S8x64.Idx) :
    ∃ pc ∈ (kernelRun0_A c i arg1 harg1 arg3 harg3 arg4 harg4 arg5 harg5 arg6 harg6 arg7 harg7 hc x0 x1 fh0).1, y ∈ pc.1.set :=
  View.cover_of_tiledL (kernelRun0_A c i arg1 harg1 arg3 harg3 arg4 harg4 arg5 harg5 arg6 harg6 arg7 harg7 hc x0 x1 fh0).1 S8x64.size (by sl_kernel_rfl) y
/-- The accumulator's one entry is stored (twice). -/
theorem cover_A_3 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) (y : S1x1.Idx) :
    ∃ pc ∈ (kernelRun0_A c i arg1 harg1 arg3 harg3 arg4 harg4 arg5 harg5 arg6 harg6 arg7 harg7 hc x0 x1 fh0).2.1, y ∈ pc.1.set :=
  View.cover_of_tiledL (kernelRun0_A c i arg1 harg1 arg3 harg3 arg4 harg4 arg5 harg5 arg6 harg6 arg7 harg7 hc x0 x1 fh0).2.1 S1x1.size (by sl_kernel_rfl) y
/-- The sixteen slabs tile the kept scratch. -/
theorem scover_A (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) (y : S64x256x512.Idx) :
    ∃ pc ∈ (kernelRun0_A c i arg1 harg1 arg3 harg3 arg4 harg4 arg5 harg5 arg6 harg6 arg7 harg7 hc x0 x1 fh0).2.2.1, y ∈ pc.1.set :=
  View.cover_of_tiledL (kernelRun0_A c i arg1 harg1 arg3 harg3 arg4 harg4 arg5 harg5 arg6 harg6 arg7 harg7 hc x0 x1 fh0).2.2.1 S4x256x512.size (by sl_kernel_rfl) y

/-- What the first point leaves in the score block's staging buffer. -/
def out_A_2 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) : Vec F S8x64 .f32 :=
  VO2.read (Elt F) (VO2.writes (Elt F) VO2.junk (kernelRun0_A c i arg1 harg1 arg3 harg3 arg4 harg4 arg5 harg5 arg6 harg6 arg7 harg7 hc x0 x1 fh0).1)
/-- What it leaves in the accumulator's. -/
def out_A_3 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) : Vec F S1x1 .f32 :=
  VO3.read (Elt F) (VO3.writes (Elt F) VO3.junk (kernelRun0_A c i arg1 harg1 arg3 harg3 arg4 harg4 arg5 harg5 arg6 harg6 arg7 harg7 hc x0 x1 fh0).2.1)
/-- What it leaves in the kept scratch. -/
def sout_A (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) : Vec F S64x256x512 .bf16 :=
  VS0.read (Elt F) (VS0.writes (Elt F) VS0.junk (kernelRun0_A c i arg1 harg1 arg3 harg3 arg4 harg4 arg5 harg5 arg6 harg6 arg7 harg7 hc x0 x1 fh0).2.2.1)

/-- At a later point the store into the score block covers it. -/
theorem cover_B_2 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i) (x0 : Vec F S8x128x512 .f32) (x1 : Vec F S8x128 .i32) (xo3 : Vec F S1x1 .f32) (xs0 : Vec F S64x256x512 .bf16) (fh0 : HbBuf0 (F := F) c hbM0) (y : S8x64.Idx) :
    ∃ pc ∈ (kernelRun0_B c i arg1 harg1 arg3 harg3 arg4 harg4 arg5 harg5 arg6 harg6 arg7 harg7 hc x0 x1 xo3 xs0 fh0).1, y ∈ pc.1.set :=
  View.cover_of_tiledL (kernelRun0_B c i arg1 harg1 arg3 harg3 arg4 harg4 arg5 harg5 arg6 harg6 arg7 harg7 hc x0 x1 xo3 xs0 fh0).1 S8x64.size (by sl_kernel_rfl) y
/-- The accumulator's one entry is stored. -/
theorem cover_B_3 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i) (x0 : Vec F S8x128x512 .f32) (x1 : Vec F S8x128 .i32) (xo3 : Vec F S1x1 .f32) (xs0 : Vec F S64x256x512 .bf16) (fh0 : HbBuf0 (F := F) c hbM0) (y : S1x1.Idx) :
    ∃ pc ∈ (kernelRun0_B c i arg1 harg1 arg3 harg3 arg4 harg4 arg5 harg5 arg6 harg6 arg7 harg7 hc x0 x1 xo3 xs0 fh0).2.1, y ∈ pc.1.set :=
  View.cover_of_tiledL (kernelRun0_B c i arg1 harg1 arg3 harg3 arg4 harg4 arg5 harg5 arg6 harg6 arg7 harg7 hc x0 x1 xo3 xs0 fh0).2.1 S1x1.size (by sl_kernel_rfl) y

/-- What a later point leaves in the score block's staging buffer. -/
def out_B_2 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i) (x0 : Vec F S8x128x512 .f32) (x1 : Vec F S8x128 .i32) (xo3 : Vec F S1x1 .f32) (xs0 : Vec F S64x256x512 .bf16) (fh0 : HbBuf0 (F := F) c hbM0) : Vec F S8x64 .f32 :=
  VO2.read (Elt F) (VO2.writes (Elt F) VO2.junk (kernelRun0_B c i arg1 harg1 arg3 harg3 arg4 harg4 arg5 harg5 arg6 harg6 arg7 harg7 hc x0 x1 xo3 xs0 fh0).1)
/-- What it leaves in the accumulator's. -/
def out_B_3 (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i) (x0 : Vec F S8x128x512 .f32) (x1 : Vec F S8x128 .i32) (xo3 : Vec F S1x1 .f32) (xs0 : Vec F S64x256x512 .bf16) (fh0 : HbBuf0 (F := F) c hbM0) : Vec F S1x1 .f32 :=
  VO3.read (Elt F) (VO3.writes (Elt F) VO3.junk (kernelRun0_B c i arg1 harg1 arg3 harg3 arg4 harg4 arg5 harg5 arg6 harg6 arg7 harg7 hc x0 x1 xo3 xs0 fh0).2.1)

/-! ## What the buffers hold after each point -/

/-- After point `n`: the score block's staging buffer, the accumulator's, and the kept scratch. -/
def outsAt0 (c : Dev nD) : (n : ℕ) → n < cfg0.N → Vec F S8x64 .f32 × Vec F S1x1 .f32 × Vec F S64x256x512 .bf16
  | 0, hn => (out_A_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcond0 ⟨0, hn⟩).mpr rfl) (iblk m c 0 ⟨0, hn⟩) (iblk m c 1 ⟨0, hn⟩) (V m c main_arg1), out_A_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcond0 ⟨0, hn⟩).mpr rfl) (iblk m c 0 ⟨0, hn⟩) (iblk m c 1 ⟨0, hn⟩) (V m c main_arg1), sout_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcond0 ⟨0, hn⟩).mpr rfl) (iblk m c 0 ⟨0, hn⟩) (iblk m c 1 ⟨0, hn⟩) (V m c main_arg1))
  | n + 1, hn => (out_B_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => Nat.succ_ne_zero n ((hcond0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2 (V m c main_arg1), out_B_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => Nat.succ_ne_zero n ((hcond0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2 (V m c main_arg1), (outsAt0 c n (Nat.lt_of_succ_lt hn)).2.2)

/-- At the first point. -/
theorem outsAt0_zero (c : Dev nD) (t : Fin cfg0.N) (h0 : t.val = 0) :
    outsAt0 m c t.val t.isLt = (out_A_2 c (grid0.coords t) (ms0 t) (hs0 t) (ms1 t) (hs1 t) (ms2 t) (hs2 t) (ms3 t) (hs3 t) scM0 (Memref.isWhole_whole _) scM1 (Memref.isWhole_whole _) ((hcond0 t).mpr h0) (iblk m c 0 t) (iblk m c 1 t) (V m c main_arg1), out_A_3 c (grid0.coords t) (ms0 t) (hs0 t) (ms1 t) (hs1 t) (ms2 t) (hs2 t) (ms3 t) (hs3 t) scM0 (Memref.isWhole_whole _) scM1 (Memref.isWhole_whole _) ((hcond0 t).mpr h0) (iblk m c 0 t) (iblk m c 1 t) (V m c main_arg1), sout_A c (grid0.coords t) (ms0 t) (hs0 t) (ms1 t) (hs1 t) (ms2 t) (hs2 t) (ms3 t) (hs3 t) scM0 (Memref.isWhole_whole _) scM1 (Memref.isWhole_whole _) ((hcond0 t).mpr h0) (iblk m c 0 t) (iblk m c 1 t) (V m c main_arg1)) := by
  obtain ⟨n, hn⟩ := t
  cases n with
  | zero => exact rfl
  | succ n => exact absurd h0 (Nat.succ_ne_zero n)

/-- At a later point, over what the point before left. -/
theorem outsAt0_pos (c : Dev nD) (t : Fin cfg0.N) (h0 : ¬t.val = 0) :
    outsAt0 m c t.val t.isLt = (out_B_2 c (grid0.coords t) (ms0 t) (hs0 t) (ms1 t) (hs1 t) (ms2 t) (hs2 t) (ms3 t) (hs3 t) scM0 (Memref.isWhole_whole _) scM1 (Memref.isWhole_whole _) (fun h => h0 ((hcond0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg1), out_B_3 c (grid0.coords t) (ms0 t) (hs0 t) (ms1 t) (hs1 t) (ms2 t) (hs2 t) (ms3 t) (hs3 t) scM0 (Memref.isWhole_whole _) scM1 (Memref.isWhole_whole _) (fun h => h0 ((hcond0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (V m c main_arg1), (outsAt0 m c (t.val - 1) (Nat.lt_of_le_of_lt (Nat.sub_le _ _) t.isLt)).2.2) := by
  obtain ⟨n, hn⟩ := t
  cases n with
  | zero => exact absurd rfl h0
  | succ n => exact rfl

/-- The region invariant before position `n`. -/
def PhiS (c : Dev nD) : (n : ℕ) → n ≤ cfg0.N → sProp 𝕄
  | 0, _ => Pipeline.ΦD osem0 spec0 H0 (V m) c
  | n + 1, hn => iprop(iprop(owns (c : Thread nD τ) scM0 fullShare ((outsAt0 m c n hn).2.2) ∗ (∃ d, owns (c : Thread nD τ) scM1 fullShare d)) ∗ (∃ r, prngReg c r) ∗ iprop(semVal ((c : Thread nD τ), SemLoc.dma 7) 0) ∗ iprop(hbPt0 c hbM0 (V m c main_arg1)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0 fullShare ((outsAt0 m c n hn).2.2) ∗ (∃ d, owns (c : Thread nD τ) scM1 fullShare d)) ∗ (∃ r, prngReg c r) ∗ iprop(semVal ((c : Thread nD τ), SemLoc.dma 7) 0) ∗ iprop(hbPt0 c hbM0 (V m c main_arg1))) := rfl

theorem PhiS_pos (c : Dev nD) (n : ℕ) (h : n ≤ cfg0.N) (hz : n ≠ 0) :
    PhiS m c n h = iprop(iprop(owns (c : Thread nD τ) scM0 fullShare ((outsAt0 m c (n - 1) (by omega)).2.2) ∗ (∃ d, owns (c : Thread nD τ) scM1 fullShare d)) ∗ (∃ r, prngReg c r) ∗ iprop(semVal ((c : Thread nD τ), SemLoc.dma 7) 0) ∗ iprop(hbPt0 c hbM0 (V m c main_arg1))) := by
  cases n with
  | zero => exact absurd rfl hz
  | succ n => rfl

/-! ## The pipeline's proof data -/

/-- The arrays as the region finds them; after the body at a point each input's buffer at its block and the outputs'
    at `outsAt0`'s components; the invariant `PhiS`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- After the first point the accumulator's staging buffer holds what the body left at the point before: it is written
    back only after the last point. -/
theorem before0_3 (c : Dev nD) (t : Fin cfg0.N) (h0 : ¬t.val = 0) (d) :
    (dats m 0 c).before 3 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 3 rfl t h0 (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the case is decided by whether the point is the first; the inputs' buffers hold their blocks,
    the accumulator's holds what the point before left; the invariant hands the body its scratch buffers, semaphore and
    the visual features and takes them back, the kept scratch at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).leavesExact 0 t = owns (c : Thread nD τ) (ms0 t) fullShare ((dats m 0 c).after 0 t) from by
      unfold Dat.leavesExact; rw [liveAt0 0 t], after0_0,
    show (dats m 0 c).leavesExact 1 t = owns (c : Thread nD τ) (ms1 t) fullShare ((dats m 0 c).after 1 t) from by
      unfold Dat.leavesExact; rw [liveAt0 1 t], after0_1,
    show (dats m 0 c).leavesExact 2 t = owns (c : Thread nD τ) (ms2 t) fullShare ((dats m 0 c).after 2 t) from by
      unfold Dat.leavesExact; rw [liveAt0 2 t], after0_2,
    show (dats m 0 c).leavesExact 3 t = owns (c : Thread nD τ) (ms3 t) fullShare ((dats m 0 c).after 3 t) from by
      unfold Dat.leavesExact; rw [liveAt0 3 t], after0_3]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  by_cases hz : t.val = 0
  · rw [outsAt0_zero m c t hz]
    unfold out_A_2 out_A_3 sout_A; (try dsimp only)
    rw [PhiS_castSucc m c t, PhiS_zero m c _ _ hz, PhiD0_eq]
    iintro ⟨⟨⟨HS0, HS1⟩, Hg, Hq0, Hh0⟩, ⟨%W, -, HW⟩, ⟨%d0, H0⟩, ⟨%d1, H1⟩, ⟨%d2, H2⟩, ⟨%d3, H3⟩⟩
    iapply ((kernelRun0_A c (grid0.coords t) _ _ _ _ _ _ _ _ _ _ _ _ ((hcond0 t).mpr hz) (iblk m c 0 t) (iblk m c 1 t) (V m c main_arg1)).2.2.2 W _)
    isplitl [H0]; · iexact H0
    isplitl [H1]; · iexact H1
    isplitl [H2]; · iexists _; iexact H2
    isplitl [H3]; · iexists _; iexact H3
    isplitl [HS0]; · iexact HS0
    isplitl [HS1]; · iexact HS1
    isplitl [Hq0]; · iexact Hq0
    isplitl [Hh0]; · iexact Hh0
    isplitl [HW]; · iexact HW
    iintro ⟨H0, H1, ⟨%e2, H2⟩, ⟨%e3, H3⟩, ⟨%es0, HS0⟩, HS1, Hq0, Hh0, ⟨%W', HW'⟩⟩
    isplitl [HS0 HS1 Hg Hq0 Hh0]
    · isplitl [HS0 HS1]
      · isplitl [HS0]
        · unfold owns; iexists _; isplitr
          swap; · iexact HS0
          ipureintro; exact View.read_writes_of_cover _ _ _ _ _ (scover_A c _ _ _ _ _ _ _ _ _ _ _ _ _ _ _ _ _)
        iexact HS1
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact View.read_writes_of_cover _ _ _ _ _ (cover_A_2 c _ _ _ _ _ _ _ _ _ _ _ _ _ _ _ _ _)
    unfold owns; iexists _; isplitr
    swap; · iexact H3
    ipureintro; exact View.read_writes_of_cover _ _ _ _ _ (cover_A_3 c _ _ _ _ _ _ _ _ _ _ _ _ _ _ _ _ _)
  · rw [outsAt0_pos m c t hz]
    unfold out_B_2 out_B_3; (try dsimp only)
    simp only [before0_3 m c t hz]
    rw [PhiS_castSucc m c t, PhiS_pos m c _ _ hz]
    iintro ⟨⟨⟨HS0, HS1⟩, Hg, Hq0, Hh0⟩, ⟨%W, -, HW⟩, ⟨%d0, H0⟩, ⟨%d1, H1⟩, ⟨%d2, H2⟩, ⟨%d3, H3⟩⟩
    iapply ((kernelRun0_B c (grid0.coords t) _ _ _ _ _ _ _ _ _ _ _ _ (fun h => hz ((hcond0 t).mp h)) (iblk m c 0 t) (iblk m c 1 t) _ _ (V m c main_arg1)).2.2 W _)
    isplitl [H0]; · iexact H0
    isplitl [H1]; · iexact H1
    isplitl [H2]; · iexists _; iexact H2
    isplitl [H3]; · iexact H3
    isplitl [HS0]; · iexact HS0
    isplitl [HS1]; · iexact HS1
    isplitl [Hq0]; · iexact Hq0
    isplitl [Hh0]; · iexact Hh0
    isplitl [HW]; · iexact HW
    iintro ⟨H0, H1, ⟨%e2, H2⟩, ⟨%e3, H3⟩, HS0, HS1, Hq0, Hh0, ⟨%W', HW'⟩⟩
    isplitl [HS0 HS1 Hg Hq0 Hh0]
    · isplitl [HS0 HS1]
      · isplitl [HS0]; · iexact HS0
        iexact HS1
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact View.read_writes_of_cover _ _ _ _ _ (cover_B_2 c _ _ _ _ _ _ _ _ _ _ _ _ _ _ _ _ _ _ _)
    unfold owns; iexists _; isplitr
    swap; · iexact H3
    ipureintro; exact View.read_writes_of_cover _ _ _ _ _ (cover_B_3 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the kept scratch's contents are forgotten. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiD0_eq]
  iintro ⟨⟨HS0, HS1⟩, Hg, Hq0, Hh0⟩
  isplitl [HS0 HS1]
  · isplitl [HS0]; · iexists _; iexact HS0
    iexact HS1
  isplitl [Hg]; · iexact Hg
  isplitl [Hq0]; · iexact Hq0
  iexact Hh0

/-! ## The run and the frame -/

set_option backward.isDefEq.respectTransparency.types false in
set_option maxHeartbeats 8000000 in
/-- Every weakly fair execution of the program terminates; every final state has each staged array at what the library
    computes from the proof data and every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_but) (hfresh := sfx_fresh) (hkeep := sfx_keeps)
    (hmain := hmain m Variants.none) (hA := A_eq m) (hin := hin m) (hout := hout m)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.KI.Body.lean ====
/-
  Two small functions the body applies once per chunk, named so that the chunks' printed terms can be compared, at any
  float instance.

  `rowSq`: of a 1024 × 1024 array of similarities, each entry clipped to [−20, 0] and squared, summed along its row.
  `tot`: a column of 1024 numbers collapsed to their sum, as a 1 × 1 array.

  The printed text cuts the body into parts of sixty statements, so the sixteen chunks' values come out as differently
  grouped terms; each is one of a few functions applied to the unit token rows, the mask and one slab of the kept
  scratch. The equations below say which, by unfolding alone.
-/
import proofs.«143648_j70927089926536_1_alg».proof.Proof.Gen.KernelIdeal.Skeleton
import Idealize.ShloMosaic.Lib.ValueIdx

noncomputable section

namespace Cert.KernelIdeal.Fr

open Cert.KernelIdeal Cert.KernelIdeal.Gen
open Idealize.ShloMosaic

variable {F : FTy → Type} [FloatOps F]

/-- Row sums of the squares of the entries clipped to [−20, 0]. -/
def rowSq (s : FVec F S1024x1024 .f32) : FVec F S1024 .f32 :=
  have c15 : F .f32 := Scalar.ofBits .f32 0xC1A00000#32
  have c16 : F .f32 := Scalar.ofBits .f32 0x00000000#32
  have v31 : FVec F S1024x1024 .f32 := broadcast S1024x1024 c15
  have v32 : FVec F S1024x1024 .f32 := maximumf v31 s
  have v33 : FVec F S1024x1024 .f32 := broadcast S1024x1024 c16
  have v34 : FVec F S1024x1024 .f32 := minimumf v33 v32
  have v35 : FVec F S1024x1024 .f32 := mulf v34 v34
  multiReduction .add [1] S1024 v35 0x00000000#32 reduces_S1024x1024_S1024 (.inl rfl) rfl

/-- A column of 1024 numbers collapsed to their sum. -/
def tot (r : FVec F S1024 .f32) : FVec F S1x1 .f32 :=
  have v37 : FVec F S1024x1 .f32 := shapeCast S1024x1 r shapeCasts_S1024_S1024x1
  have v38 : FVec F S1 .f32 := multiReduction .add [0] S1 v37 0x00000000#32 reduces_S1024x1_S1 (.inl rfl) rfl
  shapeCast S1x1 v38 shapeCasts_S1_S1x1

/-! ## The first chunk, printed over the loaded text and mask -/

theorem pay26_eq (v3 : Vec F S8x128x512 .f32) (v21 : Vec F S4x256x512 .bf16) :
    k0_pay26 v3 v21 = k0_pay29 (k0_pay22 v3) v21 := rfl
theorem pay27_eq (v3 : Vec F S8x128x512 .f32) (v14 : Vec F S8x128 .i32) (v21 : Vec F S4x256x512 .bf16) :
    k0_pay27 v3 v14 v21 = k0_pay30 (k0_pay22 v3) (k0_pay23 v14) v21 := rfl
theorem pay28_eq (v3 : Vec F S8x128x512 .f32) (v21 : Vec F S4x256x512 .bf16) :
    k0_pay28 v3 v21 = rowSq (k0_pay29 (k0_pay22 v3) v21) := rfl

/-! ## The products: one function -/

theorem pay32_eq : k0_pay32 (F := F) = k0_pay29 (F := F) := rfl
theorem pay35_eq : k0_pay35 (F := F) = k0_pay29 (F := F) := rfl
theorem pay38_eq : k0_pay38 (F := F) = k0_pay29 (F := F) := rfl
theorem pay41_eq : k0_pay41 (F := F) = k0_pay29 (F := F) := rfl
theorem pay44_eq : k0_pay44 (F := F) = k0_pay29 (F := F) := rfl
theorem pay47_eq : k0_pay47 (F := F) = k0_pay29 (F := F) := rfl
theorem pay50_eq : k0_pay50 (F := F) = k0_pay29 (F := F) := rfl
theorem pay53_eq : k0_pay53 (F := F) = k0_pay29 (F := F) := rfl
theorem pay56_eq : k0_pay56 (F := F) = k0_pay29 (F := F) := rfl
theorem pay59_eq : k0_pay59 (F := F) = k0_pay29 (F := F) := rfl
theorem pay62_eq : k0_pay62 (F := F) = k0_pay29 (F := F) := rfl
theorem pay65_eq : k0_pay65 (F := F) = k0_pay29 (F := F) := rfl
theorem pay68_eq : k0_pay68 (F := F) = k0_pay29 (F := F) := rfl
theorem pay71_eq : k0_pay71 (F := F) = k0_pay29 (F := F) := rfl

/-! ## The scores: one function -/

theorem pay33_eq : k0_pay33 (F := F) = k0_pay30 (F := F) := rfl
theorem pay36_eq : k0_pay36 (F := F) = k0_pay30 (F := F) := rfl
theorem pay39_eq : k0_pay39 (F := F) = k0_pay30 (F := F) := rfl
theorem pay42_eq : k0_pay42 (F := F) = k0_pay30 (F := F) := rfl
theorem pay45_eq : k0_pay45 (F := F) = k0_pay30 (F := F) := rfl
theorem pay48_eq : k0_pay48 (F := F) = k0_pay30 (F := F) := rfl
theorem pay51_eq : k0_pay51 (F := F) = k0_pay30 (F := F) := rfl
theorem pay54_eq : k0_pay54 (F := F) = k0_pay30 (F := F) := rfl
theorem pay57_eq : k0_pay57 (F := F) = k0_pay30 (F := F) := rfl
theorem pay60_eq : k0_pay60 (F := F) = k0_pay30 (F := F) := rfl
theorem pay63_eq : k0_pay63 (F := F) = k0_pay30 (F := F) := rfl
theorem pay66_eq : k0_pay66 (F := F) = k0_pay30 (F := F) := rfl
theorem pay69_eq : k0_pay69 (F := F) = k0_pay30 (F := F) := rfl

/-! ## The row sums of clipped squares, and the running total -/

theorem pay34_eq (v13 : FVec F S1024x512 .bf16) (s : Vec F S4x256x512 .bf16) : k0_pay34 v13 s = rowSq (k0_pay29 v13 s) := rfl
theorem pay40_eq (v13 : FVec F S1024x512 .bf16) (s : Vec F S4x256x512 .bf16) : k0_pay40 v13 s = rowSq (k0_pay29 v13 s) := rfl
theorem pay46_eq (v13 : FVec F S1024x512 .bf16) (s : Vec F S4x256x512 .bf16) : k0_pay46 v13 s = rowSq (k0_pay29 v13 s) := rfl
theorem pay52_eq (v13 : FVec F S1024x512 .bf16) (s : Vec F S4x256x512 .bf16) : k0_pay52 v13 s = rowSq (k0_pay29 v13 s) := rfl
theorem pay58_eq (v13 : FVec F S1024x512 .bf16) (s : Vec F S4x256x512 .bf16) : k0_pay58 v13 s = rowSq (k0_pay29 v13 s) := rfl
theorem pay64_eq (v13 : FVec F S1024x512 .bf16) (s : Vec F S4x256x512 .bf16) : k0_pay64 v13 s = rowSq (k0_pay29 v13 s) := rfl
theorem pay70_eq (v13 : FVec F S1024x512 .bf16) (s : Vec F S4x256x512 .bf16) : k0_pay70 v13 s = rowSq (k0_pay29 v13 s) := rfl
theorem pay31_eq (v13 : FVec F S1024x512 .bf16) (acc : FVec F S1x1 .f32) (r : FVec F S1024 .f32) (s : Vec F S4x256x512 .bf16) :
    k0_pay31 v13 acc r s = addf (addf acc (tot r)) (tot (rowSq (k0_pay29 v13 s))) := rfl
theorem pay37_eq (v13 : FVec F S1024x512 .bf16) (acc : FVec F S1x1 .f32) (r : FVec F S1024 .f32) (s : Vec F S4x256x512 .bf16) :
    k0_pay37 v13 acc r s = addf (addf acc (tot r)) (tot (rowSq (k0_pay29 v13 s))) := rfl
theorem pay43_eq (v13 : FVec F S1024x512 .bf16) (acc : FVec F S1x1 .f32) (r : FVec F S1024 .f32) (s : Vec F S4x256x512 .bf16) :
    k0_pay43 v13 acc r s = addf (addf acc (tot r)) (tot (rowSq (k0_pay29 v13 s))) := rfl
theorem pay49_eq (v13 : FVec F S1024x512 .bf16) (acc : FVec F S1x1 .f32) (r : FVec F S1024 .f32) (s : Vec F S4x256x512 .bf16) :
    k0_pay49 v13 acc r s = addf (addf acc (tot r)) (tot (rowSq (k0_pay29 v13 s))) := rfl
theorem pay55_eq (v13 : FVec F S1024x512 .bf16) (acc : FVec F S1x1 .f32) (r : FVec F S1024 .f32) (s : Vec F S4x256x512 .bf16) :
    k0_pay55 v13 acc r s = addf (addf acc (tot r)) (tot (rowSq (k0_pay29 v13 s))) := rfl
theorem pay61_eq (v13 : FVec F S1024x512 .bf16) (acc : FVec F S1x1 .f32) (r : FVec F S1024 .f32) (s : Vec F S4x256x512 .bf16) :
    k0_pay61 v13 acc r s = addf (addf acc (tot r)) (tot (rowSq (k0_pay29 v13 s))) := rfl
theorem pay67_eq (v13 : FVec F S1024x512 .bf16) (acc : FVec F S1x1 .f32) (r : FVec F S1024 .f32) (s : Vec F S4x256x512 .bf16) :
    k0_pay67 v13 acc r s = addf (addf acc (tot r)) (tot (rowSq (k0_pay29 v13 s))) := rfl
theorem pay73_eq (acc : FVec F S1x1 .f32) (r : FVec F S1024 .f32) (s : FVec F S1024x1024 .f32) :
    k0_pay73 acc r s = addf (addf acc (tot r)) (tot (rowSq s)) := rfl

/-! ## The slabs of the kept scratch: one function -/

theorem pay4_3_eq (x : Vec F S4x256x512 .f32) : k0_pay4 (k0_pay3 x) = k0_pay2 x := rfl

/-! ## A whole block, over the loaded text, the loaded mask and the kept scratch -/

/-- Slab c of the kept scratch: images 4·c … 4·c + 3. -/
def slabOf (cache : Vec F S64x256x512 .bf16) (c : Fin 16) : Vec F S4x256x512 .bf16 :=
  fun y => cache (ValueIdx.ix3 (⟨4 * c.val + (y 0).val, by have : (y 0).val < 4 := (y 0).isLt; omega⟩ : Fin 64) (y 1) (y 2))

/-- The block of pair scores the body stores at a point: the sixteen chunks' scores side by side, each row over its
    sentence's floored token count. -/
def blockScores (x0 : Vec F S8x128x512 .f32) (x1 : Vec F S8x128 .i32) (cache : Vec F S64x256x512 .bf16) : FVec F S8x64 .f32 :=
  k0_pay75 (k0_pay24 x1) (k0_pay74
      (k0_pay30 (k0_pay22 x0) (k0_pay23 x1) (slabOf cache 0))
      (k0_pay30 (k0_pay22 x0) (k0_pay23 x1) (slabOf cache 1))
      (k0_pay30 (k0_pay22 x0) (k0_pay23 x1) (slabOf cache 2))
      (k0_pay30 (k0_pay22 x0) (k0_pay23 x1) (slabOf cache 3))
      (k0_pay30 (k0_pay22 x0) (k0_pay23 x1) (slabOf cache 4))
      (k0_pay30 (k0_pay22 x0) (k0_pay23 x1) (slabOf cache 5))
      (k0_pay30 (k0_pay22 x0) (k0_pay23 x1) (slabOf cache 6))
      (k0_pay30 (k0_pay22 x0) (k0_pay23 x1) (slabOf cache 7))
      (k0_pay30 (k0_pay22 x0) (k0_pay23 x1) (slabOf cache 8))
      (k0_pay30 (k0_pay22 x0) (k0_pay23 x1) (slabOf cache 9))
      (k0_pay30 (k0_pay22 x0) (k0_pay23 x1) (slabOf cache 10))
      (k0_pay30 (k0_pay22 x0) (k0_pay23 x1) (slabOf cache 11))
      (k0_pay30 (k0_pay22 x0) (k0_pay23 x1) (slabOf cache 12))
      (k0_pay30 (k0_pay22 x0) (k0_pay23 x1) (slabOf cache 13))
      (k0_pay30 (k0_pay22 x0) (k0_pay23 x1) (slabOf cache 14))
      (k0_pay72 (k0_pay23 x1) (k0_pay29 (k0_pay22 x0) (slabOf cache 15))))

/-- The point's sum of clipped squares: the sixteen chunks' totals added one after the other onto zero. -/
def blockSq (x0 : Vec F S8x128x512 .f32) (cache : Vec F S64x256x512 .bf16) : FVec F S1x1 .f32 :=
  (addf (addf (addf (addf (addf (addf (addf (addf (addf (addf (addf (addf (addf (addf (addf (addf k0_pay25 (tot (rowSq (k0_pay29 (k0_pay22 x0) (slabOf cache 0))))) (tot (rowSq (k0_pay29 (k0_pay22 x0) (slabOf cache 1))))) (tot (rowSq (k0_pay29 (k0_pay22 x0) (slabOf cache 2))))) (tot (rowSq (k0_pay29 (k0_pay22 x0) (slabOf cache 3))))) (tot (rowSq (k0_pay29 (k0_pay22 x0) (slabOf cache 4))))) (tot (rowSq (k0_pay29 (k0_pay22 x0) (slabOf cache 5))))) (tot (rowSq (k0_pay29 (k0_pay22 x0) (slabOf cache 6))))) (tot (rowSq (k0_pay29 (k0_pay22 x0) (slabOf cache 7))))) (tot (rowSq (k0_pay29 (k0_pay22 x0) (slabOf cache 8))))) (tot (rowSq (k0_pay29 (k0_pay22 x0) (slabOf cache 9))))) (tot (rowSq (k0_pay29 (k0_pay22 x0) (slabOf cache 10))))) (tot (rowSq (k0_pay29 (k0_pay22 x0) (slabOf cache 11))))) (tot (rowSq (k0_pay29 (k0_pay22 x0) (slabOf cache 12))))) (tot (rowSq (k0_pay29 (k0_pay22 x0) (slabOf cache 13))))) (tot (rowSq (k0_pay29 (k0_pay22 x0) (slabOf cache 14))))) (tot (rowSq (k0_pay29 (k0_pay22 x0) (slabOf cache 15)))))

end Cert.KernelIdeal.Fr

end
-- ==== Proof.KI.Pieces.lean ====
/-
  What the run's pieces ARE, at any float instance.

  The body's run was found as lists of stored pieces over named loads. Read back, they are the compositions this module
  names: the score block is `blockScores` of the loaded text block, the loaded mask block and the kept scratch; the
  accumulator is the previous value (zero at the first point) plus `blockSq` of the text block and the kept scratch;
  and the kept scratch after the first point is `cacheOf` of the visual features: slab c holds the unit patch rows of
  images 4·c … 4·c + 3. At the first point the body reads each slab back right after storing it, so the same
  composition results with the kept scratch at `cacheOf`.
-/
import proofs.«143648_j70927089926536_1_alg».proof.Proof.KI.Frame
import proofs.«143648_j70927089926536_1_alg».proof.Proof.KI.Body
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]

/-- Slab c of the visual features: images 4·c … 4·c + 3. -/
def slabIn (fh : Vec F S64x256x512 .f32) (c : Fin 16) : Vec F S4x256x512 .f32 :=
  fun y => fh (ValueIdx.ix3 (⟨4 * c.val + (y 0).val, by have : (y 0).val < 4 := (y 0).isLt; omega⟩ : Fin 64) (y 1) (y 2))

/-- The kept scratch after the first point: each slab the normalised slab of the visual features. -/
def cacheOf (fh : Vec F S64x256x512 .f32) : Vec F S64x256x512 .bf16 :=
  View.canon [
      (⟨Rect.unit (s := S64x256x512) ![60, 0, 0] S4x256x512.size inb_S64x256x512_S4x256x512_60_0_0, k0_pay2 (slabIn fh 15)⟩ : View.Piece (Elt F) S64x256x512 .bf16),
      (⟨Rect.unit (s := S64x256x512) ![56, 0, 0] S4x256x512.size inb_S64x256x512_S4x256x512_56_0_0, k0_pay2 (slabIn fh 14)⟩ : View.Piece (Elt F) S64x256x512 .bf16),
      (⟨Rect.unit (s := S64x256x512) ![52, 0, 0] S4x256x512.size inb_S64x256x512_S4x256x512_52_0_0, k0_pay2 (slabIn fh 13)⟩ : View.Piece (Elt F) S64x256x512 .bf16),
      (⟨Rect.unit (s := S64x256x512) ![48, 0, 0] S4x256x512.size inb_S64x256x512_S4x256x512_48_0_0, k0_pay2 (slabIn fh 12)⟩ : View.Piece (Elt F) S64x256x512 .bf16),
      (⟨Rect.unit (s := S64x256x512) ![44, 0, 0] S4x256x512.size inb_S64x256x512_S4x256x512_44_0_0, k0_pay2 (slabIn fh 11)⟩ : View.Piece (Elt F) S64x256x512 .bf16),
      (⟨Rect.unit (s := S64x256x512) ![40, 0, 0] S4x256x512.size inb_S64x256x512_S4x256x512_40_0_0, k0_pay2 (slabIn fh 10)⟩ : View.Piece (Elt F) S64x256x512 .bf16),
      (⟨Rect.unit (s := S64x256x512) ![36, 0, 0] S4x256x512.size inb_S64x256x512_S4x256x512_36_0_0, k0_pay2 (slabIn fh 9)⟩ : View.Piece (Elt F) S64x256x512 .bf16),
      (⟨Rect.unit (s := S64x256x512) ![32, 0, 0] S4x256x512.size inb_S64x256x512_S4x256x512_32_0_0, k0_pay2 (slabIn fh 8)⟩ : View.Piece (Elt F) S64x256x512 .bf16),
      (⟨Rect.unit (s := S64x256x512) ![28, 0, 0] S4x256x512.size inb_S64x256x512_S4x256x512_28_0_0, k0_pay2 (slabIn fh 7)⟩ : View.Piece (Elt F) S64x256x512 .bf16),
      (⟨Rect.unit (s := S64x256x512) ![24, 0, 0] S4x256x512.size inb_S64x256x512_S4x256x512_24_0_0, k0_pay2 (slabIn fh 6)⟩ : View.Piece (Elt F) S64x256x512 .bf16),
      (⟨Rect.unit (s := S64x256x512) ![20, 0, 0] S4x256x512.size inb_S64x256x512_S4x256x512_20_0_0, k0_pay2 (slabIn fh 5)⟩ : View.Piece (Elt F) S64x256x512 .bf16),
      (⟨Rect.unit (s := S64x256x512) ![16, 0, 0] S4x256x512.size inb_S64x256x512_S4x256x512_16_0_0, k0_pay2 (slabIn fh 4)⟩ : View.Piece (Elt F) S64x256x512 .bf16),
      (⟨Rect.unit (s := S64x256x512) ![12, 0, 0] S4x256x512.size inb_S64x256x512_S4x256x512_12_0_0, k0_pay2 (slabIn fh 3)⟩ : View.Piece (Elt F) S64x256x512 .bf16),
      (⟨Rect.unit (s := S64x256x512) ![8, 0, 0] S4x256x512.size inb_S64x256x512_S4x256x512_8_0_0, k0_pay2 (slabIn fh 2)⟩ : View.Piece (Elt F) S64x256x512 .bf16),
      (⟨Rect.unit (s := S64x256x512) ![4, 0, 0] S4x256x512.size inb_S64x256x512_S4x256x512_4_0_0, k0_pay2 (slabIn fh 1)⟩ : View.Piece (Elt F) S64x256x512 .bf16),
      (⟨Rect.unit (s := S64x256x512) ![0, 0, 0] S4x256x512.size inb_S64x256x512_S4x256x512_0_0_0, k0_pay2 (slabIn fh 0)⟩ : View.Piece (Elt F) S64x256x512 .bf16)]

/-- The kept scratch as one function of the index: entry (j, l, d) is entry (j mod 4, l, d) of the normalised slab
    j / 4 of the visual features. -/
private def cacheFn (fh : Vec F S64x256x512 .f32) : Vec F S64x256x512 .bf16 := fun y =>
  k0_pay2 (slabIn fh (⟨(y 0).val / 4, by have h : (y 0).val < 64 := (y 0).isLt; omega⟩ : Fin 16))
    (ValueIdx.ix3 (⟨(y 0).val % 4, Nat.mod_lt _ (by decide)⟩ : Fin 4) (y 1) (y 2))

/-- At image 4·c + y₀ that function reads slab c at y₀. -/
private theorem cacheFn_ix (fh : Vec F S64x256x512 .f32) (c : Fin 16) (y : S4x256x512.Idx)
    (h : 4 * c.val + (y 0).val < 64) :
    cacheFn fh (ValueIdx.ix3 (⟨4 * c.val + (y 0).val, h⟩ : Fin 64) (y 1) (y 2)) = k0_pay2 (slabIn fh c) y := by
  have hy : (y 0).val < 4 := (y 0).isLt
  have hc := c.isLt
  have e1 : ∀ (a : Fin 16) (b : S4x256x512.Idx), a = c → b = y →
      k0_pay2 (slabIn fh a) b = k0_pay2 (slabIn fh c) y := by
    intro a b ha hb; rw [ha, hb]
  unfold cacheFn
  exact e1 _ _ (Fin.ext (by show (4 * c.val + (y 0).val) / 4 = c.val; omega))
    (funext fun a => Fin.ext (by
      match a with
      | ⟨0, _⟩ => show (4 * c.val + (y 0).val) % 4 = (y 0).val; omega
      | ⟨1, _⟩ => rfl
      | ⟨2, _⟩ => rfl))

/-- Through the rectangle of images 4·c … 4·c + 3 it is the normalised slab c. -/
private theorem cacheFn_emb (fh : Vec F S64x256x512 .f32) (c : Fin 16) (off : Fin S64x256x512.rank → ℕ)
    (hoff : off = ![4 * c.val, 0, 0]) (inb : ∀ a, off a + S4x256x512.size a ≤ S64x256x512.size a) (x : S4x256x512.Idx) :
    cacheFn fh ((Rect.unit (s := S64x256x512) off S4x256x512.size inb).emb x) = k0_pay2 (slabIn fh c) x := by
  subst hoff
  have hx : (x 0).val < 4 := (x 0).isLt
  have hc := c.isLt
  have e : (Rect.unit (s := S64x256x512) ![4 * c.val, 0, 0] S4x256x512.size inb).emb x
      = ValueIdx.ix3 (⟨4 * c.val + (x 0).val, by omega⟩ : Fin 64) (x 1) (x 2) := by
    funext a
    apply Fin.ext
    match a with
    | ⟨0, _⟩ => show 4 * c.val + 1 * (x 0).val = 4 * c.val + (x 0).val; omega
    | ⟨1, _⟩ => show 0 + 1 * (x 1).val = (x 1).val; omega
    | ⟨2, _⟩ => show 0 + 1 * (x 2).val = (x 2).val; omega
  rw [e]
  exact cacheFn_ix fh c x _

/-- The sixteen stored slabs tile the kept scratch, so it is that function everywhere. -/
private theorem cacheOf_apply (fh : Vec F S64x256x512 .f32) (y : S64x256x512.Idx) : cacheOf fh y = cacheFn fh y := by
  unfold cacheOf
  refine View.canon_apply_of_pieces (cacheFn fh) _ (fun p hp => ?_) y
    (View.cover_of_tiledL (s := S64x256x512) _ S4x256x512.size (by sl_kernel_rfl) y)
  simp only [List.mem_cons, List.mem_nil_iff, or_false] at hp
  rcases hp with rfl | rfl | rfl | rfl | rfl | rfl | rfl | rfl | rfl | rfl | rfl | rfl | rfl | rfl | rfl | rfl
  all_goals intro x
  · exact (cacheFn_emb fh 15 ![60, 0, 0] rfl inb_S64x256x512_S4x256x512_60_0_0 x).symm
  · exact (cacheFn_emb fh 14 ![56, 0, 0] rfl inb_S64x256x512_S4x256x512_56_0_0 x).symm
  · exact (cacheFn_emb fh 13 ![52, 0, 0] rfl inb_S64x256x512_S4x256x512_52_0_0 x).symm
  · exact (cacheFn_emb fh 12 ![48, 0, 0] rfl inb_S64x256x512_S4x256x512_48_0_0 x).symm
  · exact (cacheFn_emb fh 11 ![44, 0, 0] rfl inb_S64x256x512_S4x256x512_44_0_0 x).symm
  · exact (cacheFn_emb fh 10 ![40, 0, 0] rfl inb_S64x256x512_S4x256x512_40_0_0 x).symm
  · exact (cacheFn_emb fh 9 ![36, 0, 0] rfl inb_S64x256x512_S4x256x512_36_0_0 x).symm
  · exact (cacheFn_emb fh 8 ![32, 0, 0] rfl inb_S64x256x512_S4x256x512_32_0_0 x).symm
  · exact (cacheFn_emb fh 7 ![28, 0, 0] rfl inb_S64x256x512_S4x256x512_28_0_0 x).symm
  · exact (cacheFn_emb fh 6 ![24, 0, 0] rfl inb_S64x256x512_S4x256x512_24_0_0 x).symm
  · exact (cacheFn_emb fh 5 ![20, 0, 0] rfl inb_S64x256x512_S4x256x512_20_0_0 x).symm
  · exact (cacheFn_emb fh 4 ![16, 0, 0] rfl inb_S64x256x512_S4x256x512_16_0_0 x).symm
  · exact (cacheFn_emb fh 3 ![12, 0, 0] rfl inb_S64x256x512_S4x256x512_12_0_0 x).symm
  · exact (cacheFn_emb fh 2 ![8, 0, 0] rfl inb_S64x256x512_S4x256x512_8_0_0 x).symm
  · exact (cacheFn_emb fh 1 ![4, 0, 0] rfl inb_S64x256x512_S4x256x512_4_0_0 x).symm
  · exact (cacheFn_emb fh 0 ![0, 0, 0] rfl inb_S64x256x512_S4x256x512_0_0_0 x).symm

/-- Slab c of the kept scratch is the normalised slab c of the visual features. -/
theorem slabOf_cacheOf (fh : Vec F S64x256x512 .f32) (c : Fin 16) : slabOf (cacheOf fh) c = k0_pay2 (slabIn fh c) := by
  funext y
  have hy : (y 0).val < 4 := (y 0).isLt
  have hc := c.isLt
  unfold slabOf
  rw [cacheOf_apply]
  exact cacheFn_ix fh c y _

theorem hz2 : (![0, 0] : Fin 2 → ℕ) = fun _ => 0 := by funext a; fin_cases a <;> rfl
theorem hz3 : (![0, 0, 0] : Fin 3 → ℕ) = fun _ => 0 := by funext a; fin_cases a <;> rfl

/-- A read of the kept scratch through the rectangle of images 4·c … 4·c + 3 is its slab c. -/
theorem ld_slab (cache : Vec F S64x256x512 .bf16) (c : Fin 16) (off : Fin S64x256x512.rank → ℕ) (hoff : off = ![4 * c.val, 0, 0])
    (inb : ∀ a, off a + S4x256x512.size a ≤ S64x256x512.size a) :
    View.ld cache (Rect.unit (s := S64x256x512) off S4x256x512.size inb) = slabOf cache c := by
  subst hoff
  funext y
  show cache ((Rect.unit (s := S64x256x512) ![4 * c.val, 0, 0] S4x256x512.size inb).idx y) = cache (ValueIdx.ix3 _ (y 1) (y 2))
  congr 1
  funext a
  apply Fin.ext
  match a with
  | ⟨0, _⟩ => show 4 * c.val + 1 * (y 0).val = 4 * c.val + (y 0).val; omega
  | ⟨1, _⟩ => show 0 + 1 * (y 1).val = (y 1).val; omega
  | ⟨2, _⟩ => show 0 + 1 * (y 2).val = (y 2).val; omega

/-- A covered read through the whole buffer, when the last delivery was the whole buffer, reads that delivery. -/
theorem readCov_whole_head {sig' : RefSig} {κ' : Kind} {sp' : Space} {S : Shape} {e : EltTy} (v : View sig' κ' sp' S e)
    (w : S.Idx → Elt F e) (L : List (View.Piece (Elt F) S e)) {off : Fin S.rank → ℕ} (h : off = fun _ => 0)
    (inb : ∀ a, off a + S.size a ≤ S.size a) :
    v.readCov ((⟨Rect.whole S, w⟩ : View.Piece (Elt F) S e) :: L) (Rect.unit off S.size inb).toLoadRect = w := by
  subst h
  exact View.readCov_cons_toLoadRect v (Rect.whole S) w L

/-- A read of the visual features through the slice of images 4·c … 4·c + 3 is their slab c. -/
theorem read_hbm_slab {c' : Dev nD} (fh : HbBuf0 (F := F) c' hbM0) (c : Fin 16) (off : Fin S64x256x512.rank → ℕ) (hoff : off = ![4 * c.val, 0, 0])
    (inb : ∀ a, off a + S4x256x512.size a ≤ S64x256x512.size a) :
    View.read (Elt F) ((Memref.whole main_arg1 : Memref sig .tc .hbm S64x256x512 .f32).slice (Rect.unit (s := S64x256x512) off S4x256x512.size inb) (fun _ => rfl)).view fh
      = slabIn fh c := by
  subst hoff
  funext y
  show (fh : Vec F S64x256x512 .f32) ((Rect.unit (s := S64x256x512) ![4 * c.val, 0, 0] S4x256x512.size inb).emb y) = (fh : Vec F S64x256x512 .f32) (ValueIdx.ix3 _ (y 1) (y 2))
  congr 1
  funext a
  apply Fin.ext
  match a with
  | ⟨0, _⟩ => show 4 * c.val + 1 * (y 0).val = 4 * c.val + (y 0).val; omega
  | ⟨1, _⟩ => show 0 + 1 * (y 1).val = (y 1).val; omega
  | ⟨2, _⟩ => show 0 + 1 * (y 2).val = (y 2).val; omega

/-- A read of the kept scratch, after stores into it, through the rectangle of images 4·c … 4·c + 3 is slab c of what the
    stores leave. -/
theorem readCov_slab {sig' : RefSig} {κ' : Kind} {sp' : Space} (v : View sig' κ' sp' S64x256x512 .bf16)
    (L : List (View.Piece (Elt F) S64x256x512 .bf16)) (c : Fin 16) (off : Fin S64x256x512.rank → ℕ) (hoff : off = ![4 * c.val, 0, 0])
    (inb : ∀ a, off a + S4x256x512.size a ≤ S64x256x512.size a) :
    v.readCov L (Rect.unit (s := S64x256x512) off S4x256x512.size inb).toLoadRect = slabOf (View.canon L) c := by
  rw [View.readCov_eq_canon']
  exact ld_slab (View.canon L) c off hoff inb

/-! The sixteen stored slabs are one function of the loaded slab, however the printed text groups it. -/
theorem slab5_eq : k0_pay5 (F := F) = k0_pay2 (F := F) := rfl
theorem slab8_eq : k0_pay8 (F := F) = k0_pay2 (F := F) := rfl
theorem slab11_eq : k0_pay11 (F := F) = k0_pay2 (F := F) := rfl
theorem slab14_eq : k0_pay14 (F := F) = k0_pay2 (F := F) := rfl
theorem slab15_eq : k0_pay15 (F := F) = k0_pay2 (F := F) := rfl
theorem slab16_eq : k0_pay16 (F := F) = k0_pay2 (F := F) := rfl
theorem slab17_eq : k0_pay17 (F := F) = k0_pay2 (F := F) := rfl
theorem slab18_eq : k0_pay18 (F := F) = k0_pay2 (F := F) := rfl
theorem slab19_eq : k0_pay19 (F := F) = k0_pay2 (F := F) := rfl
theorem slab20_eq : k0_pay20 (F := F) = k0_pay2 (F := F) := rfl
theorem slab21_eq : k0_pay21 (F := F) = k0_pay2 (F := F) := rfl
theorem slab4_3_eq (x : Vec F S4x256x512 .f32) : k0_pay4 (k0_pay3 x) = k0_pay2 x := rfl
theorem slab7_6_eq (x : Vec F S4x256x512 .f32) : k0_pay7 (k0_pay6 x) = k0_pay2 x := rfl
theorem slab10_9_eq (x : Vec F S4x256x512 .f32) : k0_pay10 x (k0_pay9 x) (Scalar.ofBits .f32 0x2B8CBCCC#32) = k0_pay2 x := rfl
theorem slab13_12_eq (x : Vec F S4x256x512 .f32) : k0_pay13 x (k0_pay12 x) = k0_pay2 x := rfl

/-- The accumulator after a point: the value before, re-laid, plus the point's sum of squares. -/
def accNext (prev : Vec F S1x1 .f32) (sq : FVec F S1x1 .f32) : FVec F S1x1 .f32 := k0_pay1 sq (k0_pay77 prev)

/-! ## A later point -/

theorem out_B_2_eq (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i) (x0 : Vec F S8x128x512 .f32) (x1 : Vec F S8x128 .i32) (xo3 : Vec F S1x1 .f32) (xs0 : Vec F S64x256x512 .bf16) (fh0 : HbBuf0 (F := F) c hbM0) :
    out_B_2 c i arg1 harg1 arg3 harg3 arg4 harg4 arg5 harg5 arg6 harg6 arg7 harg7 hc x0 x1 xo3 xs0 fh0 = blockScores x0 x1 xs0 := by
  unfold out_B_2
  rw [View.read_writes_eq_canon _ _ _ (cover_B_2 c i arg1 harg1 arg3 harg3 arg4 harg4 arg5 harg5 arg6 harg6 arg7 harg7 hc x0 x1 xo3 xs0 fh0)]
  unfold kernelRun0_B
  dsimp only
  sl_unfold_words
  rw [View.canon_unit_zero hz2]
  simp only [View.readAt_eq_ld, harg1.read_unread, harg3.read_unread, harg6.read_unread,
    View.ld_unit_zero (S := S8x128x512) hz3, View.ld_unit_zero (S := S8x128) hz2]
  rw [ld_slab xs0 0 ![0, 0, 0] rfl, ld_slab xs0 1 ![4, 0, 0] rfl, ld_slab xs0 2 ![8, 0, 0] rfl, ld_slab xs0 3 ![12, 0, 0] rfl, ld_slab xs0 4 ![16, 0, 0] rfl, ld_slab xs0 5 ![20, 0, 0] rfl, ld_slab xs0 6 ![24, 0, 0] rfl, ld_slab xs0 7 ![28, 0, 0] rfl, ld_slab xs0 8 ![32, 0, 0] rfl, ld_slab xs0 9 ![36, 0, 0] rfl, ld_slab xs0 10 ![40, 0, 0] rfl, ld_slab xs0 11 ![44, 0, 0] rfl, ld_slab xs0 12 ![48, 0, 0] rfl, ld_slab xs0 13 ![52, 0, 0] rfl, ld_slab xs0 14 ![56, 0, 0] rfl, ld_slab xs0 15 ![60, 0, 0] rfl]
  simp only [pay26_eq, pay27_eq, pay28_eq, pay32_eq, pay35_eq, pay38_eq, pay41_eq, pay44_eq, pay47_eq, pay50_eq, pay53_eq, pay56_eq, pay59_eq, pay62_eq, pay65_eq, pay68_eq, pay71_eq, pay33_eq, pay36_eq, pay39_eq, pay42_eq, pay45_eq, pay48_eq, pay51_eq, pay54_eq, pay57_eq, pay60_eq, pay63_eq, pay66_eq, pay69_eq, pay34_eq, pay40_eq, pay46_eq, pay52_eq, pay58_eq, pay64_eq, pay70_eq, pay31_eq, pay37_eq, pay43_eq, pay49_eq, pay55_eq, pay61_eq, pay67_eq, pay73_eq]
  rfl

theorem out_B_3_eq (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : ¬cond0 i) (x0 : Vec F S8x128x512 .f32) (x1 : Vec F S8x128 .i32) (xo3 : Vec F S1x1 .f32) (xs0 : Vec F S64x256x512 .bf16) (fh0 : HbBuf0 (F := F) c hbM0) :
    out_B_3 c i arg1 harg1 arg3 harg3 arg4 harg4 arg5 harg5 arg6 harg6 arg7 harg7 hc x0 x1 xo3 xs0 fh0 = accNext xo3 (blockSq x0 xs0) := by
  unfold out_B_3
  rw [View.read_writes_eq_canon _ _ _ (cover_B_3 c i arg1 harg1 arg3 harg3 arg4 harg4 arg5 harg5 arg6 harg6 arg7 harg7 hc x0 x1 xo3 xs0 fh0)]
  unfold kernelRun0_B
  dsimp only
  sl_unfold_words
  rw [View.canon_unit_zero hz2]
  simp only [View.readAt_eq_ld, harg1.read_unread, harg5.read_unread, harg6.read_unread,
    View.ld_unit_zero (S := S8x128x512) hz3, View.ld_unit_zero (S := S1x1) hz2]
  rw [ld_slab xs0 0 ![0, 0, 0] rfl, ld_slab xs0 1 ![4, 0, 0] rfl, ld_slab xs0 2 ![8, 0, 0] rfl, ld_slab xs0 3 ![12, 0, 0] rfl, ld_slab xs0 4 ![16, 0, 0] rfl, ld_slab xs0 5 ![20, 0, 0] rfl, ld_slab xs0 6 ![24, 0, 0] rfl, ld_slab xs0 7 ![28, 0, 0] rfl, ld_slab xs0 8 ![32, 0, 0] rfl, ld_slab xs0 9 ![36, 0, 0] rfl, ld_slab xs0 10 ![40, 0, 0] rfl, ld_slab xs0 11 ![44, 0, 0] rfl, ld_slab xs0 12 ![48, 0, 0] rfl, ld_slab xs0 13 ![52, 0, 0] rfl, ld_slab xs0 14 ![56, 0, 0] rfl, ld_slab xs0 15 ![60, 0, 0] rfl]
  simp only [pay26_eq, pay27_eq, pay28_eq, pay32_eq, pay35_eq, pay38_eq, pay41_eq, pay44_eq, pay47_eq, pay50_eq, pay53_eq, pay56_eq, pay59_eq, pay62_eq, pay65_eq, pay68_eq, pay71_eq, pay33_eq, pay36_eq, pay39_eq, pay42_eq, pay45_eq, pay48_eq, pay51_eq, pay54_eq, pay57_eq, pay60_eq, pay63_eq, pay66_eq, pay69_eq, pay34_eq, pay40_eq, pay46_eq, pay52_eq, pay58_eq, pay64_eq, pay70_eq, pay31_eq, pay37_eq, pay43_eq, pay49_eq, pay55_eq, pay61_eq, pay67_eq, pay73_eq]
  rfl

/-! ## The first point -/

theorem sout_A_eq (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) :
    sout_A c i arg1 harg1 arg3 harg3 arg4 harg4 arg5 harg5 arg6 harg6 arg7 harg7 hc x0 x1 fh0 = cacheOf fh0 := by
  unfold sout_A
  rw [View.read_writes_eq_canon _ _ _ (scover_A c i arg1 harg1 arg3 harg3 arg4 harg4 arg5 harg5 arg6 harg6 arg7 harg7 hc x0 x1 fh0)]
  unfold kernelRun0_A
  dsimp only
  sl_unfold_words
  simp only [readCov_whole_head (S := S4x256x512) _ _ _ hz3, ReadAs.apply_same]
  rw [read_hbm_slab fh0 0 ![0, 0, 0] rfl, read_hbm_slab fh0 1 ![4, 0, 0] rfl, read_hbm_slab fh0 2 ![8, 0, 0] rfl, read_hbm_slab fh0 3 ![12, 0, 0] rfl, read_hbm_slab fh0 4 ![16, 0, 0] rfl, read_hbm_slab fh0 5 ![20, 0, 0] rfl, read_hbm_slab fh0 6 ![24, 0, 0] rfl, read_hbm_slab fh0 7 ![28, 0, 0] rfl, read_hbm_slab fh0 8 ![32, 0, 0] rfl, read_hbm_slab fh0 9 ![36, 0, 0] rfl, read_hbm_slab fh0 10 ![40, 0, 0] rfl, read_hbm_slab fh0 11 ![44, 0, 0] rfl, read_hbm_slab fh0 12 ![48, 0, 0] rfl, read_hbm_slab fh0 13 ![52, 0, 0] rfl, read_hbm_slab fh0 14 ![56, 0, 0] rfl, read_hbm_slab fh0 15 ![60, 0, 0] rfl]
  simp only [slab5_eq, slab8_eq, slab11_eq, slab14_eq, slab15_eq, slab16_eq, slab17_eq, slab18_eq, slab19_eq, slab20_eq, slab21_eq, slab4_3_eq, slab7_6_eq, slab10_9_eq, slab13_12_eq]
  rfl

theorem out_A_2_eq (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) :
    out_A_2 c i arg1 harg1 arg3 harg3 arg4 harg4 arg5 harg5 arg6 harg6 arg7 harg7 hc x0 x1 fh0 = blockScores x0 x1 (cacheOf fh0) := by
  unfold out_A_2
  rw [View.read_writes_eq_canon _ _ _ (cover_A_2 c i arg1 harg1 arg3 harg3 arg4 harg4 arg5 harg5 arg6 harg6 arg7 harg7 hc x0 x1 fh0)]
  unfold kernelRun0_A
  dsimp only
  sl_unfold_words
  rw [View.canon_unit_zero hz2]
  simp only [View.readAt_eq_ld, harg1.read_unread, harg3.read_unread,
    View.ld_unit_zero (S := S8x128x512) hz3, View.ld_unit_zero (S := S8x128) hz2,
    readCov_whole_head (S := S4x256x512) _ _ _ hz3, ReadAs.apply_same]
  rw [read_hbm_slab fh0 0 ![0, 0, 0] rfl, read_hbm_slab fh0 1 ![4, 0, 0] rfl, read_hbm_slab fh0 2 ![8, 0, 0] rfl, read_hbm_slab fh0 3 ![12, 0, 0] rfl, read_hbm_slab fh0 4 ![16, 0, 0] rfl, read_hbm_slab fh0 5 ![20, 0, 0] rfl, read_hbm_slab fh0 6 ![24, 0, 0] rfl, read_hbm_slab fh0 7 ![28, 0, 0] rfl, read_hbm_slab fh0 8 ![32, 0, 0] rfl, read_hbm_slab fh0 9 ![36, 0, 0] rfl, read_hbm_slab fh0 10 ![40, 0, 0] rfl, read_hbm_slab fh0 11 ![44, 0, 0] rfl, read_hbm_slab fh0 12 ![48, 0, 0] rfl, read_hbm_slab fh0 13 ![52, 0, 0] rfl, read_hbm_slab fh0 14 ![56, 0, 0] rfl, read_hbm_slab fh0 15 ![60, 0, 0] rfl]
  simp only [slab5_eq, slab8_eq, slab11_eq, slab14_eq, slab15_eq, slab16_eq, slab17_eq, slab18_eq, slab19_eq, slab20_eq, slab21_eq, slab4_3_eq, slab7_6_eq, slab10_9_eq, slab13_12_eq]
  rw [readCov_slab _ _ 0 ![0, 0, 0] rfl, readCov_slab _ _ 1 ![4, 0, 0] rfl, readCov_slab _ _ 2 ![8, 0, 0] rfl, readCov_slab _ _ 3 ![12, 0, 0] rfl, readCov_slab _ _ 4 ![16, 0, 0] rfl, readCov_slab _ _ 5 ![20, 0, 0] rfl, readCov_slab _ _ 6 ![24, 0, 0] rfl, readCov_slab _ _ 7 ![28, 0, 0] rfl, readCov_slab _ _ 8 ![32, 0, 0] rfl, readCov_slab _ _ 9 ![36, 0, 0] rfl, readCov_slab _ _ 10 ![40, 0, 0] rfl, readCov_slab _ _ 11 ![44, 0, 0] rfl, readCov_slab _ _ 12 ![48, 0, 0] rfl, readCov_slab _ _ 13 ![52, 0, 0] rfl, readCov_slab _ _ 14 ![56, 0, 0] rfl, readCov_slab _ _ 15 ![60, 0, 0] rfl]
  simp only [pay26_eq, pay27_eq, pay28_eq, pay32_eq, pay35_eq, pay38_eq, pay41_eq, pay44_eq, pay47_eq, pay50_eq, pay53_eq, pay56_eq, pay59_eq, pay62_eq, pay65_eq, pay68_eq, pay71_eq, pay33_eq, pay36_eq, pay39_eq, pay42_eq, pay45_eq, pay48_eq, pay51_eq, pay54_eq, pay57_eq, pay60_eq, pay63_eq, pay66_eq, pay69_eq, pay34_eq, pay40_eq, pay46_eq, pay52_eq, pay58_eq, pay64_eq, pay70_eq, pay31_eq, pay37_eq, pay43_eq, pay49_eq, pay55_eq, pay61_eq, pay67_eq, pay73_eq]
  rfl

theorem out_A_3_eq (c : Dev nD) (i : grid0.Coords) (arg1 : Memref sig .tc .vmem S8x128x512 .f32) (harg1 : arg1.IsWhole) (arg3 : Memref sig .tc .vmem S8x128 .i32) (harg3 : arg3.IsWhole) (arg4 : Memref sig .tc .vmem S8x64 .f32) (harg4 : arg4.IsWhole) (arg5 : Memref sig .tc .vmem S1x1 .f32) (harg5 : arg5.IsWhole) (arg6 : Memref sig .tc .vmem S64x256x512 .bf16) (harg6 : arg6.IsWhole) (arg7 : Memref sig .tc .vmem S4x256x512 .f32) (harg7 : arg7.IsWhole) (hc : cond0 i) (x0 : Vec F S8x128x512 .f32) (x1 : Vec F S8x128 .i32) (fh0 : HbBuf0 (F := F) c hbM0) :
    out_A_3 c i arg1 harg1 arg3 harg3 arg4 harg4 arg5 harg5 arg6 harg6 arg7 harg7 hc x0 x1 fh0 = accNext (k0_pay76 (F := F)) (blockSq x0 (cacheOf fh0)) := by
  unfold out_A_3
  rw [View.read_writes_eq_canon _ _ _ (cover_A_3 c i arg1 harg1 arg3 harg3 arg4 harg4 arg5 harg5 arg6 harg6 arg7 harg7 hc x0 x1 fh0)]
  unfold kernelRun0_A
  dsimp only
  sl_unfold_words
  rw [View.canon_cons_unit_zero hz2]
  simp only [View.readAt_eq_ld, harg1.read_unread,
    View.ld_unit_zero (S := S8x128x512) hz3, View.readCov_unit_zero (S := S1x1) _ hz2,
    readCov_whole_head (S := S4x256x512) _ _ _ hz3, ReadAs.apply_same]
  rw [read_hbm_slab fh0 0 ![0, 0, 0] rfl, read_hbm_slab fh0 1 ![4, 0, 0] rfl, read_hbm_slab fh0 2 ![8, 0, 0] rfl, read_hbm_slab fh0 3 ![12, 0, 0] rfl, read_hbm_slab fh0 4 ![16, 0, 0] rfl, read_hbm_slab fh0 5 ![20, 0, 0] rfl, read_hbm_slab fh0 6 ![24, 0, 0] rfl, read_hbm_slab fh0 7 ![28, 0, 0] rfl, read_hbm_slab fh0 8 ![32, 0, 0] rfl, read_hbm_slab fh0 9 ![36, 0, 0] rfl, read_hbm_slab fh0 10 ![40, 0, 0] rfl, read_hbm_slab fh0 11 ![44, 0, 0] rfl, read_hbm_slab fh0 12 ![48, 0, 0] rfl, read_hbm_slab fh0 13 ![52, 0, 0] rfl, read_hbm_slab fh0 14 ![56, 0, 0] rfl, read_hbm_slab fh0 15 ![60, 0, 0] rfl]
  simp only [slab5_eq, slab8_eq, slab11_eq, slab14_eq, slab15_eq, slab16_eq, slab17_eq, slab18_eq, slab19_eq, slab20_eq, slab21_eq, slab4_3_eq, slab7_6_eq, slab10_9_eq, slab13_12_eq]
  rw [readCov_slab _ _ 0 ![0, 0, 0] rfl, readCov_slab _ _ 1 ![4, 0, 0] rfl, readCov_slab _ _ 2 ![8, 0, 0] rfl, readCov_slab _ _ 3 ![12, 0, 0] rfl, readCov_slab _ _ 4 ![16, 0, 0] rfl, readCov_slab _ _ 5 ![20, 0, 0] rfl, readCov_slab _ _ 6 ![24, 0, 0] rfl, readCov_slab _ _ 7 ![28, 0, 0] rfl, readCov_slab _ _ 8 ![32, 0, 0] rfl, readCov_slab _ _ 9 ![36, 0, 0] rfl, readCov_slab _ _ 10 ![40, 0, 0] rfl, readCov_slab _ _ 11 ![44, 0, 0] rfl, readCov_slab _ _ 12 ![48, 0, 0] rfl, readCov_slab _ _ 13 ![52, 0, 0] rfl, readCov_slab _ _ 14 ![56, 0, 0] rfl, readCov_slab _ _ 15 ![60, 0, 0] rfl]
  simp only [pay26_eq, pay27_eq, pay28_eq, pay32_eq, pay35_eq, pay38_eq, pay41_eq, pay44_eq, pay47_eq, pay50_eq, pay53_eq, pay56_eq, pay59_eq, pay62_eq, pay65_eq, pay68_eq, pay71_eq, pay33_eq, pay36_eq, pay39_eq, pay42_eq, pay45_eq, pay48_eq, pay51_eq, pay54_eq, pay57_eq, pay60_eq, pay63_eq, pay66_eq, pay69_eq, pay34_eq, pay40_eq, pay46_eq, pay52_eq, pay58_eq, pay64_eq, pay70_eq, pay31_eq, pay37_eq, pay43_eq, pay49_eq, pay55_eq, pay61_eq, pay67_eq, pay73_eq]
  rfl

end Cert.KernelIdeal.Fr

end
-- ==== Proof.Spec.lean ====
/-
  What the pair-score matrix and the regulariser's total ARE, as functions of the three inputs, on the extended reals.

  Inputs: text features t (64 sentences × 128 tokens × 512), visual features v (64 images × 256 patches × 512) and an
  integer mask over the text tokens (64 × 128).

  Every token row and every patch row is divided by the larger of its Euclidean norm and 1e-12 (`tUnit`, `vUnit`).
  The similarity of token k of sentence i and patch l of image j is the inner product of the two unit rows (`sim`).
  For a pair (i, j) each token keeps its best patch (`best`: the maximum over the 256 patches, from −∞); the pair's
  score is the mask-weighted sum of the tokens' bests divided by the larger of the mask's row sum and 1e-7 (`score`).
  The regulariser's total is the sum, over every (i, j, k, l), of the square of the similarity clipped to [−20, 0]
  (`negTotal`).

  Both programs compute exactly these two things and then apply the same closing arithmetic to them; each is proved
  equal to these definitions separately. The float literals stay as their words: the same word stands on both sides.
-/
import Idealize.ShloMosaic.PureOps.Ideal.Laws
import Idealize.ShloMosaic.Lib.ValueIdx

noncomputable section

open scoped BigOperators

namespace Cert.Pairs

open Idealize.ShloMosaic Idealize.ShloMosaic.ValueIdx

/-- The floor under a row's norm: the word of 1e-12. -/
def floor12 : EReal := Ideal.ofBits .f32 0x2B8CBCCC#32
/-- The floor under a mask row's sum: the word of 1e-7. -/
def floor7 : EReal := Ideal.ofBits .f32 0x33D6BF95#32
/-- The lower clip bound: the word of −20. -/
def lo20 : EReal := Ideal.ofBits .f32 0xC1A00000#32

/-- The floored Euclidean norm of token row (i, k). -/
def tNorm (t : (⟨3, ![64, 128, 512]⟩ : Shape).Idx → EReal) (i : Fin 64) (k : Fin 128) : EReal :=
  max (Ideal.sqrt (∑ d : Fin 512, t (ix3 i k d) * t (ix3 i k d))) floor12
/-- The floored Euclidean norm of patch row (j, l). -/
def vNorm (v : (⟨3, ![64, 256, 512]⟩ : Shape).Idx → EReal) (j : Fin 64) (l : Fin 256) : EReal :=
  max (Ideal.sqrt (∑ d : Fin 512, v (ix3 j l d) * v (ix3 j l d))) floor12
/-- Entry d of the unit token row (i, k). -/
def tUnit (t : (⟨3, ![64, 128, 512]⟩ : Shape).Idx → EReal) (i : Fin 64) (k : Fin 128) (d : Fin 512) : EReal :=
  Ideal.div (t (ix3 i k d)) (tNorm t i k)
/-- Entry d of the unit patch row (j, l). -/
def vUnit (v : (⟨3, ![64, 256, 512]⟩ : Shape).Idx → EReal) (j : Fin 64) (l : Fin 256) (d : Fin 512) : EReal :=
  Ideal.div (v (ix3 j l d)) (vNorm v j l)

/-- The similarity of token (i, k) and patch (j, l): the inner product of the unit rows. -/
def sim (t : (⟨3, ![64, 128, 512]⟩ : Shape).Idx → EReal) (v : (⟨3, ![64, 256, 512]⟩ : Shape).Idx → EReal)
    (i j : Fin 64) (k : Fin 128) (l : Fin 256) : EReal :=
  ∑ d : Fin 512, tUnit t i k d * vUnit v j l d

/-- Token (i, k)'s best similarity among the patches of image j. -/
def best (t : (⟨3, ![64, 128, 512]⟩ : Shape).Idx → EReal) (v : (⟨3, ![64, 256, 512]⟩ : Shape).Idx → EReal)
    (i j : Fin 64) (k : Fin 128) : EReal :=
  (Finset.univ : Finset (Fin 256)).fold max ⊥ (fun l => sim t v i j k l)

/-- The mask at (i, k) as a number: the integer it holds, read signed. -/
def maskR (mk : (⟨2, ![64, 128]⟩ : Shape).Idx → BitVec 32) (i : Fin 64) (k : Fin 128) : EReal :=
  (((mk (ix2 i k)).toInt : ℝ) : EReal)

/-- The floored count of sentence i's unmasked tokens. -/
def valid (mk : (⟨2, ![64, 128]⟩ : Shape).Idx → BitVec 32) (i : Fin 64) : EReal :=
  max (∑ k : Fin 128, maskR mk i k) floor7

/-- The score of the pair (i, j). -/
def score (t : (⟨3, ![64, 128, 512]⟩ : Shape).Idx → EReal) (v : (⟨3, ![64, 256, 512]⟩ : Shape).Idx → EReal)
    (mk : (⟨2, ![64, 128]⟩ : Shape).Idx → BitVec 32) (i j : Fin 64) : EReal :=
  Ideal.div (∑ k : Fin 128, best t v i j k * maskR mk i k) (valid mk i)

/-- The score matrix as an array. -/
def scoreArr (t : (⟨3, ![64, 128, 512]⟩ : Shape).Idx → EReal) (v : (⟨3, ![64, 256, 512]⟩ : Shape).Idx → EReal)
    (mk : (⟨2, ![64, 128]⟩ : Shape).Idx → BitVec 32) : (⟨2, ![64, 64]⟩ : Shape).Idx → EReal :=
  fun e => score t v mk (e 0) (e 1)

theorem scoreArr_apply (t : (⟨3, ![64, 128, 512]⟩ : Shape).Idx → EReal) (v : (⟨3, ![64, 256, 512]⟩ : Shape).Idx → EReal)
    (mk : (⟨2, ![64, 128]⟩ : Shape).Idx → BitVec 32) (i j : Fin 64) : scoreArr t v mk (ix2 i j) = score t v mk i j := rfl

/-- A number clipped to [−20, 0], squared. -/
def clipSq (s : EReal) : EReal := min 0 (max lo20 s) * min 0 (max lo20 s)

/-- The regulariser's total: the clipped squares of all similarities. -/
def negTotal (t : (⟨3, ![64, 128, 512]⟩ : Shape).Idx → EReal) (v : (⟨3, ![64, 256, 512]⟩ : Shape).Idx → EReal) : EReal :=
  ∑ i : Fin 64, ∑ j : Fin 64, ∑ k : Fin 128, ∑ l : Fin 256, clipSq (sim t v i j k l)

end Cert.Pairs

end
-- ==== Proof.KI.MathNorm.lean ====
/-
  The body's normalisations read at an entry, on the extended reals.

  A slab of four images' patches, the block of eight sentences' tokens, the mask block and its floored row count:
  what the body makes of each loaded value, entry by entry. A row is divided by the larger of its Euclidean norm and
  1e-12; narrowing to bf16 changes nothing on the extended reals; the token block is then re-laid as 1024 rows
  (row 128·a + k is token k of sentence a).
-/
import proofs.«143648_j70927089926536_1_alg».proof.Proof.Gen.KernelIdeal.Skeleton
import proofs.«143648_j70927089926536_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Fr.Math

open Cert.KernelIdeal Cert.KernelIdeal.Gen Cert.Pairs
open Idealize.ShloMosaic Idealize.ShloMosaic.ValueIdx

section Layout
variable {α : Type}

/-- An `[a, b]` array cast to `[a, b, 1]` reads, at `(i, j, u)`, the operand at `(i, j)`, whatever the unit coordinate `u`. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry of row `(i, j)`. -/
private theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-- The sum over the last axis of a rank-3 array, read at a row: the sum of the row's entries. -/
private theorem sumLast_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src ?_
  funext ax
  match ax with
  | ⟨0, _⟩ => exact Fin.ext rfl
  | ⟨1, _⟩ => exact Fin.ext rfl
  | ⟨2, _⟩ => exact Fin.ext rfl

/-- A rank-3 array divided, row by row, by the larger of the row's Euclidean norm and a floor word: the entry `(i, j, k)`
    is the entry over the floored norm of row `(i, j)`. -/
private theorem rowNormalize_apply {a b c : ℕ} (x : FVec Ideal ⟨3, ![a, b, c]⟩ .f32) (w : BitVec 32)
    (hr : (⟨3, ![a, b, c]⟩ : Shape).Reduces [2] ⟨2, ![a, b]⟩) (hφ : FKind.Formats .f32)
    (hacc : (0x00000000#32 : BitVec 32) = FKind.add.neutral .f32 hφ)
    (hs : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    divf x (broadcastTo ⟨3, ![a, b, c]⟩
        (maximumf (sqrt (shapeCast ⟨3, ![a, b, 1]⟩ (multiReduction .add [2] ⟨2, ![a, b]⟩ (mulf x x) 0x00000000#32 hr hφ hacc) hs))
          (broadcast ⟨3, ![a, b, 1]⟩ (Scalar.ofBits .f32 w))) hb) (ix3 i j k)
      = Ideal.div (x (ix3 i j k)) (max (Ideal.sqrt (∑ k' : Fin c, x (ix3 i j k') * x (ix3 i j k'))) (Ideal.ofBits .f32 w)) := by
  rw [divf_apply, broadcastTo_ab1_abc_apply, maximumf_apply, broadcast_apply]
  show Ideal.div _ (max (Ideal.sqrt (shapeCast ⟨3, ![a, b, 1]⟩ _ hs (ix3 i j (0 : Fin 1)))) _) = _
  rw [shapeCast_ab_ab1_apply, sumLast_apply]
  rfl

/-- A stored slab entry: the loaded entry over its row's floored norm. -/
theorem pay2_apply (x : Vec Ideal S4x256x512 .f32) (b : Fin 4) (l : Fin 256) (d : Fin 512) :
    k0_pay2 (F := Ideal) x (ix3 b l d)
      = Ideal.div (x (ix3 b l d)) (max (Ideal.sqrt (∑ d' : Fin 512, x (ix3 b l d') * x (ix3 b l d'))) floor12) := by
  unfold k0_pay2 floor12
  rw [shapeCast_self, truncf_apply]
  exact rowNormalize_apply x _ _ _ _ _ _ b l d

/-- The re-laid unit token rows: row 128·a + k, entry d, is the loaded entry (a, k, d) over its row's floored norm. -/
theorem pay22_apply (x : Vec Ideal S8x128x512 .f32) (a : Fin 8) (k : Fin 128) (d : Fin 512) :
    k0_pay22 (F := Ideal) x (ix2 (⟨128 * a.val + k.val, by omega⟩ : Fin 1024) d)
      = Ideal.div (x (ix3 a k d)) (max (Ideal.sqrt (∑ d' : Fin 512, x (ix3 a k d') * x (ix3 a k d'))) floor12) := by
  unfold k0_pay22 floor12
  refine (shapeCast_apply _ _ _ (ix3 a k d) (by
    rw [Shape.rowMajor_val_three, Shape.rowMajor_val_two]
    show (a.val * 128 + k.val) * 512 + d.val = (128 * a.val + k.val) * 512 + d.val
    omega)).trans ?_
  rw [truncf_apply]
  exact rowNormalize_apply x _ _ _ _ _ _ a k d

/-- The mask as numbers: each integer read signed. -/
theorem pay23_apply (mk : Vec Ideal S8x128 .i32) (a : Fin 8) (k : Fin 128) :
    k0_pay23 (F := Ideal) mk (ix2 a k) = (((mk (ix2 a k)).toInt : ℝ) : EReal) := by
  unfold k0_pay23
  rw [sitofp_apply]
  rfl

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the last axis of a rank-2 array, read at a row: the sum of the row's entries. -/
private theorem sumLast2_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src ?_
  funext ax
  match ax with
  | ⟨0, _⟩ => exact Fin.ext rfl
  | ⟨1, _⟩ => exact Fin.ext rfl

/-- The floored count of a sentence's unmasked tokens. -/
theorem pay24_apply (mk : Vec Ideal S8x128 .i32) (a : Fin 8) :
    k0_pay24 (F := Ideal) mk (ix2 a (0 : Fin 1))
      = max (∑ k : Fin 128, (((mk (ix2 a k)).toInt : ℝ) : EReal)) floor7 := by
  unfold k0_pay24 floor7
  rw [maximumf_apply, broadcast_apply, shapeCast_a_a1_apply]
  exact congrArg₂ max ((sumLast2_apply (k0_pay23 mk) _ _ _ _ a).trans
    (Finset.sum_congr rfl fun k _ => pay23_apply mk a k)) rfl

end Cert.KernelIdeal.Fr.Math

end
-- ==== Proof.KI.MathChunk.lean ====
/-
  One chunk of the body's work read at an entry, on the extended reals.

  A chunk pairs the 1024 unit token rows of the block (row 128·a + k is token k of sentence a) with four images'
  unit patch rows, a 4 × 256 × 512 slab re-laid as 1024 rows (row 256·b + l is patch l of image b). The matrix product
  contracts the 512 features of both operands: entry (r, q) is the inner product of token row r and patch row q.
  From it the body takes, per sentence a and image b, the mask-weighted sum over tokens of the best patch's similarity,
  and, per token row, the sum over the 1024 patch rows of the similarity clipped to [−20, 0] and squared.
-/
import proofs.«143648_j70927089926536_1_alg».proof.Proof.KI.Body
import proofs.«143648_j70927089926536_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Fr.Math

open Cert.KernelIdeal Cert.KernelIdeal.Gen Cert.KernelIdeal.Fr Cert.Pairs
open Idealize.ShloMosaic Idealize.ShloMosaic.ValueIdx

/-! ## The product: both operands contracted on their feature axis

At output entry (r, q) and contraction position d the left operand is read at (r, d) and the right operand at (q, d):
each operand's row axis follows one output coordinate, each operand's feature axis the contraction position. -/

/-- The left operand's row coordinate is the output's row. -/
private theorem lhs_dot_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The left operand's feature coordinate is the contraction position. -/
private theorem lhs_dot_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- The right operand's row coordinate is the output's column. -/
private theorem rhs_dot_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- The right operand's feature coordinate is the contraction position. -/
private theorem rhs_dot_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of A and the transpose of B, accumulated into zero: entry (r, q) is the inner product of row r of A and
    row q of B. -/
private theorem matmul_nt_apply (A B : FVec Ideal S1024x512 .bf16) (r q : Fin 1024) :
    matmul (F := Ideal) dot_S1024x512_S1024x512_S1024x1024_1_1_0_0_n_n none A B (constant (F := Ideal) S1024x1024 .f32 0x00000000#32) (ix2 r q)
      = ∑ d : Fin 512, A (ix2 r d) * B (ix2 q d) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r q) ((contrEquiv1 dot_S1024x512_S1024x512_S1024x1024_1_1_0_0_n_n 512 rfl rfl).symm k) = ix2 r k := funext fun a => Fin.ext (by
    match a with
    | ⟨0, _⟩ => exact lhs_dot_0 _ _
    | ⟨1, _⟩ => exact (lhs_dot_1 _ _).trans hk)
  have er : dot_S1024x512_S1024x512_S1024x1024_1_1_0_0_n_n.rhsIdx (ix2 r q) ((contrEquiv1 dot_S1024x512_S1024x512_S1024x1024_1_1_0_0_n_n 512 rfl rfl).symm k) = ix2 q k := funext fun a => Fin.ext (by
    match a with
    | ⟨0, _⟩ => exact rhs_dot_0 _ _
    | ⟨1, _⟩ => exact (rhs_dot_1 _ _).trans hk)
  rw [el, er]

/-- The slab re-laid as 1024 rows: row 256·b + l is patch l of image b (the two row-major positions agree:
    (256·b + l)·512 + d on both sides). -/
private theorem slab_cast_apply (slab : Vec Ideal S4x256x512 .bf16) (h : S4x256x512.ShapeCasts S1024x512)
    (b : Fin 4) (l : Fin 256) (d : Fin 512) :
    shapeCast S1024x512 slab h (ix2 (⟨256 * b.val + l.val, by omega⟩ : Fin 1024) d) = slab (ix3 b l d) := by
  refine shapeCast_apply slab h _ (ix3 b l d) ?_
  rw [Shape.rowMajor_val_three, Shape.rowMajor_val_two]
  show (b.val * 256 + l.val) * 512 + d.val = (256 * b.val + l.val) * 512 + d.val
  omega

/-- The product's entry (r, q): the inner product of token row r and the slab's patch row q = 256·b + l. -/
theorem pay29_apply (tn : FVec Ideal S1024x512 .bf16) (slab : Vec Ideal S4x256x512 .bf16) (r : Fin 1024) (b : Fin 4) (l : Fin 256) :
    k0_pay29 (F := Ideal) tn slab (ix2 r (⟨256 * b.val + l.val, by omega⟩ : Fin 1024))
      = ∑ d : Fin 512, tn (ix2 r d) * slab (ix3 b l d) := by
  unfold k0_pay29
  refine (matmul_nt_apply tn _ r _).trans ?_
  refine Finset.sum_congr rfl fun d _ => ?_
  rw [slab_cast_apply]

/-! ## The best patch and the mask

The 1024 columns of a row split as 4 images × 256 patches (column 256·b + l), the 1024 rows as 8 sentences × 128
tokens (row 128·a + k). The maximum over an image's patches starts from −∞, the bottom of the extended reals. -/

/-- The word of −∞ reads as the bottom element. -/
private theorem ofBits_negInf_f32 : (FloatOps.ofBits (F := Ideal) .f32 0xFF800000#32 : EReal) = ⊥ := by
  show Ideal.ofBits .f32 0xFF800000#32 = ⊥
  simp [Ideal.ofBits, Ideal.ieee]

/-- The best patch of image b for token k of sentence a: the maximum, from −∞, over the 256 columns 256·b + l of row
    128·a + k. The row-major positions agree twice: (128·a + k)·4 + b for the bests, and
    (128·a + k)·1024 + 256·b + l = ((128·a + k)·4 + b)·256 + l for the similarities. -/
private theorem best_apply (s : FVec Ideal S1024x1024 .f32) (h1 : S1024x1024.ShapeCasts S1024x4x256)
    (h2 : S1024x4x256.Reduces [2] S1024x4) (hφ : FKind.Formats .f32)
    (hacc : (0xFF800000#32 : BitVec 32) = FKind.maximumf.neutral .f32 hφ) (h3 : S1024x4.ShapeCasts S8x128x4)
    (a : Fin 8) (k : Fin 128) (b : Fin 4) :
    shapeCast S8x128x4 (multiReduction (F := Ideal) .maximumf [2] S1024x4 (shapeCast S1024x4x256 s h1) 0xFF800000#32 h2 hφ hacc) h3 (ix3 a k b)
      = (Finset.univ : Finset (Fin 256)).fold max ⊥
          (fun l => s (ix2 (⟨128 * a.val + k.val, by omega⟩ : Fin 1024) (⟨256 * b.val + l.val, by omega⟩ : Fin 1024))) := by
  refine (shapeCast_apply _ h3 _ (ix2 (⟨128 * a.val + k.val, by omega⟩ : Fin 1024) b) ?_).trans ?_
  · rw [Shape.rowMajor_val_two, Shape.rowMajor_val_three]
    show (128 * a.val + k.val) * 4 + b.val = (a.val * 128 + k.val) * 4 + b.val
    omega
  refine (Ideal.multiReduction_maximumf_single _ _ h2 hφ hacc _).trans ?_
  rw [ofBits_negInf_f32]
  refine congrArg (fun f : Fin 256 → EReal => (Finset.univ : Finset (Fin 256)).fold max (⊥ : EReal) f) (funext fun (l : Fin 256) => ?_)
  have hl : h2.lift (ix2 (⟨128 * a.val + k.val, by omega⟩ : Fin 1024) b) l
      = ix3 (⟨128 * a.val + k.val, by omega⟩ : Fin 1024) b l :=
    funext fun c => Fin.ext (by
      match c with
      | ⟨0, _⟩ => rfl
      | ⟨1, _⟩ => rfl
      | ⟨2, _⟩ => rfl)
  show shapeCast S1024x4x256 s h1 (h2.lift (ix2 (⟨128 * a.val + k.val, by omega⟩ : Fin 1024) b) l) = _
  rw [hl]
  refine shapeCast_apply s h1 _ _ ?_
  rw [Shape.rowMajor_val_two, Shape.rowMajor_val_three]
  show (128 * a.val + k.val) * 1024 + (256 * b.val + l.val) = ((128 * a.val + k.val) * 4 + b.val) * 256 + l.val
  omega

/-- The mask spread over the four images: at (a, k, b) it is the mask at (a, k). -/
private theorem mask_apply (mf : FVec Ideal S8x128 .f32) (h4 : S8x128.ShapeCasts S8x128x1) (h5 : S8x128x1.Broadcasts S8x128x4)
    (a : Fin 8) (k : Fin 128) (b : Fin 4) :
    broadcastTo S8x128x4 (shapeCast S8x128x1 mf h4) h5 (ix3 a k b) = mf (ix2 a k) := by
  refine (broadcastTo_apply _ h5 _ (ix3 a k (0 : Fin 1)) ?_).trans ?_
  · intro c
    match c with
    | ⟨0, _⟩ => rfl
    | ⟨1, _⟩ => rfl
    | ⟨2, _⟩ => rfl
  refine shapeCast_apply mf h4 _ _ ?_
  rw [Shape.rowMajor_val_two, Shape.rowMajor_val_three]
  show a.val * 128 + k.val = (a.val * 128 + k.val) * 1 + 0
  omega

/-- The chunk's scores: for sentence a and image b of the slab, the sum over tokens k of the best patch's similarity
    (the maximum over the 256 patches, from −∞) times the mask. -/
theorem pay30_apply (tn : FVec Ideal S1024x512 .bf16) (mf : FVec Ideal S8x128 .f32) (slab : Vec Ideal S4x256x512 .bf16)
    (a : Fin 8) (b : Fin 4) :
    k0_pay30 (F := Ideal) tn mf slab (ix2 a b)
      = ∑ k : Fin 128, (Finset.univ : Finset (Fin 256)).fold max ⊥
            (fun l => ∑ d : Fin 512, tn (ix2 (⟨128 * a.val + k.val, by omega⟩ : Fin 1024) d) * slab (ix3 b l d))
          * mf (ix2 a k) := by
  unfold k0_pay30
  refine (Ideal.multiReduction_add_single _ _ reduces_S8x128x4_S8x4 _ _ (ix2 a b)).trans ?_
  refine Finset.sum_congr rfl fun (k : Fin 128) _ => ?_
  have hl : reduces_S8x128x4_S8x4.lift (ix2 a b) k = ix3 a k b :=
    funext fun c => Fin.ext (by
      match c with
      | ⟨0, _⟩ => rfl
      | ⟨1, _⟩ => rfl
      | ⟨2, _⟩ => rfl)
  have hb : (fun l : Fin 256 => k0_pay29 (F := Ideal) tn slab
        (ix2 (⟨128 * a.val + k.val, by omega⟩ : Fin 1024) (⟨256 * b.val + l.val, by omega⟩ : Fin 1024)))
      = fun l : Fin 256 => ∑ d : Fin 512, tn (ix2 (⟨128 * a.val + k.val, by omega⟩ : Fin 1024) d) * slab (ix3 b l d) :=
    funext fun l => pay29_apply tn slab _ b l
  rw [hl, ← hb]
  refine (mulf_apply _ _ _).trans ?_
  exact congrArg₂ (· * ·) (best_apply (k0_pay29 (F := Ideal) tn slab) _ _ _ _ _ a k b) (mask_apply mf _ _ a k b)

/-- The clipped squares summed along a row: over the 1024 columns. -/
theorem rowSq_apply (s : FVec Ideal S1024x1024 .f32) (r : Fin 1024) :
    rowSq (F := Ideal) s (ix1 r) = ∑ q : Fin 1024, clipSq (s (ix2 r q)) := by
  unfold rowSq
  refine (Ideal.multiReduction_add_single _ _ reduces_S1024x1024_S1024 _ _ (ix1 r)).trans ?_
  refine Finset.sum_congr rfl fun (q : Fin 1024) _ => ?_
  have hl : reduces_S1024x1024_S1024.lift (ix1 r) q = ix2 r q :=
    funext fun c => Fin.ext (by
      match c with
      | ⟨0, _⟩ => rfl
      | ⟨1, _⟩ => rfl)
  rw [hl]
  show min (Ideal.ofBits .f32 0x00000000#32) (max (Ideal.ofBits .f32 0xC1A00000#32) (s (ix2 r q)))
      * min (Ideal.ofBits .f32 0x00000000#32) (max (Ideal.ofBits .f32 0xC1A00000#32) (s (ix2 r q))) = _
  rw [Ideal.ofBits_zero_f32]
  rfl

/-- The last chunk's masked bests, before their sum over tokens: for sentence a, token k and image b of the slab, the best
    patch's similarity (the maximum over the 256 patches, from −∞) times the mask. -/
theorem pay72_apply (mf : FVec Ideal S8x128 .f32) (s : FVec Ideal S1024x1024 .f32) (a : Fin 8) (k : Fin 128) (b : Fin 4) :
    k0_pay72 (F := Ideal) mf s (ix3 a k b)
      = (Finset.univ : Finset (Fin 256)).fold max ⊥
            (fun l => s (ix2 (⟨128 * a.val + k.val, by omega⟩ : Fin 1024) (⟨256 * b.val + l.val, by omega⟩ : Fin 1024)))
          * mf (ix2 a k) := by
  unfold k0_pay72
  refine (mulf_apply _ _ _).trans ?_
  exact congrArg₂ (· * ·) (best_apply s _ _ _ _ _ a k b) (mask_apply mf _ _ a k b)

end Cert.KernelIdeal.Fr.Math

end
-- ==== Proof.KI.MathJoin.lean ====
/-
  Joining the chunks, on the extended reals.

  The sixteen 8 × 4 chunk results are laid side by side into 8 × 64 (column 4·c + b is column b of chunk c) and each row
  is divided by its sentence's floored token count. A column of 1024 row sums collapses to one number, their sum.
-/
import proofs.«143648_j70927089926536_1_alg».proof.Proof.KI.Body
import proofs.«143648_j70927089926536_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Fr.Math

open Cert.KernelIdeal Cert.KernelIdeal.Gen Cert.KernelIdeal.Fr Cert.Pairs
open Idealize.ShloMosaic Idealize.ShloMosaic.ValueIdx

/-- Sixteen 8 × 4 pieces laid side by side: column 4·c + b of the whole is column b of piece c (the pieces share one
    shape of four columns, so a column's piece is its quotient by four and its place there the remainder). -/
private theorem cat16 (x : Fin 16 → FVec Ideal S8x4 .f32)
    (h : Shape.Concatenates [S8x4, S8x4, S8x4, S8x4, S8x4, S8x4, S8x4, S8x4, S8x4, S8x4, S8x4, S8x4, S8x4, S8x4, S8x4, S8x4] S8x64 1)
    (a : Fin 8) (c : Fin 16) (b : Fin 4) (q : Fin 64) (hq : q.val = 4 * c.val + b.val) :
    concatenate S8x64 1 [⟨S8x4, x 0⟩, ⟨S8x4, x 1⟩, ⟨S8x4, x 2⟩, ⟨S8x4, x 3⟩, ⟨S8x4, x 4⟩, ⟨S8x4, x 5⟩, ⟨S8x4, x 6⟩, ⟨S8x4, x 7⟩, ⟨S8x4, x 8⟩, ⟨S8x4, x 9⟩, ⟨S8x4, x 10⟩, ⟨S8x4, x 11⟩, ⟨S8x4, x 12⟩, ⟨S8x4, x 13⟩, ⟨S8x4, x 14⟩, ⟨S8x4, x 15⟩] h (ix2 a q) = x c (ix2 a b) := by
  refine concatenate_ofFn_apply (t := S8x64) (s₁ := S8x4) 1 x h rfl 4 rfl (ix2 a q) c ?_ (ix2 a b) ?_ (fun d hd => ?_)
  · show q.val / 4 = c.val
    omega
  · show b.val = q.val % 4
    omega
  · match d with
    | ⟨0, _⟩ => rfl
    | ⟨1, _⟩ => exact absurd rfl hd

/-- The joined block's entry (a, 4·c + b): chunk c's entry (a, b) for the first fifteen chunks; for the last, whose sum
    over tokens the join takes itself, the sum over tokens k of its masked bests at (a, k, b). -/
theorem pay74_apply (p : Fin 15 → FVec Ideal S8x4 .f32) (w : FVec Ideal S8x128x4 .f32) (a : Fin 8) (c : Fin 16) (b : Fin 4) :
    k0_pay74 (F := Ideal) (p 0) (p 1) (p 2) (p 3) (p 4) (p 5) (p 6) (p 7) (p 8) (p 9) (p 10) (p 11) (p 12) (p 13) (p 14) w
        (ix2 a (⟨4 * c.val + b.val, by omega⟩ : Fin 64))
      = if h : c.val < 15 then p ⟨c.val, h⟩ (ix2 a b) else ∑ k : Fin 128, w (ix3 a k b) := by
  unfold k0_pay74
  -- the sixteen pieces as one family: piece n is chunk n's result below fifteen, the last chunk's token sum at fifteen
  refine (cat16 (fun n => if h : n.val < 15 then p ⟨n.val, h⟩
      else multiReduction .add [1] S8x4 w 0x00000000#32 reduces_S8x128x4_S8x4 (.inl rfl) rfl) _ a c b _ rfl).trans ?_
  show (if h : c.val < 15 then p ⟨c.val, h⟩
      else multiReduction .add [1] S8x4 w 0x00000000#32 reduces_S8x128x4_S8x4 (.inl rfl) rfl) (ix2 a b) = _
  by_cases h : c.val < 15
  · rw [dif_pos h, dif_pos h]
  · rw [dif_neg h, dif_neg h]
    -- the reduction over the token axis at (a, b) is the sum over k of the entries (a, k, b)
    refine (Ideal.multiReduction_add_single w _ reduces_S8x128x4_S8x4 (.inl rfl) rfl (ix2 a b)).trans ?_
    show ∑ k : Fin 128, _ = ∑ k : Fin 128, w (ix3 a k b)
    refine Finset.sum_congr rfl (fun k _ => congrArg w (funext fun d => ?_))
    match d with
    | ⟨0, _⟩ => rfl
    | ⟨1, _⟩ => rfl
    | ⟨2, _⟩ => rfl

/-- The stored block: the joined entry over the sentence's floored token count. -/
theorem pay75_apply (cnt : FVec Ideal S8x1 .f32) (j : FVec Ideal S8x64 .f32) (a : Fin 8) (q : Fin 64) :
    k0_pay75 (F := Ideal) cnt j (ix2 a q) = Ideal.div (j (ix2 a q)) (cnt (ix2 a (0 : Fin 1))) := by
  -- the count column broadcast along the row reads, at (a, q), the count at (a, 0)
  have hb : broadcastTo S8x64 cnt broadcasts_S8x1_S8x64 (ix2 a q) = cnt (ix2 a (0 : Fin 1)) :=
    broadcastTo_apply cnt broadcasts_S8x1_S8x64 (ix2 a q) (ix2 a (0 : Fin 1)) (fun d => by
      match d with
      | ⟨0, _⟩ => rfl
      | ⟨1, _⟩ => rfl)
  show Ideal.div (j (ix2 a q)) (broadcastTo S8x64 cnt broadcasts_S8x1_S8x64 (ix2 a q)) = _
  rw [hb]

/-- A column of 1024 numbers collapsed: the one entry is their sum. -/
theorem tot_apply (r : FVec Ideal S1024 .f32) :
    tot (F := Ideal) r (ix2 (0 : Fin 1) (0 : Fin 1)) = ∑ q : Fin 1024, r (ix1 q) := by
  unfold tot
  -- the 1 × 1 result at (0, 0) is the one-entry reduction at 0 …
  refine (shapeCast_apply _ shapeCasts_S1_S1x1 (ix2 (0 : Fin 1) (0 : Fin 1)) (ix1 (0 : Fin 1)) ?_).trans ?_
  · rw [Shape.rowMajor_val_one, Shape.rowMajor_val_two]; rfl
  -- … which is the sum down the 1024 × 1 column …
  refine (Ideal.multiReduction_add_single _ _ reduces_S1024x1_S1 (.inl rfl) rfl (ix1 (0 : Fin 1))).trans ?_
  show ∑ k : Fin 1024, _ = _
  refine Finset.sum_congr rfl (fun k _ => ?_)
  -- … whose entry (k, 0) is the vector's entry k (the same row-major position)
  refine shapeCast_apply r shapeCasts_S1024_S1024x1 _ (ix1 k) ?_
  rw [Shape.rowMajor_val_one, Shape.rowMajor_val_two]
  show k.val = k.val * 1 + 0
  omega

/-! ## Regrouping the sums

Sentence 8·t + s of the 64, column 4·c + b of the 64, and row 128·s + k of a unit's 1024 token rows (sentence s of the
unit, token k): the sum over units, chunks, rows, chunk columns and a last index is the sum over sentences, columns,
tokens and that index. -/

/-- A sum over m·n indices, split by quotient and remainder: index n·a + b for a below m and b below n. -/
private theorem sum_fin_mul {M : Type*} [AddCommMonoid M] (m n N : ℕ) (hN : m * n = N) (g : Fin N → M) :
    ∑ i : Fin N, g i = ∑ a : Fin m, ∑ b : Fin n, g ⟨n * a.val + b.val, by
      have ha := a.isLt
      have hb := b.isLt
      calc n * a.val + b.val < n * a.val + n := by omega
        _ = n * (a.val + 1) := by ring
        _ ≤ n * m := Nat.mul_le_mul_left _ ha
        _ = N := by rw [Nat.mul_comm]; exact hN⟩ := by
  subst hN
  rw [← Fintype.sum_prod_type']
  exact (Fintype.sum_equiv finProdFinEquiv _ _ (fun p => congrArg g (Fin.ext (by
    show n * p.1.val + p.2.val = (finProdFinEquiv p).val
    rw [finProdFinEquiv_apply_val, Nat.add_comm])))).symm

/-- The sum over units t, chunks c, a unit's rows r, chunk columns b and l of f at sentence 8·t + r / 128, column
    4·c + b, token r mod 128 is the sum of f over all sentences, columns, tokens and l. -/
theorem regroup {M : Type*} [AddCommMonoid M] (f : Fin 64 → Fin 64 → Fin 128 → Fin 256 → M) :
    (∑ t : Fin 8, ∑ c : Fin 16, ∑ r : Fin 1024, ∑ b : Fin 4, ∑ l : Fin 256,
        f ⟨8 * t.val + r.val / 128, by omega⟩ ⟨4 * c.val + b.val, by omega⟩ ⟨r.val % 128, by omega⟩ l)
      = ∑ i : Fin 64, ∑ j : Fin 64, ∑ k : Fin 128, ∑ l : Fin 256, f i j k l := by
  -- both sides are the sum over (t, s, c, b, k, l) of f (8·t + s) (4·c + b) k l, in two orders
  have hR : (∑ i : Fin 64, ∑ j : Fin 64, ∑ k : Fin 128, ∑ l : Fin 256, f i j k l)
      = ∑ t : Fin 8, ∑ s : Fin 8, ∑ c : Fin 16, ∑ b : Fin 4, ∑ k : Fin 128, ∑ l : Fin 256,
          f ⟨8 * t.val + s.val, by omega⟩ ⟨4 * c.val + b.val, by omega⟩ k l := by
    refine (sum_fin_mul 8 8 64 rfl _).trans ?_
    refine Finset.sum_congr rfl fun t _ => Finset.sum_congr rfl fun s _ => ?_
    exact sum_fin_mul 16 4 64 rfl _
  have hL : (∑ t : Fin 8, ∑ c : Fin 16, ∑ r : Fin 1024, ∑ b : Fin 4, ∑ l : Fin 256,
        f ⟨8 * t.val + r.val / 128, by omega⟩ ⟨4 * c.val + b.val, by omega⟩ ⟨r.val % 128, by omega⟩ l)
      = ∑ t : Fin 8, ∑ c : Fin 16, ∑ s : Fin 8, ∑ k : Fin 128, ∑ b : Fin 4, ∑ l : Fin 256,
          f ⟨8 * t.val + s.val, by omega⟩ ⟨4 * c.val + b.val, by omega⟩ k l := by
    refine Finset.sum_congr rfl fun t _ => Finset.sum_congr rfl fun c _ => ?_
    refine (sum_fin_mul 8 128 1024 rfl _).trans ?_
    refine Finset.sum_congr rfl fun s _ => Finset.sum_congr rfl fun k _ => ?_
    refine Finset.sum_congr rfl fun b _ => Finset.sum_congr rfl fun l _ => ?_
    -- row 128·s + k has quotient s and remainder k by 128
    have h1 : (⟨8 * t.val + (128 * s.val + k.val) / 128, by omega⟩ : Fin 64) = ⟨8 * t.val + s.val, by omega⟩ :=
      Fin.ext (by show 8 * t.val + (128 * s.val + k.val) / 128 = 8 * t.val + s.val; omega)
    have h2 : (⟨(128 * s.val + k.val) % 128, by omega⟩ : Fin 128) = k :=
      Fin.ext (by show (128 * s.val + k.val) % 128 = k.val; omega)
    show f ⟨8 * t.val + (128 * s.val + k.val) / 128, _⟩ ⟨4 * c.val + b.val, _⟩ ⟨(128 * s.val + k.val) % 128, _⟩ l = _
    rw [h1, h2]
  rw [hL, hR]
  -- exchange c with s, then k with b
  refine Finset.sum_congr rfl fun t _ => ?_
  refine Finset.sum_comm.trans ?_
  refine Finset.sum_congr rfl fun s _ => Finset.sum_congr rfl fun c _ => ?_
  exact Finset.sum_comm

end Cert.KernelIdeal.Fr.Math

end
-- ==== Proof.KI.MathBlock.lean ====
/-
  A whole block read at an entry, on the extended reals.

  At a grid point the body holds eight sentences' token rows, their mask, and the kept scratch of all 64 images' unit
  patch rows. Writing u(a, k, ·) for token (a, k)'s row over the larger of its Euclidean norm and 1e-12, the stored
  score of sentence a and image j is the mask-weighted sum over tokens k of the best inner product of u(a, k, ·) with a
  patch row of image j, over the floored token count; and the point's sum of squares runs over every token, image and
  patch the inner product clipped to [−20, 0] and squared. The sixteen chunks split the images four at a time and the
  1024 token rows are the 8 × 128 tokens re-laid; summing over chunks and rows is summing over images and tokens.
-/
import proofs.«143648_j70927089926536_1_alg».proof.Proof.KI.MathNorm
import proofs.«143648_j70927089926536_1_alg».proof.Proof.KI.MathChunk
import proofs.«143648_j70927089926536_1_alg».proof.Proof.KI.MathJoin

noncomputable section

open scoped BigOperators

namespace Cert.KernelIdeal.Fr.Math

open Cert.KernelIdeal Cert.KernelIdeal.Gen Cert.KernelIdeal.Fr Cert.Pairs
open Idealize.ShloMosaic Idealize.ShloMosaic.ValueIdx

/-- Entry d of token (a, k)'s unit row within a block. -/
def rowUnit (x0 : Vec Ideal S8x128x512 .f32) (a : Fin 8) (k : Fin 128) (d : Fin 512) : EReal :=
  Ideal.div (x0 (ix3 a k d)) (max (Ideal.sqrt (∑ d' : Fin 512, x0 (ix3 a k d') * x0 (ix3 a k d'))) floor12)

/-! ## Sums re-indexed

A sum over m·n indices splits by quotient and remainder; sixteen terms added one after the other onto zero are the sum
over the sixteen. -/

/-- The index n·a + b, for a below m and b below n, is below m·n. -/
private theorem split_lt {m n N : ℕ} (hN : m * n = N) (a : Fin m) (b : Fin n) : n * a.val + b.val < N := by
  have ha := a.isLt
  have hb := b.isLt
  subst hN
  calc n * a.val + b.val < n * a.val + n := by omega
    _ = n * (a.val + 1) := (Nat.mul_succ n a.val).symm
    _ ≤ n * m := Nat.mul_le_mul_left _ ha
    _ = m * n := Nat.mul_comm _ _

/-- A sum over m·n indices is the double sum over quotient a and remainder b of the term at n·a + b. -/
private theorem sum_split {M : Type*} [AddCommMonoid M] (m n N : ℕ) (hN : m * n = N) (g : Fin N → M) :
    ∑ i : Fin N, g i = ∑ a : Fin m, ∑ b : Fin n, g ⟨n * a.val + b.val, split_lt hN a b⟩ := by
  subst hN
  rw [← Equiv.sum_comp finProdFinEquiv g, Fintype.sum_prod_type]
  refine Finset.sum_congr rfl fun a _ => Finset.sum_congr rfl fun b _ => congrArg g (Fin.ext ?_)
  show b.val + n * a.val = n * a.val + b.val
  exact Nat.add_comm _ _

/-- Sixteen terms added one after the other onto zero: their sum. -/
private theorem sum16 {M : Type*} [AddCommMonoid M] (T : Fin 16 → M) :
    0 + T 0 + T 1 + T 2 + T 3 + T 4 + T 5 + T 6 + T 7 + T 8 + T 9 + T 10 + T 11 + T 12 + T 13 + T 14 + T 15
      = ∑ c : Fin 16, T c := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc,
    Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  rfl

/-! ## One chunk

Chunk c holds images 4·c … 4·c + 3: its similarity at row 128·a + k and column 256·b + l is the inner product of token
(a, k)'s unit row with patch l of image 4·c + b. -/

/-- A chunk's similarity entry: token (a, k)'s unit row against patch l of image 4·c + b. -/
private theorem sim_apply (x0 : Vec Ideal S8x128x512 .f32) (cache : Vec Ideal S64x256x512 .bf16) (c : Fin 16)
    (a : Fin 8) (k : Fin 128) (b : Fin 4) (l : Fin 256) :
    k0_pay29 (F := Ideal) (k0_pay22 (F := Ideal) x0) (slabOf cache c)
        (ix2 (⟨128 * a.val + k.val, by omega⟩ : Fin 1024) (⟨256 * b.val + l.val, by omega⟩ : Fin 1024))
      = ∑ d : Fin 512, rowUnit x0 a k d * cache (ix3 (⟨4 * c.val + b.val, by omega⟩ : Fin 64) l d) := by
  refine (pay29_apply _ _ _ b l).trans ?_
  refine Finset.sum_congr rfl fun d _ => ?_
  rw [pay22_apply]
  rfl

/-- A chunk's scores at (a, b): the mask-weighted sum over tokens of the best similarity with a patch of image 4·c + b. -/
private theorem chunkScores_apply (x0 : Vec Ideal S8x128x512 .f32) (x1 : Vec Ideal S8x128 .i32) (cache : Vec Ideal S64x256x512 .bf16)
    (c : Fin 16) (a : Fin 8) (b : Fin 4) :
    k0_pay30 (F := Ideal) (k0_pay22 (F := Ideal) x0) (k0_pay23 (F := Ideal) x1) (slabOf cache c) (ix2 a b)
      = ∑ k : Fin 128, (Finset.univ : Finset (Fin 256)).fold max ⊥
            (fun l => ∑ d : Fin 512, rowUnit x0 a k d * cache (ix3 (⟨4 * c.val + b.val, by omega⟩ : Fin 64) l d))
          * (((x1 (ix2 a k)).toInt : ℝ) : EReal) := by
  refine (pay30_apply _ _ _ a b).trans ?_
  refine Finset.sum_congr rfl fun k _ => ?_
  rw [pay23_apply]
  refine congrArg (fun f : Fin 256 → EReal =>
    (Finset.univ : Finset (Fin 256)).fold max (⊥ : EReal) f * (((x1 (ix2 a k)).toInt : ℝ) : EReal)) (funext fun l => ?_)
  refine Finset.sum_congr rfl fun d _ => ?_
  rw [pay22_apply]
  rfl

/-- The same scores when the sum over tokens is taken after the masked bests (the last chunk's form). -/
private theorem lastScores_apply (x0 : Vec Ideal S8x128x512 .f32) (x1 : Vec Ideal S8x128 .i32) (cache : Vec Ideal S64x256x512 .bf16)
    (c : Fin 16) (a : Fin 8) (b : Fin 4) :
    ∑ k : Fin 128, k0_pay72 (F := Ideal) (k0_pay23 (F := Ideal) x1) (k0_pay29 (F := Ideal) (k0_pay22 (F := Ideal) x0) (slabOf cache c)) (ix3 a k b)
      = ∑ k : Fin 128, (Finset.univ : Finset (Fin 256)).fold max ⊥
            (fun l => ∑ d : Fin 512, rowUnit x0 a k d * cache (ix3 (⟨4 * c.val + b.val, by omega⟩ : Fin 64) l d))
          * (((x1 (ix2 a k)).toInt : ℝ) : EReal) := by
  refine Finset.sum_congr rfl fun k _ => ?_
  rw [pay72_apply, pay23_apply]
  exact congrArg (fun f : Fin 256 → EReal =>
    (Finset.univ : Finset (Fin 256)).fold max (⊥ : EReal) f * (((x1 (ix2 a k)).toInt : ℝ) : EReal))
    (funext fun l => sim_apply x0 cache c a k b l)

/-- A chunk's total of clipped squares: over the block's tokens and the chunk's four images' patches. -/
private theorem chunkSq_apply (x0 : Vec Ideal S8x128x512 .f32) (cache : Vec Ideal S64x256x512 .bf16) (c : Fin 16) :
    tot (F := Ideal) (rowSq (F := Ideal) (k0_pay29 (F := Ideal) (k0_pay22 (F := Ideal) x0) (slabOf cache c))) (ix2 (0 : Fin 1) (0 : Fin 1))
      = ∑ a : Fin 8, ∑ k : Fin 128, ∑ b : Fin 4, ∑ l : Fin 256,
          clipSq (∑ d : Fin 512, rowUnit x0 a k d * cache (ix3 (⟨4 * c.val + b.val, by omega⟩ : Fin 64) l d)) := by
  refine (tot_apply _).trans ?_
  refine (sum_split 8 128 1024 rfl _).trans ?_
  refine Finset.sum_congr rfl fun a _ => Finset.sum_congr rfl fun k _ => ?_
  refine (rowSq_apply _ _).trans ?_
  refine (sum_split 4 256 1024 rfl _).trans ?_
  refine Finset.sum_congr rfl fun b _ => Finset.sum_congr rfl fun l _ => ?_
  exact congrArg clipSq (sim_apply x0 cache c a k b l)

/-! ## The block -/

/-- The stored score of sentence a of the block and image j. -/
theorem blockScores_apply (x0 : Vec Ideal S8x128x512 .f32) (x1 : Vec Ideal S8x128 .i32) (cache : Vec Ideal S64x256x512 .bf16)
    (a : Fin 8) (j : Fin 64) :
    blockScores (F := Ideal) x0 x1 cache (ix2 a j)
      = Ideal.div
          (∑ k : Fin 128, (Finset.univ : Finset (Fin 256)).fold max ⊥
                (fun l => ∑ d : Fin 512, rowUnit x0 a k d * cache (ix3 j l d))
              * (((x1 (ix2 a k)).toInt : ℝ) : EReal))
          (max (∑ k : Fin 128, (((x1 (ix2 a k)).toInt : ℝ) : EReal)) floor7) := by
  obtain ⟨c, b, rfl⟩ : ∃ (c : Fin 16) (b : Fin 4), j = (⟨4 * c.val + b.val, by omega⟩ : Fin 64) :=
    ⟨⟨j.val / 4, by omega⟩, ⟨j.val % 4, by omega⟩, Fin.ext (by show j.val = 4 * (j.val / 4) + j.val % 4; omega)⟩
  unfold blockScores
  rw [pay75_apply, pay24_apply]
  refine congrArg (fun z => Ideal.div z (max (∑ k : Fin 128, (((x1 (ix2 a k)).toInt : ℝ) : EReal)) floor7)) ?_
  refine (pay74_apply (fun n : Fin 15 => k0_pay30 (F := Ideal) (k0_pay22 (F := Ideal) x0) (k0_pay23 (F := Ideal) x1) (slabOf cache ⟨n.val, by omega⟩)) _ a c b).trans ?_
  by_cases h : c.val < 15
  · rw [dif_pos h]
    exact chunkScores_apply x0 x1 cache c a b
  · rw [dif_neg h]
    have hc : c = 15 := Fin.ext (by show c.val = 15; omega)
    subst hc
    exact lastScores_apply x0 x1 cache 15 a b

/-- The point's sum of clipped squares: over the block's sentences and tokens, and all images and patches. -/
theorem blockSq_apply (x0 : Vec Ideal S8x128x512 .f32) (cache : Vec Ideal S64x256x512 .bf16) :
    blockSq (F := Ideal) x0 cache (ix2 (0 : Fin 1) (0 : Fin 1))
      = ∑ a : Fin 8, ∑ k : Fin 128, ∑ j : Fin 64, ∑ l : Fin 256,
          clipSq (∑ d : Fin 512, rowUnit x0 a k d * cache (ix3 j l d)) := by
  unfold blockSq
  simp only [addf_apply]
  have h0 : k0_pay25 (F := Ideal) (ix2 (0 : Fin 1) (0 : Fin 1)) = 0 := Ideal.ofBits_zero_f32
  rw [h0]
  simp only [chunkSq_apply]
  refine (sum16 (fun c : Fin 16 => ∑ a : Fin 8, ∑ k : Fin 128, ∑ b : Fin 4, ∑ l : Fin 256,
    clipSq (∑ d : Fin 512, rowUnit x0 a k d * cache (ix3 (⟨4 * c.val + b.val, by omega⟩ : Fin 64) l d)))).trans ?_
  rw [Finset.sum_comm]
  refine Finset.sum_congr rfl fun a _ => ?_
  rw [Finset.sum_comm]
  refine Finset.sum_congr rfl fun k _ => ?_
  exact (sum_split 16 4 64 rfl (fun j : Fin 64 => ∑ l : Fin 256,
    clipSq (∑ d : Fin 512, rowUnit x0 a k d * cache (ix3 j l d)))).symm

end Cert.KernelIdeal.Fr.Math

end
-- ==== Proof.KI.Final.lean ====
/-
  The two arrays the region leaves, on the extended reals.

  Point t stages sentences 8·t … 8·t + 7. After the first point the kept scratch holds every image's unit patch rows and
  no later point changes it, so at every point the stored block of scores is the score of the block's sentences against
  all 64 images, and the blocks tile the score matrix row block by row block. The accumulator is zero plus the first
  point's sum of clipped squares, then each later point's added on; it is written back once, after the last point, so
  the one-entry array ends at the total over all eight blocks: over all sentences, tokens, images and patches.
-/
import proofs.«143648_j70927089926536_1_alg».proof.Proof.KI.Pieces
import proofs.«143648_j70927089926536_1_alg».proof.Proof.KI.MathBlock
import proofs.«143648_j70927089926536_1_alg».proof.Proof.Spec
import Idealize.ShloMosaic.Lib.Pipeline.Value

set_option maxRecDepth 16384

noncomputable section

open scoped BigOperators

namespace Cert.KernelIdeal.Fr

open Cert.KernelIdeal Cert.KernelIdeal.Gen Cert.KernelIdeal.Fr.Math Cert.Pairs
open Idealize.ShloMosaic Idealize.ShloMosaic.TcCoe Idealize.SL.Sem Idealize.ShloMosaic.ValueIdx

variable (m : (ℓ : Loc nD τ sig) → Buf (Elt Ideal) ℓ) (c : Dev nD)

/-- The three arrays the region is entered with, at their literal types. -/
private abbrev tArr : (⟨3, ![64, 128, 512]⟩ : Shape).Idx → EReal := V m c main_arg0
private abbrev vArr : (⟨3, ![64, 256, 512]⟩ : Shape).Idx → EReal := V m c main_arg1
private abbrev mArr : (⟨2, ![64, 128]⟩ : Shape).Idx → BitVec 32 := V m c main_arg2

/-- The staged blocks at a point, at their literal types. -/
private abbrev xblk (t : Fin cfg0.N) : Vec Ideal S8x128x512 .f32 := iblk m c 0 t
private abbrev mblk (t : Fin cfg0.N) : Vec Ideal S8x128 .i32 := iblk m c 1 t

private theorem tval_lt (t : Fin cfg0.N) : t.val < 8 := lt_of_lt_of_eq t.isLt N_0

private theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

private theorem xblk_apply (t : Fin cfg0.N) (a : Fin 8) (k : Fin 128) (d : Fin 512) :
    xblk m c t (ix3 a k d) = tArr m c (ix3 (⟨8 * t.val + a.val, by have := tval_lt t; omega⟩ : Fin 64) k d) := by
  obtain ⟨e0, e1, e2, -⟩ := idx_facts t
  unfold xblk iblk
  rw [View.read_apply]
  show V m c main_arg0 _ = V m c main_arg0 _
  congr 1
  funext ax
  apply Fin.ext
  match ax with
  | ⟨0, _⟩ => show win0_0.index t 0 * 8 + 1 * a.val = 8 * t.val + a.val; rw [e0]; omega
  | ⟨1, _⟩ => show win0_0.index t 1 * 128 + 1 * k.val = k.val; rw [e1]; omega
  | ⟨2, _⟩ => show win0_0.index t 2 * 512 + 1 * d.val = d.val; rw [e2]; omega

private theorem mblk_apply (t : Fin cfg0.N) (a : Fin 8) (k : Fin 128) :
    mblk m c t (ix2 a k) = mArr m c (ix2 (⟨8 * t.val + a.val, by have := tval_lt t; omega⟩ : Fin 64) k) := by
  obtain ⟨-, -, -, e0, e1, -⟩ := idx_facts t
  unfold mblk iblk
  rw [View.read_apply]
  show V m c main_arg2 _ = V m c main_arg2 _
  congr 1
  funext ax
  apply Fin.ext
  match ax with
  | ⟨0, _⟩ => show win0_1.index t 0 * 8 + 1 * a.val = 8 * t.val + a.val; rw [e0]; omega
  | ⟨1, _⟩ => show win0_1.index t 1 * 128 + 1 * k.val = k.val; rw [e1]; omega

/-- The kept scratch after the first point: every image's unit patch rows. -/
private abbrev cache : Vec Ideal S64x256x512 .bf16 := cacheOf (V m c main_arg1)

/-- The accumulator's next value at its one entry: the value before plus the point's sum. -/
private theorem accNext_apply (prev : Vec Ideal S1x1 .f32) (sq : FVec Ideal S1x1 .f32) :
    accNext prev sq (ix2 (0 : Fin 1) (0 : Fin 1)) = prev (ix2 (0 : Fin 1) (0 : Fin 1)) + sq (ix2 (0 : Fin 1) (0 : Fin 1)) := by
  unfold accNext k0_pay1 k0_pay77
  rw [addf_apply, shapeCast_self]

/-- The reset value's one entry is zero. -/
private theorem pay76_apply : k0_pay76 (F := Ideal) (ix2 (0 : Fin 1) (0 : Fin 1)) = 0 := Ideal.ofBits_zero_f32

/-! ## Sums over the points up to a point -/

section UpTo
variable {M : Type*} [AddCommMonoid M] {N : ℕ} (S : Fin N → M)

/-- Up to point 0: the first term. -/
private theorem sum_upTo_zero (h : 0 < N) : (∑ t' : Fin N, if t'.val ≤ 0 then S t' else 0) = S ⟨0, h⟩ := by
  have e : ∀ t' : Fin N, (if t'.val ≤ 0 then S t' else 0) = if t' = ⟨0, h⟩ then S t' else 0 := fun t' => by
    by_cases h1 : t'.val ≤ 0
    · rw [if_pos h1, if_pos (Fin.ext (by show t'.val = 0; omega))]
    · rw [if_neg h1, if_neg (fun e => h1 (by rw [e]))]
  rw [Finset.sum_congr rfl fun t' _ => e t', Finset.sum_ite_eq' Finset.univ (⟨0, h⟩ : Fin N) S, if_pos (Finset.mem_univ _)]

/-- Up to point n + 1: up to point n, plus the term at n + 1. -/
private theorem sum_upTo_succ (n : ℕ) (h : n + 1 < N) :
    (∑ t' : Fin N, if t'.val ≤ n + 1 then S t' else 0) = (∑ t' : Fin N, if t'.val ≤ n then S t' else 0) + S ⟨n + 1, h⟩ := by
  have e : ∀ t' : Fin N, (if t'.val ≤ n + 1 then S t' else 0)
      = (if t'.val ≤ n then S t' else 0) + (if t' = ⟨n + 1, h⟩ then S t' else 0) := fun t' => by
    by_cases h1 : t'.val ≤ n
    · rw [if_pos h1, if_pos (by omega), if_neg (fun e => by rw [e] at h1; exact absurd h1 (by show ¬ n + 1 ≤ n; omega)), add_zero]
    · by_cases h3 : t'.val = n + 1
      · rw [if_neg h1, if_pos (by omega), if_pos (Fin.ext h3), zero_add]
      · rw [if_neg h1, if_neg (by omega), if_neg (fun e => h3 (by rw [e])), add_zero]
  rw [Finset.sum_congr rfl fun t' _ => e t', Finset.sum_add_distrib, Finset.sum_ite_eq' Finset.univ (⟨n + 1, h⟩ : Fin N) S,
    if_pos (Finset.mem_univ _)]

/-- Up to the last point: the whole sum. -/
private theorem sum_upTo_last (n : ℕ) (h : N ≤ n + 1) : (∑ t' : Fin N, if t'.val ≤ n then S t' else 0) = ∑ t' : Fin N, S t' :=
  Finset.sum_congr rfl fun t' _ => if_pos (by have := t'.isLt; omega)

end UpTo

/-! ## What the buffers hold after each point -/

/-- After point n: the score block is the block of scores of the point's sentences against the kept scratch, the kept
    scratch is every image's unit patch rows, and the accumulator's entry is the sum of the points' sums so far. -/
private theorem outs_inv : ∀ (n : ℕ) (h : n < cfg0.N),
    (outsAt0 m c n h).1 = blockScores (xblk m c ⟨n, h⟩) (mblk m c ⟨n, h⟩) (cache m c)
    ∧ (outsAt0 m c n h).2.2 = cache m c
    ∧ (outsAt0 m c n h).2.1 (ix2 (0 : Fin 1) (0 : Fin 1))
        = ∑ t' : Fin cfg0.N, if t'.val ≤ n then blockSq (xblk m c t') (cache m c) (ix2 (0 : Fin 1) (0 : Fin 1)) else 0
  | 0, h => by
    rw [outsAt0_zero m c ⟨0, h⟩ rfl]
    dsimp only
    refine ⟨?_, ?_, ?_⟩
    · exact out_A_2_eq (F := Ideal) c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) scM0 (Memref.isWhole_whole _) scM1 (Memref.isWhole_whole _) ((hcond0 ⟨0, h⟩).mpr rfl) (iblk m c 0 ⟨0, h⟩) (iblk m c 1 ⟨0, h⟩) (V m c main_arg1)
    · exact sout_A_eq (F := Ideal) c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) scM0 (Memref.isWhole_whole _) scM1 (Memref.isWhole_whole _) ((hcond0 ⟨0, h⟩).mpr rfl) (iblk m c 0 ⟨0, h⟩) (iblk m c 1 ⟨0, h⟩) (V m c main_arg1)
    · refine (congrFun (out_A_3_eq (F := Ideal) c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) scM0 (Memref.isWhole_whole _) scM1 (Memref.isWhole_whole _) ((hcond0 ⟨0, h⟩).mpr rfl) (iblk m c 0 ⟨0, h⟩) (iblk m c 1 ⟨0, h⟩) (V m c main_arg1)) (ix2 (0 : Fin 1) (0 : Fin 1))).trans ?_
      refine (accNext_apply (k0_pay76 (F := Ideal)) (blockSq (xblk m c ⟨0, h⟩) (cache m c))).trans ?_
      rw [pay76_apply, zero_add]
      exact (sum_upTo_zero (fun t' : Fin cfg0.N => blockSq (xblk m c t') (cache m c) (ix2 (0 : Fin 1) (0 : Fin 1))) h).symm
  | n + 1, h => by
    have ih := outs_inv n (Nat.lt_of_succ_lt h)
    rw [outsAt0_pos m c ⟨n + 1, h⟩ (Nat.succ_ne_zero n)]
    dsimp only
    refine ⟨?_, ih.2.1, ?_⟩
    · refine (out_B_2_eq (F := Ideal) c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) scM0 (Memref.isWhole_whole _) scM1 (Memref.isWhole_whole _) (fun hc => Nat.succ_ne_zero n ((hcond0 ⟨n + 1, h⟩).mp hc)) (iblk m c 0 ⟨n + 1, h⟩) (iblk m c 1 ⟨n + 1, h⟩) (outsAt0 m c n (Nat.lt_of_succ_lt h)).2.1 (outsAt0 m c n (Nat.lt_of_succ_lt h)).2.2 (V m c main_arg1)).trans ?_
      exact congrArg (blockScores (xblk m c ⟨n + 1, h⟩) (mblk m c ⟨n + 1, h⟩)) ih.2.1
    · refine (congrFun (out_B_3_eq (F := Ideal) c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) scM0 (Memref.isWhole_whole _) scM1 (Memref.isWhole_whole _) (fun hc => Nat.succ_ne_zero n ((hcond0 ⟨n + 1, h⟩).mp hc)) (iblk m c 0 ⟨n + 1, h⟩) (iblk m c 1 ⟨n + 1, h⟩) (outsAt0 m c n (Nat.lt_of_succ_lt h)).2.1 (outsAt0 m c n (Nat.lt_of_succ_lt h)).2.2 (V m c main_arg1)) (ix2 (0 : Fin 1) (0 : Fin 1))).trans ?_
      refine (accNext_apply ((outsAt0 m c n (Nat.lt_of_succ_lt h)).2.1) (blockSq (xblk m c ⟨n + 1, h⟩) ((outsAt0 m c n (Nat.lt_of_succ_lt h)).2.2))).trans ?_
      rw [ih.2.2, ih.2.1]
      exact (sum_upTo_succ (fun t' : Fin cfg0.N => blockSq (xblk m c t') (cache m c) (ix2 (0 : Fin 1) (0 : Fin 1))) n h).symm

/-! ## The blocks read at an entry -/

/-- The kept scratch at (j, l, d): entry d of the unit patch row (j, l). -/
private theorem cacheOf_apply (fh : Vec Ideal S64x256x512 .f32) (j : Fin 64) (l : Fin 256) (d : Fin 512) :
    cacheOf fh (ix3 j l d) = vUnit fh j l d := by
  obtain ⟨q, b, rfl⟩ : ∃ (q : Fin 16) (b : Fin 4), j = (⟨4 * q.val + b.val, by omega⟩ : Fin 64) :=
    ⟨⟨j.val / 4, by omega⟩, ⟨j.val % 4, by omega⟩, Fin.ext (by show j.val = 4 * (j.val / 4) + j.val % 4; omega)⟩
  have e1 : ∀ cch : Vec Ideal S64x256x512 .bf16,
      cch (ix3 (⟨4 * q.val + b.val, by omega⟩ : Fin 64) l d) = slabOf cch q (ix3 b l d) := fun _ => rfl
  rw [e1 (cacheOf fh), slabOf_cacheOf, pay2_apply]
  rfl

/-- The same for the kept scratch of this run. -/
private theorem cache_apply (j : Fin 64) (l : Fin 256) (d : Fin 512) : cache m c (ix3 j l d) = vUnit (vArr m c) j l d :=
  cacheOf_apply (V m c main_arg1) j l d

/-- Token (a, k)'s unit row within the block of point t is the unit row of token k of sentence 8·t + a. -/
private theorem rowUnit_xblk (t : Fin cfg0.N) (a : Fin 8) (k : Fin 128) (d : Fin 512) :
    rowUnit (xblk m c t) a k d = tUnit (tArr m c) (⟨8 * t.val + a.val, by have := tval_lt t; omega⟩ : Fin 64) k d := by
  unfold rowUnit tUnit tNorm
  simp only [xblk_apply]

/-- The inner product the body forms for token (a, k) of the block and patch (j, l) is the similarity of token k of
    sentence 8·t + a and that patch. -/
private theorem simBlk (t : Fin cfg0.N) (a : Fin 8) (k : Fin 128) (j : Fin 64) (l : Fin 256) :
    (∑ d : Fin 512, rowUnit (xblk m c t) a k d * cache m c (ix3 j l d))
      = sim (tArr m c) (vArr m c) (⟨8 * t.val + a.val, by have := tval_lt t; omega⟩ : Fin 64) j k l := by
  unfold sim
  refine Finset.sum_congr rfl fun d _ => ?_
  rw [rowUnit_xblk, cache_apply]

/-- The score block of point t at (a, j): the score of sentence 8·t + a and image j. -/
private theorem scoreBlk_apply (t : Fin cfg0.N) (a : Fin 8) (j : Fin 64) :
    blockScores (xblk m c t) (mblk m c t) (cache m c) (ix2 a j)
      = score (tArr m c) (vArr m c) (mArr m c) (⟨8 * t.val + a.val, by have := tval_lt t; omega⟩ : Fin 64) j := by
  refine (blockScores_apply (xblk m c t) (mblk m c t) (cache m c) a j).trans ?_
  unfold score best valid maskR
  simp only [simBlk, mblk_apply]

/-- The sum of clipped squares of point t: over its eight sentences, all tokens, images and patches. -/
private theorem sqBlk_apply (t : Fin cfg0.N) :
    blockSq (xblk m c t) (cache m c) (ix2 (0 : Fin 1) (0 : Fin 1))
      = ∑ a : Fin 8, ∑ k : Fin 128, ∑ j : Fin 64, ∑ l : Fin 256,
          clipSq (sim (tArr m c) (vArr m c) (⟨8 * t.val + a.val, by have := tval_lt t; omega⟩ : Fin 64) j k l) := by
  refine (blockSq_apply (xblk m c t) (cache m c)).trans ?_
  simp only [simBlk]

/-! ## The score matrix -/

/-- An entry of point t's score block is the score at the entry's place in the matrix: row 8·t + its row. -/
private theorem scoreBlk_entry (t : Fin cfg0.N) (y : S8x64.Idx) (i : S64x64.Idx)
    (h0 : (i 0).val = 8 * t.val + (y 0).val) (h1 : (i 1).val = (y 1).val) :
    blockScores (xblk m c t) (mblk m c t) (cache m c) y = scoreArr (tArr m c) (vArr m c) (mArr m c) i := by
  obtain ⟨a, j, rfl⟩ : ∃ (a : Fin 8) (j : Fin 64), y = ix2 a j := ⟨y 0, y 1, eq_ix2 y⟩
  obtain ⟨i0, i1, rfl⟩ : ∃ (i0 : Fin 64) (i1 : Fin 64), i = ix2 i0 i1 := ⟨i 0, i 1, eq_ix2 i⟩
  have e0 : i0 = (⟨8 * t.val + a.val, by have := tval_lt t; omega⟩ : Fin 64) := Fin.ext h0
  have e1 : i1 = j := Fin.ext h1
  rw [e0, e1]
  exact (scoreBlk_apply m c t a j).trans (scoreArr_apply _ _ _ _ _).symm

/-- What point t writes back to the score matrix is its block of the specification's score matrix. -/
private theorem flushed2_eq (t : Fin cfg0.N) :
    (dats m 0 c).flushed 2 t
      = ((cfg0.win 2).blk t).view.read (Elt Ideal) (scoreArr (tArr m c) (vArr m c) (mArr m c)) := by
  obtain ⟨-, -, -, -, -, e0, e1, -⟩ := idx_facts t
  show (cfg0.win 2).cut (grid0.coords t) ((dats m 0 c).after 2 t) = _
  rw [after0_2, (outs_inv m c t.val t.isLt).1]
  funext y
  show blockScores (xblk m c t) (mblk m c t) (cache m c) y
    = scoreArr (tArr m c) (vArr m c) (mArr m c) (((cfg0.win 2).blk t).view.emb y)
  refine scoreBlk_entry m c t y _ ?_ ?_
  · show win0_2.index t (0 : Fin 2) * 8 + 1 * (y 0).val = 8 * t.val + (y 0).val
    rw [e0]; omega
  · show win0_2.index t (1 : Fin 2) * 64 + 1 * (y 1).val = (y 1).val
    rw [e1]; omega

/-- An index of the score matrix is in point t's block iff each coordinate is in the block's range on its axis. -/
private theorem mem_blk2 (t : Fin cfg0.N) (i : S64x64.Idx) :
    i ∈ ((cfg0.win 2).blk t).view.set
      ↔ ∀ a : Fin 2, win0_2.index t a * S8x64.size a ≤ (i a).val ∧ (i a).val < win0_2.index t a * S8x64.size a + S8x64.size a := by
  show i ∈ ((View.whole main_v0_0).slice (win0_2.rect t)).set ↔ _
  rw [View.set_slice_whole, Rect.mem_set_unit]
  exact Iff.rfl

/-- Row r of the score matrix lies in the block of point r / 8, and every point writes its block back. -/
private theorem cover2 (i : S64x64.Idx) :
    ∃ t : Fin cfg0.N, (cfg0.win 2).flush t = true ∧ i ∈ ((cfg0.win 2).blk t).view.set := by
  have hi0 : (i 0).val < 64 := idx2_lt0 i
  have hi1 : (i 1).val < 64 := idx2_lt1 i
  obtain ⟨t, ht⟩ : ∃ t : Fin cfg0.N, t.val = (i 0).val / 8 := ⟨⟨(i 0).val / 8, lt_of_lt_of_eq (by omega) N_0.symm⟩, rfl⟩
  obtain ⟨-, -, -, -, -, e0, e1, -⟩ := idx_facts t
  refine ⟨t, flush0_2 t, ?_⟩
  rw [mem_blk2]
  intro a
  match a with
  | ⟨0, _⟩ =>
    show win0_2.index t (0 : Fin 2) * 8 ≤ (i 0).val ∧ (i 0).val < win0_2.index t (0 : Fin 2) * 8 + 8
    rw [e0, ht]; omega
  | ⟨1, _⟩ =>
    show win0_2.index t (1 : Fin 2) * 64 ≤ (i 1).val ∧ (i 1).val < win0_2.index t (1 : Fin 2) * 64 + 64
    rw [e1]; omega

/-- The score matrix's array after the run is the specification's score matrix of the three inputs. -/
theorem final2 :
    (dats m 0 c).arrAt 2 cfg0.N = scoreArr (V m c main_arg0) (V m c main_arg1) (V m c main_arg2) :=
  (dats m 0 c).arrAt_eq_of_cover 2 (scoreArr (tArr m c) (vArr m c) (mArr m c)) (fun t _ => flushed2_eq m c t) cover2

/-! ## The regulariser's total -/

/-- A sum over 64 sentences, split into eight points of eight: sentence 8·s + a. -/
private theorem sum_sentences {M : Type*} [AddCommMonoid M] (g : Fin 64 → M) :
    ∑ i : Fin 64, g i = ∑ s : Fin 8, ∑ a : Fin 8, g ⟨8 * s.val + a.val, by omega⟩ := by
  rw [← Equiv.sum_comp (finProdFinEquiv (m := 8) (n := 8)) g, Fintype.sum_prod_type]
  refine Finset.sum_congr rfl fun s _ => Finset.sum_congr rfl fun a _ => congrArg g (Fin.ext ?_)
  show a.val + 8 * s.val = 8 * s.val + a.val
  exact Nat.add_comm _ _

/-- The points' sums added up: over all sentences, images, tokens and patches. -/
private theorem total_eq (f : Fin 64 → Fin 64 → Fin 128 → Fin 256 → EReal) :
    (∑ t : Fin cfg0.N, ∑ a : Fin 8, ∑ k : Fin 128, ∑ j : Fin 64, ∑ l : Fin 256,
        f (⟨8 * t.val + a.val, by have := tval_lt t; omega⟩ : Fin 64) j k l)
      = ∑ i : Fin 64, ∑ j : Fin 64, ∑ k : Fin 128, ∑ l : Fin 256, f i j k l := by
  -- the eight points are the eight values of the quotient by eight
  refine (Fintype.sum_equiv (finCongr N_0)
    (fun t : Fin cfg0.N => ∑ a : Fin 8, ∑ k : Fin 128, ∑ j : Fin 64, ∑ l : Fin 256,
      f (⟨8 * t.val + a.val, by have := tval_lt t; omega⟩ : Fin 64) j k l)
    (fun s : Fin 8 => ∑ a : Fin 8, ∑ k : Fin 128, ∑ j : Fin 64, ∑ l : Fin 256,
      f (⟨8 * s.val + a.val, by omega⟩ : Fin 64) j k l) (fun t => rfl)).trans ?_
  refine (sum_sentences (fun i : Fin 64 => ∑ k : Fin 128, ∑ j : Fin 64, ∑ l : Fin 256, f i j k l)).symm.trans ?_
  -- tokens and images exchange
  exact Finset.sum_congr rfl fun i _ => Finset.sum_comm

/-- After the last point the accumulator's entry is the regulariser's total. -/
private theorem acc_last (t : Fin cfg0.N) (h7 : t.val = 7) (y : S1x1.Idx) :
    (outsAt0 m c t.val t.isLt).2.1 y = negTotal (tArr m c) (vArr m c) := by
  obtain rfl : y = ix2 (0 : Fin 1) (0 : Fin 1) := by
    have h0 : (y 0).val < 1 := idx2_lt0 y
    have h1 : (y 1).val < 1 := idx2_lt1 y
    refine (eq_ix2 y).trans ?_
    congr 1 <;> apply Fin.ext <;> show _ = 0 <;> omega
  refine (outs_inv m c t.val t.isLt).2.2.trans ?_
  refine (sum_upTo_last (fun t' : Fin cfg0.N => blockSq (xblk m c t') (cache m c) (ix2 (0 : Fin 1) (0 : Fin 1))) t.val
    (by rw [h7]; exact le_of_eq N_0)).trans ?_
  refine (Finset.sum_congr rfl fun t' _ => sqBlk_apply m c t').trans ?_
  exact total_eq (fun i j k l => clipSq (sim (tArr m c) (vArr m c) i j k l))

/-- The one write-back of the accumulator, after the last point, writes the regulariser's total. -/
private theorem flushed3_eq (t : Fin cfg0.N) (hf : (cfg0.win 3).flush t = true) :
    (dats m 0 c).flushed 3 t
      = ((cfg0.win 3).blk t).view.read (Elt Ideal) (fun _ => negTotal (tArr m c) (vArr m c)) := by
  have h7 : t.val = 7 := by have := (flush0_3 t).mp hf; have := tval_lt t; omega
  show (cfg0.win 3).cut (grid0.coords t) ((dats m 0 c).after 3 t) = _
  rw [after0_3]
  funext y
  exact acc_last m c t h7 y

/-- An index of the one-entry array is in point t's block iff each coordinate is in the block's range on its axis. -/
private theorem mem_blk3 (t : Fin cfg0.N) (i : S1x1.Idx) :
    i ∈ ((cfg0.win 3).blk t).view.set
      ↔ ∀ a : Fin 2, win0_3.index t a * S1x1.size a ≤ (i a).val ∧ (i a).val < win0_3.index t a * S1x1.size a + S1x1.size a := by
  show i ∈ ((View.whole main_v0_1).slice (win0_3.rect t)).set ↔ _
  rw [View.set_slice_whole, Rect.mem_set_unit]
  exact Iff.rfl

/-- The last point's block is the whole one-entry array. -/
private theorem cover3 (i : S1x1.Idx) :
    ∃ t : Fin cfg0.N, (cfg0.win 3).flush t = true ∧ i ∈ ((cfg0.win 3).blk t).view.set := by
  have hi0 : (i 0).val < 1 := idx2_lt0 i
  have hi1 : (i 1).val < 1 := idx2_lt1 i
  obtain ⟨-, -, -, -, -, -, -, e0, e1⟩ := idx_facts t0_7
  refine ⟨t0_7, (flush0_3 t0_7).mpr rfl, ?_⟩
  rw [mem_blk3]
  intro a
  match a with
  | ⟨0, _⟩ =>
    show win0_3.index t0_7 (0 : Fin 2) * 1 ≤ (i 0).val ∧ (i 0).val < win0_3.index t0_7 (0 : Fin 2) * 1 + 1
    rw [e0]; omega
  | ⟨1, _⟩ =>
    show win0_3.index t0_7 (1 : Fin 2) * 1 ≤ (i 1).val ∧ (i 1).val < win0_3.index t0_7 (1 : Fin 2) * 1 + 1
    rw [e1]; omega

/-- The one-entry array after the run holds the regulariser's total. -/
theorem final3 :
    (dats m 0 c).arrAt 3 cfg0.N = fun _ => negTotal (V m c main_arg0) (V m c main_arg1) :=
  (dats m 0 c).arrAt_eq_of_cover 3 (fun _ => negTotal (tArr m c) (vArr m c)) (flushed3_eq m c) cover3

end Cert.KernelIdeal.Fr

end
-- ==== Proof.RefValue.lean ====
/-
  The reference's value, read off its run, on the extended reals.

  The reference normalises every token row and every patch row, contracts the 512 features for every (image, patch,
  sentence, token), takes each token's best patch, weights by the mask, sums over tokens and divides by the floored
  token count: the score matrix. From the same products it clips to [−20, 0], squares and sums everything: the
  regulariser's total, which it divides by 2^27 and multiplies by the word of 0.15. Everything else it does is the
  closing arithmetic `ceLoss` on the score matrix (two log-softmaxes, their diagonals, a mean), which is never opened.
-/
import proofs.«143648_j70927089926536_1_alg».proof.Proof.Gen.ReferenceIdeal.Run
import proofs.«143648_j70927089926536_1_alg».proof.Proof.Gen.ReferenceIdeal.Read
import proofs.«143648_j70927089926536_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Cert.ReferenceIdeal Cert.ReferenceIdeal.Gen Cert.ReferenceIdeal.Value Cert.Pairs
open Cert.ReferenceIdeal.Read
open Idealize.ShloMosaic Idealize.ShloMosaic.TcCoe Idealize.SL.Sem Idealize.ShloMosaic.ValueIdx

/-- The reference's closing arithmetic on the score matrix: the contrastive part of the loss (the term of `%57` as a
    function of `%19`). -/
def ceLoss (cs : FVec Ideal S64x64 .f32) : FVec Ideal S_ .f32 :=
  (Host.divf (Host.divf (Host.reduceAdd (addf (Host.negf (Host.gather gather_S64x64_S64x2_S64_n_01_n_n_01_1_11 (subf (subf cs (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf cs (constant S_ .f32 0xFF800000#32) reducesTo_S64x64_S64_d1 h_S_))))) (broadcastInDim S64x64 ![0, 1] bcast_S64x1_S64x64_0_1 (Host.log (broadcastInDim S64x1 ![0] bcast_S64_S64x1_0 (Host.reduceAdd (Host.exp (subf cs (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf cs (constant S_ .f32 0xFF800000#32) reducesTo_S64x64_S64_d1 h_S_)))))) (constant S_ .f32 0x00000000#32) reducesTo_S64x64_S64_d1 h_S_))))) (concatenate S64x2 1 [⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩, ⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩] concatenates_S64x1_S64x1_S64x2_d1))) (Host.negf (Host.gather gather_S64x64_S64x2_S64_n_01_n_n_01_1_11 (subf (subf (transpose S64x64 [1, 0] cs transposes_S64x64_S64x64_1_0) (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf (transpose S64x64 [1, 0] cs transposes_S64x64_S64x64_1_0) (constant S_ .f32 0xFF800000#32) reducesTo_S64x64_S64_d1 h_S_))))) (broadcastInDim S64x64 ![0, 1] bcast_S64x1_S64x64_0_1 (Host.log (broadcastInDim S64x1 ![0] bcast_S64_S64x1_0 (Host.reduceAdd (Host.exp (subf (transpose S64x64 [1, 0] cs transposes_S64x64_S64x64_1_0) (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf (transpose S64x64 [1, 0] cs transposes_S64x64_S64x64_1_0) (constant S_ .f32 0xFF800000#32) reducesTo_S64x64_S64_d1 h_S_)))))) (constant S_ .f32 0x00000000#32) reducesTo_S64x64_S64_d1 h_S_))))) (concatenate S64x2 1 [⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩, ⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩] concatenates_S64x1_S64x1_S64x2_d1)))) (constant S_ .f32 0x00000000#32) reducesTo_S64_S_d0 h_S_) (constant S_ .f32 0x42800000#32)) (constant S_ .f32 0x40000000#32))

/-! ## Constants -/

private theorem negInf_f32 : Ideal.ofBits .f32 0xFF800000#32 = ⊥ := by simp [Ideal.ofBits, Ideal.ieee]

/-! ## The rows' floored norms and the unit rows -/

private theorem v1_at (t : (⟨S64x128x512, .f32⟩ : BufTy).Contents (Elt Ideal)) (i : Fin 64) (k : Fin 128) (u : Fin 1) :
    val_main_v1 (F := Ideal) t (ix3 i k u) = tNorm t i k := by
  rw [val_main_v1_apply, val_main_call1_v1_apply, val_main_call1_v0_apply, val_main_cst_apply, val_main_v0_apply,
    val_main_call0_v2_apply, val_main_call0_v1_apply, val_main_call0_cst_apply]
  show max (Ideal.ofBits .f32 0x2B8CBCCC#32) (Ideal.sqrt (Ideal.ofBits .f32 0x00000000#32 + _)) = _
  rw [Ideal.ofBits_zero_f32, zero_add, max_comm]
  unfold tNorm floor12
  refine congrArg (fun s => max (Ideal.sqrt s) _) (Finset.sum_congr rfl fun d _ => ?_)
  rw [val_main_call0_v0_apply]
  have e : idx_main_call0_v1 (idx_main_call0_v2 (ix3 i k u)) d = ix3 i k d := by
    funext a; match a with | ⟨0, _⟩ => rfl | ⟨1, _⟩ => rfl | ⟨2, _⟩ => rfl
  rw [e]; rfl

private theorem v3_at (t : (⟨S64x128x512, .f32⟩ : BufTy).Contents (Elt Ideal)) (i : Fin 64) (k : Fin 128) (d : Fin 512) :
    val_main_v3 (F := Ideal) t (ix3 i k d) = tUnit t i k d := by
  rw [val_main_v3_apply, val_main_v2_apply]
  have e : idx_main_v2 (ix3 i k d) = ix3 i k (0 : Fin 1) := by
    funext a; match a with | ⟨0, _⟩ => rfl | ⟨1, _⟩ => rfl | ⟨2, _⟩ => rfl
  rw [e, v1_at]; rfl

private theorem v5_at (v : (⟨S64x256x512, .f32⟩ : BufTy).Contents (Elt Ideal)) (j : Fin 64) (l : Fin 256) (u : Fin 1) :
    val_main_v5 (F := Ideal) v (ix3 j l u) = vNorm v j l := by
  rw [val_main_v5_apply, val_main_call3_v1_apply, val_main_call3_v0_apply, val_main_cst_0_apply, val_main_v4_apply,
    val_main_call2_v2_apply, val_main_call2_v1_apply, val_main_call2_cst_apply]
  show max (Ideal.ofBits .f32 0x2B8CBCCC#32) (Ideal.sqrt (Ideal.ofBits .f32 0x00000000#32 + _)) = _
  rw [Ideal.ofBits_zero_f32, zero_add, max_comm]
  unfold vNorm floor12
  refine congrArg (fun s => max (Ideal.sqrt s) _) (Finset.sum_congr rfl fun d _ => ?_)
  rw [val_main_call2_v0_apply]
  have e : idx_main_call2_v1 (idx_main_call2_v2 (ix3 j l u)) d = ix3 j l d := by
    funext a; match a with | ⟨0, _⟩ => rfl | ⟨1, _⟩ => rfl | ⟨2, _⟩ => rfl
  rw [e]; rfl

private theorem v7_at (v : (⟨S64x256x512, .f32⟩ : BufTy).Contents (Elt Ideal)) (j : Fin 64) (l : Fin 256) (d : Fin 512) :
    val_main_v7 (F := Ideal) v (ix3 j l d) = vUnit v j l d := by
  rw [val_main_v7_apply, val_main_v6_apply]
  have e : idx_main_v6 (ix3 j l d) = ix3 j l (0 : Fin 1) := by
    funext a; match a with | ⟨0, _⟩ => rfl | ⟨1, _⟩ => rfl | ⟨2, _⟩ => rfl
  rw [e, v5_at]; rfl

/-! ## The similarities -/

private theorem v9_at (t : (⟨S64x128x512, .f32⟩ : BufTy).Contents (Elt Ideal)) (v : (⟨S64x256x512, .f32⟩ : BufTy).Contents (Elt Ideal)) (i j : Fin 64) (k : Fin 128) (l : Fin 256) :
    val_main_v9 (F := Ideal) t v (ix4 i j k l) = sim t v i j k l := by
  rw [val_main_v9_apply, val_main_v8_apply]
  unfold sim
  refine Finset.sum_congr rfl fun d _ => ?_
  have el : lidx_main_v8 (idx_main_v9 (ix4 i j k l)) d = ix3 j l d := by
    funext a; match a with | ⟨0, _⟩ => rfl | ⟨1, _⟩ => rfl | ⟨2, _⟩ => rfl
  have er : ridx_main_v8 (idx_main_v9 (ix4 i j k l)) d = ix3 i k d := by
    funext a; match a with | ⟨0, _⟩ => rfl | ⟨1, _⟩ => rfl | ⟨2, _⟩ => rfl
  rw [el, er, v7_at, v3_at, mul_comm]

/-! ## Each token's best patch -/

private theorem red3 : S64x64x128x256.Reduces [3] S64x64x128 := by decide

private theorem v10_at (t : (⟨S64x128x512, .f32⟩ : BufTy).Contents (Elt Ideal)) (v : (⟨S64x256x512, .f32⟩ : BufTy).Contents (Elt Ideal)) (i j : Fin 64) (k : Fin 128) :
    val_main_v10 (F := Ideal) t v (ix3 i j k) = best t v i j k := by
  unfold val_main_v10
  rw [Host.reduce_eq_fold_single FloatOps.maximumf _ _ reducesTo_S64x64x128x256_S64x64x128_d3 red3 h_S_ (ix3 i j k)]
  rw [val_main_cst_1_apply]
  show (Finset.univ : Finset (Fin 256)).fold max (Ideal.ofBits .f32 0xFF800000#32) _ = _
  rw [negInf_f32]
  unfold best
  refine congrArg (fun f : Fin 256 → EReal => (Finset.univ : Finset (Fin 256)).fold max ⊥ f) (funext fun (l : Fin 256) => ?_)
  have e : red3.lift (ix3 i j k) l = ix4 i j k l := by
    funext a; match a with | ⟨0, _⟩ => exact Fin.ext rfl | ⟨1, _⟩ => exact Fin.ext rfl | ⟨2, _⟩ => exact Fin.ext rfl | ⟨3, _⟩ => exact Fin.ext rfl
  show val_main_v9 (F := Ideal) t v (red3.lift (ix3 i j k) l) = _
  rw [e, v9_at]

/-! ## The mask, the masked sums and the floored counts -/

private theorem v12_at (mk : (⟨S64x128, .i32⟩ : BufTy).Contents (Elt Ideal)) (i : Fin 64) (u : Fin 1) (k : Fin 128) :
    val_main_v12 (F := Ideal) mk (ix3 i u k) = maskR mk i k := by
  rw [val_main_v12_apply, val_main_v11_apply]
  have e : idx_main_v12 (ix3 i u k) = ix2 i k := by
    funext a; match a with | ⟨0, _⟩ => rfl | ⟨1, _⟩ => rfl
  rw [e]; rfl

private theorem v13_at (mk : (⟨S64x128, .i32⟩ : BufTy).Contents (Elt Ideal)) (i j : Fin 64) (k : Fin 128) :
    val_main_v13 (F := Ideal) mk (ix3 i j k) = maskR mk i k := by
  rw [val_main_v13_apply]
  have e : idx_main_v13 (ix3 i j k) = ix3 i (0 : Fin 1) k := by
    funext a; match a with | ⟨0, _⟩ => rfl | ⟨1, _⟩ => rfl | ⟨2, _⟩ => rfl
  rw [e, v12_at]

private theorem v15_at (t : (⟨S64x128x512, .f32⟩ : BufTy).Contents (Elt Ideal)) (v : (⟨S64x256x512, .f32⟩ : BufTy).Contents (Elt Ideal)) (mk : (⟨S64x128, .i32⟩ : BufTy).Contents (Elt Ideal)) (i j : Fin 64) :
    val_main_v15 (F := Ideal) t v mk (ix2 i j) = ∑ k : Fin 128, best t v i j k * maskR mk i k := by
  rw [val_main_v15_apply, val_main_cst_2_apply]
  show Ideal.ofBits .f32 0x00000000#32 + _ = _
  rw [Ideal.ofBits_zero_f32, zero_add]
  refine Finset.sum_congr rfl fun k _ => ?_
  have e : idx_main_v15 (ix2 i j) k = ix3 i j k := by
    funext a; match a with | ⟨0, _⟩ => rfl | ⟨1, _⟩ => rfl | ⟨2, _⟩ => rfl
  rw [e, val_main_v14_apply, v10_at, v13_at]; rfl

private theorem v17_at (mk : (⟨S64x128, .i32⟩ : BufTy).Contents (Elt Ideal)) (i : Fin 64) (u : Fin 1) :
    val_main_v17 (F := Ideal) mk (ix2 i u) = valid mk i := by
  rw [val_main_v17_apply, val_main_call4_v1_apply, val_main_call4_v0_apply, val_main_cst_4_apply, val_main_v16_apply,
    val_main_cst_3_apply]
  show max (Ideal.ofBits .f32 0x33D6BF95#32) (Ideal.ofBits .f32 0x00000000#32 + _) = _
  rw [Ideal.ofBits_zero_f32, zero_add, max_comm]
  unfold valid floor7
  refine congrArg (fun s => max s _) (Finset.sum_congr rfl fun k _ => ?_)
  have e : idx_main_v16 (ix2 i u) k = ix3 i u k := by
    funext a; match a with | ⟨0, _⟩ => rfl | ⟨1, _⟩ => rfl | ⟨2, _⟩ => rfl
  rw [e, v12_at]

/-! ## The score matrix -/

private theorem v19_at (t : (⟨S64x128x512, .f32⟩ : BufTy).Contents (Elt Ideal)) (v : (⟨S64x256x512, .f32⟩ : BufTy).Contents (Elt Ideal)) (mk : (⟨S64x128, .i32⟩ : BufTy).Contents (Elt Ideal)) (i j : Fin 64) :
    val_main_v19 (F := Ideal) t v mk (ix2 i j) = score t v mk i j := by
  rw [val_main_v19_apply, val_main_v18_apply, v15_at]
  have e : idx_main_v18 (ix2 i j) = ix2 i (0 : Fin 1) := by
    funext a; match a with | ⟨0, _⟩ => rfl | ⟨1, _⟩ => rfl
  rw [e, v17_at]; rfl

private theorem v19_eq (t : (⟨S64x128x512, .f32⟩ : BufTy).Contents (Elt Ideal)) (v : (⟨S64x256x512, .f32⟩ : BufTy).Contents (Elt Ideal)) (mk : (⟨S64x128, .i32⟩ : BufTy).Contents (Elt Ideal)) :
    val_main_v19 (F := Ideal) t v mk = scoreArr t v mk := by
  funext e
  rw [eq_ix2 e]
  exact v19_at t v mk (e 0) (e 1)

/-! ## The regulariser's total -/

/-- A rank-4 index set is the product of its four coordinate ranges … -/
private def idxEquiv4 {n0 n1 n2 n3 : Nat} :
    (⟨4, ![n0, n1, n2, n3]⟩ : Shape).Idx ≃ Fin n0 × Fin n1 × Fin n2 × Fin n3 where
  toFun e := (e 0, e 1, e 2, e 3)
  invFun p := ix4 p.1 p.2.1 p.2.2.1 p.2.2.2
  left_inv e := (eq_ix4 e).symm
  right_inv _ := rfl

/-- … so a sum over it is the fourfold sum over the coordinates. -/
private theorem sum_idx4 {M : Type*} [AddCommMonoid M] {n0 n1 n2 n3 : Nat} (f : (⟨4, ![n0, n1, n2, n3]⟩ : Shape).Idx → M) :
    ∑ e, f e = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

private theorem v59_at (t : (⟨S64x128x512, .f32⟩ : BufTy).Contents (Elt Ideal)) (v : (⟨S64x256x512, .f32⟩ : BufTy).Contents (Elt Ideal)) (i j : Fin 64) (k : Fin 128) (l : Fin 256) :
    val_main_v59 (F := Ideal) t v (ix4 i j k l) = clipSq (sim t v i j k l) := by
  have e58 : val_main_v58 (F := Ideal) t v (ix4 i j k l) = min 0 (max lo20 (sim t v i j k l)) := by
    rw [val_main_v58_apply, val_main_call7_v4_apply, val_main_call7_v3_apply, val_main_cst_16_apply,
      val_main_call7_v2_apply, val_main_call7_v1_apply, val_main_call7_v0_apply, val_main_cst_15_apply, v9_at]
    show min (Ideal.ofBits .f32 0x00000000#32) (max (Ideal.ofBits .f32 0xC1A00000#32) _) = _
    rw [Ideal.ofBits_zero_f32]; rfl
  rw [val_main_v59_apply, e58]; rfl

private theorem v60_eq (t : (⟨S64x128x512, .f32⟩ : BufTy).Contents (Elt Ideal)) (v : (⟨S64x256x512, .f32⟩ : BufTy).Contents (Elt Ideal)) :
    val_main_v60 (F := Ideal) t v = fun _ => negTotal t v := by
  funext e
  rw [val_main_v60_apply, val_main_cst_17_apply]
  show Ideal.ofBits .f32 0x00000000#32 + _ = _
  rw [Ideal.ofBits_zero_f32, zero_add]
  show ∑ e : (⟨4, ![64, 64, 128, 256]⟩ : Shape).Idx, val_main_v59 (F := Ideal) t v e = _
  rw [sum_idx4]
  unfold negTotal
  refine Finset.sum_congr rfl fun i _ => Finset.sum_congr rfl fun j _ => Finset.sum_congr rfl fun k _ =>
    Finset.sum_congr rfl fun l _ => v59_at t v i j k l

/-! ## The result -/

/-- The run's term with the score matrix and the regulariser's total named by their stages. -/
private theorem res_struct (m : (ℓ : Loc nD τ sig) → Buf (Elt Ideal) ℓ) (c : Dev nD) :
    res_out0 (F := Ideal) m c
      = addf (ceLoss (val_main_v19 (F := Ideal) (m ((c.tc : Thread nD τ).loc main_arg0)) (m ((c.tc : Thread nD τ).loc main_arg1)) (m ((c.tc : Thread nD τ).loc main_arg2))))
          (mulf (constant S_ .f32 0x3E19999A#32)
            (Host.divf (val_main_v60 (F := Ideal) (m ((c.tc : Thread nD τ).loc main_arg0)) (m ((c.tc : Thread nD τ).loc main_arg1)))
              (constant S_ .f32 0x4D000000#32))) :=
  (val_main_v63_eq m c).trans rfl

/-- The reference's result: the closing arithmetic on the score matrix, plus the word of 0.15 times the regulariser's
    total over 2^27. -/
theorem res_eq (m : (ℓ : Loc nD τ sig) → Buf (Elt Ideal) ℓ) (c : Dev nD) :
    res_out0 (F := Ideal) m c
      = addf (ceLoss (scoreArr (m ((c.tc : Thread nD τ).loc main_arg0)) (m ((c.tc : Thread nD τ).loc main_arg1)) (m ((c.tc : Thread nD τ).loc main_arg2))))
          (mulf (constant S_ .f32 0x3E19999A#32)
            (Host.divf (fun _ => negTotal (m ((c.tc : Thread nD τ).loc main_arg0)) (m ((c.tc : Thread nD τ).loc main_arg1)))
              (constant S_ .f32 0x4D000000#32))) := by
  rw [res_struct, v19_eq, v60_eq]

end Cert.ReferenceIdeal.RefValue

end
-- ==== Proof.KI.CeLoss.lean ====
/-
  The closing arithmetic on the score matrix, on the kernel program's side.

  After its grid the kernel program applies to the 64 × 64 score matrix the same operations as the reference: the
  log-softmax of the matrix along its rows and that of its transpose, the two diagonals read by a gather, negated and
  added, their sum divided by 64 and then by 2. Written over the kernel program's own shapes, gather record and shape
  facts this is `ceLossK`; those shapes are the same literals and the facts are propositions, so it is the reference's
  `ceLoss`, and neither is ever opened.
-/
import proofs.«143648_j70927089926536_1_alg».proof.Proof.Gen.KernelIdeal
import proofs.«143648_j70927089926536_1_alg».proof.Proof.RefValue

noncomputable section

namespace Cert.KernelIdeal.Fr

open Cert.KernelIdeal Cert.KernelIdeal.Gen
open Idealize.ShloMosaic

/-- The kernel program's closing arithmetic on the score matrix: the contrastive part of the loss. -/
def ceLossK (cs : FVec Ideal S64x64 .f32) : FVec Ideal S_ .f32 :=
  (Host.divf (Host.divf (Host.reduceAdd (addf (Host.negf (Host.gather gather_S64x64_S64x2_S64_n_01_n_n_01_1_11 (subf (subf cs (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf cs (constant S_ .f32 0xFF800000#32) reducesTo_S64x64_S64_d1 h_S_))))) (broadcastInDim S64x64 ![0, 1] bcast_S64x1_S64x64_0_1 (Host.log (broadcastInDim S64x1 ![0] bcast_S64_S64x1_0 (Host.reduceAdd (Host.exp (subf cs (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf cs (constant S_ .f32 0xFF800000#32) reducesTo_S64x64_S64_d1 h_S_)))))) (constant S_ .f32 0x00000000#32) reducesTo_S64x64_S64_d1 h_S_))))) (concatenate S64x2 1 [⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩, ⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩] concatenates_S64x1_S64x1_S64x2_d1))) (Host.negf (Host.gather gather_S64x64_S64x2_S64_n_01_n_n_01_1_11 (subf (subf (transpose S64x64 [1, 0] cs transposes_S64x64_S64x64_1_0) (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf (transpose S64x64 [1, 0] cs transposes_S64x64_S64x64_1_0) (constant S_ .f32 0xFF800000#32) reducesTo_S64x64_S64_d1 h_S_))))) (broadcastInDim S64x64 ![0, 1] bcast_S64x1_S64x64_0_1 (Host.log (broadcastInDim S64x1 ![0] bcast_S64_S64x1_0 (Host.reduceAdd (Host.exp (subf (transpose S64x64 [1, 0] cs transposes_S64x64_S64x64_1_0) (broadcastInDim S64x64 ![0, 1] bcast_S64x1_S64x64_0_1 (broadcastInDim S64x1 ![0] bcast_S64_S64x1_0 (maximumf (broadcastInDim S64 ![] bcast_S_S64 (constant S_ .f32 0xFF800000#32)) (Host.reduce FloatOps.maximumf (transpose S64x64 [1, 0] cs transposes_S64x64_S64x64_1_0) (constant S_ .f32 0xFF800000#32) reducesTo_S64x64_S64_d1 h_S_)))))) (constant S_ .f32 0x00000000#32) reducesTo_S64x64_S64_d1 h_S_))))) (concatenate S64x2 1 [⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩, ⟨S64x1, (broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)))⟩] concatenates_S64x1_S64x1_S64x2_d1)))) (constant S_ .f32 0x00000000#32) reducesTo_S64_S_d0 h_S_) (constant S_ .f32 0x42800000#32)) (constant S_ .f32 0x40000000#32))

/-- It is the reference's closing arithmetic: the same operations over the same literal shapes. -/
theorem ceLossK_eq (cs : FVec Ideal S64x64 .f32) : ceLossK cs = Cert.ReferenceIdeal.RefValue.ceLoss cs := rfl

end Cert.KernelIdeal.Fr

end
-- ==== Proof.KI.Tail.lean ====
/-
  The kernel program's closing host operations, on the extended reals.

  After the region the program takes the score matrix and the one-entry total: it multiplies the total by the word of
  0.15 and divides by 2^27, applies the closing arithmetic `ceLossK` to the score matrix, and adds the two.
-/
import proofs.«143648_j70927089926536_1_alg».proof.Proof.KI.Frame
import proofs.«143648_j70927089926536_1_alg».proof.Proof.KI.CeLoss
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo

/-- Two columns of indices set side by side: the index pairs a gather reads a diagonal by. -/
private def cat2 (a b : (⟨S64x1, .i32⟩ : BufTy).Contents (Elt Ideal)) : (⟨S64x2, .i32⟩ : BufTy).Contents (Elt Ideal) :=
  concatenate S64x2 1 [⟨S64x1, a⟩, ⟨S64x1, b⟩] concatenates_S64x1_S64x1_S64x2_d1

/-- The program's result buffer after the later host operations, from the two arrays the region leaves. -/
theorem tail_val (m : (ℓ : Loc nD τ sig) → Buf (Elt Ideal) ℓ) (c : Dev nD) :
    Pipeline.afterTail₀ cfgs (dats m) 0 (V0 m) [hostOps1, hostOps1_1, hostOps1_2, hostOps1_3, hostOps1_4] c main_v42
      = addf (ceLossK ((dats m 0 c).arrAt 2 cfg0.N))
          (Host.divf (mulf (constant S_ .f32 0x3E19999A#32) (shapeCast S_ ((dats m 0 c).arrAt 3 cfg0.N) shapeCasts_S1x1_S_))
            (constant S_ .f32 0x4D000000#32)) := by
  -- the placing side by side, under its name: its two columns are then values like any other operand
  have ecat : ((fun a b => concatenate S64x2 1 [⟨S64x1, a⟩, ⟨S64x1, b⟩] concatenates_S64x1_S64x1_S64x2_d1) :
      (⟨S64x1, .i32⟩ : BufTy).Contents (Elt Ideal) → (⟨S64x1, .i32⟩ : BufTy).Contents (Elt Ideal) → (⟨S64x2, .i32⟩ : BufTy).Contents (Elt Ideal))
      = cat2 := rfl
  -- the five stretches are one line of operations, run from what the region leaves
  unfold Pipeline.afterTail₀
  simp only [hostOps1, hostOps1_1, hostOps1_2, hostOps1_3, hostOps1_4, List.flatten_cons, List.flatten_nil, List.append_nil,
    List.cons_append, List.nil_append]
  rw [ecat]
  -- each operation's result is its function of its operands' contents; a buffer it does not write keeps what it held
  after_results_simp
  simp only [TRef.ofBuf, TRef.toBuf, cast_eq]
  -- the two buffers the operations read from the region are its windows 2 and 3: the score matrix and the total
  have h2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have h3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  rw [h2, h3]
  -- what is left is the closing arithmetic on the score matrix plus the scaled total, term for term
  rfl

end Cert.KernelIdeal.Fr

end
-- ==== Proof.Bridge.lean ====
/-
  The one law that joins the two programs' closing arithmetic, on the extended reals.

  The kernel program multiplies the regulariser's total by a constant and then divides by 2^27; the reference divides
  first and multiplies after. The divisor's word denotes the nonzero real 2^27, division by a nonzero number is
  multiplication by its inverse, and multiplication on the extended reals is associative: so the two agree for every
  extended real, finite or not.
-/
import Idealize.ShloMosaic.PureOps.Ideal.Laws

noncomputable section

namespace Cert.Pairs

open Idealize.ShloMosaic

/-- The word 0x4D000000 denotes a nonzero number (2^27). -/
theorem two27_ne_zero : Ideal.ofBits .f32 0x4D000000#32 ≠ 0 := by
  have h : Ideal.ofBits .f32 0x4D000000#32 = ((134217728 : ℝ) : EReal) := by
    simp [Ideal.ofBits, Ideal.ieee, -EReal.coe_mul]
    norm_num
  rw [h]
  exact_mod_cast (by norm_num : (134217728 : ℝ) ≠ 0)

/-- (a · T) / 2^27 = a · (T / 2^27), for all extended reals a and T. -/
theorem scale_div (a T : EReal) :
    Ideal.div (a * T) (Ideal.ofBits .f32 0x4D000000#32) = a * Ideal.div T (Ideal.ofBits .f32 0x4D000000#32) := by
  unfold Ideal.div
  rw [if_neg two27_ne_zero, if_neg two27_ne_zero, mul_assoc]

end Cert.Pairs

end
-- ==== Proof.KI.RunValue.lean ====
/-
  The kernel program's run with its result named, on the extended reals.

  After the region the score matrix's array is the specification's score matrix and the one-entry array holds the
  regulariser's total; the later host operations apply the closing arithmetic to the first and scale the second by the
  word of 0.15 over 2^27. The reference scales in the other order, (0.15 · T) / 2^27 against 0.15 · (T / 2^27): the same
  extended real for every T, since 2^27 is a nonzero real. So the program's result is the reference's expression of the
  same two quantities.
-/
import proofs.«143648_j70927089926536_1_alg».proof.Proof.KI.Final
import proofs.«143648_j70927089926536_1_alg».proof.Proof.KI.Tail
import proofs.«143648_j70927089926536_1_alg».proof.Proof.RefValue
import proofs.«143648_j70927089926536_1_alg».proof.Proof.Bridge

set_option maxRecDepth 16384

noncomputable section

namespace Cert.KernelIdeal.Fr

open Cert.KernelIdeal Cert.KernelIdeal.Gen Cert.Pairs
open Idealize.ShloMosaic Idealize.ShloMosaic.TcCoe Idealize.SL.Sem

/-- The loss as the reference spells it, from the three inputs. -/
def lossOf (t : (⟨3, ![64, 128, 512]⟩ : Shape).Idx → EReal) (v : (⟨3, ![64, 256, 512]⟩ : Shape).Idx → EReal)
    (mk : (⟨2, ![64, 128]⟩ : Shape).Idx → BitVec 32) : FVec Ideal S_ .f32 :=
  addf (Cert.ReferenceIdeal.RefValue.ceLoss (scoreArr t v mk))
    (mulf (constant S_ .f32 0x3E19999A#32) (Host.divf (fun _ => negTotal t v) (constant S_ .f32 0x4D000000#32)))

/-- The result buffer after the later host operations is the loss of the three inputs. -/
theorem kernel_value (m : (ℓ : Loc nD τ sig) → Buf (Elt Ideal) ℓ) (c : Dev nD) :
    Pipeline.afterTail₀ cfgs (dats m) 0 (V0 m) [hostOps1, hostOps1_1, hostOps1_2, hostOps1_3, hostOps1_4] c main_v42
      = lossOf (V m c main_arg0) (V m c main_arg1) (V m c main_arg2) := by
  rw [tail_val, final2, final3, ceLossK_eq]
  unfold lossOf
  congr 1
  funext i
  exact scale_div _ _

/-- Every weakly fair execution of the program terminates with the result at the loss of the three inputs and the
    inputs unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v42) = lossOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v42 (Pipeline.mem_restRefs_of main_v42 (by decide) (by decide))).trans (kernel_value m c),
        ((h c).1 0).trans ((((dats m) 0 c).arrAt_in 0 rfl _).trans ((A_eq m c 0).trans (V_main_arg0 m c))),
        ((h c).2 main_arg1 (Pipeline.mem_restRefs_of main_arg1 (by decide) (by decide))).trans (W_main_arg1 m (dats m) c),
        ((h c).1 1).trans ((((dats m) 0 c).arrAt_in 1 rfl _).trans ((A_eq m c 1).trans (V_main_arg2 m c)))⟩)
    (run_main (F := Ideal) m ρ)

end Cert.KernelIdeal.Fr

end
-- ==== Proof.lean ====
/-
  The certificate: the word-level kernel program and its idealization run to the end without a fault and leave their
  three inputs unchanged; the reference does too; the idealization rewrote nothing; and at the ideal values the kernel
  program and the reference, run from the same inputs, end with the same loss.

  The loss is the closing arithmetic of the score matrix plus 0.15 times the mean of the clipped squared similarities.
  The kernel program reaches the score matrix tile by tile (eight sentences at a time against four images at a time,
  over visual features normalised once and kept), and the total of clipped squares as a running sum over the tiles; the
  reference reaches both in one sweep. Both are shown equal to one index-by-index specification of the two quantities;
  the remaining difference, the order of a product and a division by 2^27, is a law of the extended reals.
-/
import proofs.«143648_j70927089926536_1_alg».proof.Defs
import proofs.«143648_j70927089926536_1_alg».proof.Proof.Gen.Kernel
import proofs.«143648_j70927089926536_1_alg».proof.Proof.Gen.KernelIdeal
import proofs.«143648_j70927089926536_1_alg».proof.Proof.Gen.ReferenceIdeal
import proofs.«143648_j70927089926536_1_alg».proof.Proof.Gen.Pre_finite_inputs
import proofs.«143648_j70927089926536_1_alg».proof.Proof.Gen.ReferenceIdeal.Run
import proofs.«143648_j70927089926536_1_alg».proof.Proof.KB.Frame
import proofs.«143648_j70927089926536_1_alg».proof.Proof.KI.RunValue
import Idealize.ShloMosaic.Adequacy
import Idealize.ShloMosaic.Init

noncomputable section

namespace Cert.Proof

open Idealize.ShloMosaic Idealize.SL.Sem

/-- The word-level program's frame. -/
theorem frame_k : Cert.frame_Kernel := fun m ρ _ => Cert.Kernel.Fr.frame (F := Bits) m ρ

/-- The idealized program's frame. -/
theorem frame_ki : Cert.frame_KernelIdeal := fun m ρ _ => Cert.KernelIdeal.Fr.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the loss of the same three inputs. -/
theorem algebraic : Cert.algebraic_KernelIdeal_ReferenceIdeal := by
  intro m ρ m' ρ' _ hagree
  refine ⟨fun c => Cert.KernelIdeal.Fr.lossOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [show Cert.ReferenceIdeal.Value.res_main_v63 m' c = Cert.ReferenceIdeal.Value.res_out0 m' c from rfl,
    Cert.ReferenceIdeal.RefValue.res_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
